-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x512x512 : Shape := ⟨4, ![8, 16, 512, 512]⟩
abbrev S8x512x512 : Shape := ⟨3, ![8, 512, 512]⟩
abbrev S_ : Shape := ⟨0, ![]⟩

class Facts : Prop where
  bcast_S_S8x16x512x512 : S_.BroadcastsInDim S8x16x512x512 (![] : Fin 0 → Fin S8x16x512x512.rank)
  reducesTo_S8x16x512x512_S_d0_1_2_3 : S8x16x512x512.ReducesTo [0, 1, 2, 3] S_
  h_S_ : 0 < S_.numel
  bcast_S_S8x512x512 : S_.BroadcastsInDim S8x512x512 (![] : Fin 0 → Fin S8x512x512.rank)
  reducesTo_S8x512x512_S_d0_1_2 : S8x512x512.ReducesTo [0, 1, 2] S_

variable [Facts]

def fn {F : FTy → Type} [FloatOps F] (main_arg0 : FVec F S8x16x512x512 .f32) (main_arg1 : IVec S8x512x512 32) : IVec S_ 1 :=
  let main_v0 : FVec F S8x16x512x512 .f32 := Host.absf main_arg0
  let main_cst : FVec F S_ .f32 := constant S_ .f32 0x7F800000#32
  let main_v1 : FVec F S8x16x512x512 .f32 := broadcastInDim S8x16x512x512 ![] bcast_S_S8x16x512x512 main_cst
  let main_v2 : IVec S8x16x512x512 1 := cmpf .olt main_v0 main_v1
  let main_c : IVec S_ 1 := constantI S_ 1 1#1
  let main_v3 : IVec S_ 1 := (fun x v => Host.reduce IntOp.andi x v reducesTo_S8x16x512x512_S_d0_1_2_3 h_S_) main_v2 main_c
  let main_c_0 : IVec S_ 32 := constantI S_ 32 0#32
  let main_v4 : IVec S8x512x512 32 := broadcastInDim S8x512x512 ![] bcast_S_S8x512x512 main_c_0
  let main_v5 : IVec S8x512x512 1 := cmpi .sge main_arg1 main_v4
  let main_c_1 : IVec S_ 32 := constantI S_ 32 17#32
  let main_v6 : IVec S8x512x512 32 := broadcastInDim S8x512x512 ![] bcast_S_S8x512x512 main_c_1
  let main_v7 : IVec S8x512x512 1 := cmpi .slt main_arg1 main_v6
  let main_v8 : IVec S8x512x512 1 := andi main_v5 main_v7
  let main_c_2 : IVec S_ 1 := constantI S_ 1 1#1
  let main_v9 : IVec S_ 1 := (fun x v => Host.reduce IntOp.andi x v reducesTo_S8x512x512_S_d0_1_2 h_S_) main_v8 main_c_2
  let main_v10 : IVec S_ 1 := andi main_v3 main_v9
  main_v10
-- ==== Kernel.lean ====
abbrev S8x16x512x512 : Shape := ⟨4, ![8, 16, 512, 512]⟩
abbrev S8x512x512 : Shape := ⟨3, ![8, 512, 512]⟩
abbrev S8x16x262144 : Shape := ⟨3, ![8, 16, 262144]⟩
abbrev S8x1x262144 : Shape := ⟨3, ![8, 1, 262144]⟩
abbrev S8x17x17 : Shape := ⟨3, ![8, 17, 17]⟩
abbrev S1x16x32768 : Shape := ⟨3, ![1, 16, 32768]⟩
abbrev S1x1x32768 : Shape := ⟨3, ![1, 1, 32768]⟩
abbrev S1x17x17 : Shape := ⟨3, ![1, 17, 17]⟩
abbrev S17x17 : Shape := ⟨2, ![17, 17]⟩
abbrev S16x32768 : Shape := ⟨2, ![16, 32768]⟩
abbrev S1x32768 : Shape := ⟨2, ![1, 32768]⟩
abbrev S17x1 : Shape := ⟨2, ![17, 1]⟩
abbrev S17x32768 : Shape := ⟨2, ![17, 32768]⟩
abbrev S8x17x16 : Shape := ⟨3, ![8, 17, 16]⟩
abbrev S8x17x1 : Shape := ⟨3, ![8, 17, 1]⟩
abbrev S8x17 : Shape := ⟨2, ![8, 17]⟩
abbrev S_ : Shape := ⟨0, ![]⟩
abbrev S1 : Shape := ⟨1, ![1]⟩
abbrev S8 : Shape := ⟨1, ![8]⟩
abbrev S1x17x16 : Shape := ⟨3, ![1, 17, 16]⟩
abbrev S1x17x1 : Shape := ⟨3, ![1, 17, 1]⟩
abbrev S17x16 : Shape := ⟨2, ![17, 16]⟩
abbrev S32768 : Shape := ⟨1, ![32768]⟩
abbrev S8x17x1x16 : Shape := ⟨4, ![8, 17, 1, 16]⟩
abbrev S8x1x17x16 : Shape := ⟨4, ![8, 1, 17, 16]⟩
abbrev S8x17x17x16 : Shape := ⟨4, ![8, 17, 17, 16]⟩
abbrev S8x1x17 : Shape := ⟨3, ![8, 1, 17]⟩
abbrev S4 : Shape := ⟨1, ![4]⟩

abbrev nBuf : Space → Nat
  | .hbm => 147
  | .vmem => 14
  | .smem => 0
  | _ => 0

abbrev hbmTy0_0 (i : Nat) : BufTy := match i % 128 with
  | 0 => ⟨S8x16x512x512, .f32⟩
  | 1 => ⟨S8x512x512, .i32⟩
  | 2 => ⟨S8x16x262144, .f32⟩
  | 3 => ⟨S8x1x262144, .i32⟩
  | 4 => ⟨S8x17x17, .f32⟩
  | 5 => ⟨S8x17x16, .f32⟩
  | 6 => ⟨S8x17x1, .f32⟩
  | 7 => ⟨S8x17, .f32⟩
  | 8 => ⟨S_, .f32⟩
  | 9 => ⟨S8x17, .f32⟩
  | 10 => ⟨S8x17, .i1⟩
  | 11 => ⟨S_, .i32⟩
  | 12 => ⟨S1, .i32⟩
  | 13 => ⟨S_, .i1⟩
  | 14 => ⟨S8, .i1⟩
  | 15 => ⟨S8x17, .i1⟩
  | 16 => ⟨S8x17, .f32⟩
  | 17 => ⟨S_, .f32⟩
  | 18 => ⟨S8x17, .f32⟩
  | 19 => ⟨S8x17, .f32⟩
  | 20 => ⟨S8x17x1, .f32⟩
  | 21 => ⟨S8x17x16, .f32⟩
  | 22 => ⟨S8x17x16, .f32⟩
  | 23 => ⟨S_, .f32⟩
  | 24 => ⟨S8, .f32⟩
  | 25 => ⟨S_, .f32⟩
  | 26 => ⟨S8, .f32⟩
  | 27 => ⟨S8, .i1⟩
  | 28 => ⟨S8, .f32⟩
  | 29 => ⟨S8x17x1, .f32⟩
  | 30 => ⟨S8x17, .f32⟩
  | 31 => ⟨S_, .f32⟩
  | 32 => ⟨S8x17, .f32⟩
  | 33 => ⟨S8x17, .f32⟩
  | 34 => ⟨S8x17, .f32⟩
  | 35 => ⟨S8x17, .f32⟩
  | 36 => ⟨S_, .f32⟩
  | 37 => ⟨S8, .f32⟩
  | 38 => ⟨S_, .f32⟩
  | 39 => ⟨S8, .f32⟩
  | 40 => ⟨S8, .f32⟩
  | 41 => ⟨S8, .f32⟩
  | 42 => ⟨S8x17x1x16, .f32⟩
  | 43 => ⟨S8x1x17x16, .f32⟩
  | 44 => ⟨S8x17x17x16, .f32⟩
  | 45 => ⟨S8x17x17x16, .f32⟩
  | 46 => ⟨S8x17x17x16, .f32⟩
  | 47 => ⟨S8x17x17x16, .f32⟩
  | 48 => ⟨S_, .f32⟩
  | 49 => ⟨S8x17x17, .f32⟩
  | 50 => ⟨S_, .i1⟩
  | 51 => ⟨S17x17, .i1⟩
  | 52 => ⟨S17x17, .i32⟩
  | 53 => ⟨S_, .i32⟩
  | 54 => ⟨S17x17, .i32⟩
  | 55 => ⟨S17x17, .i32⟩
  | 56 => ⟨S17x17, .i32⟩
  | 57 => ⟨S17x17, .i1⟩
  | 58 => ⟨S_, .i1⟩
  | 59 => ⟨S17x17, .i1⟩
  | 60 => ⟨S17x17, .i1⟩
  | 61 => ⟨S8x17x1, .i1⟩
  | 62 => ⟨S8x1x17, .i1⟩
  | 63 => ⟨S8x17x17, .i1⟩
  | 64 => ⟨S8x17x17, .i1⟩
  | 65 => ⟨S8x17x17, .i1⟩
  | 66 => ⟨S1x17x17, .i1⟩
  | 67 => ⟨S8x17x17, .i1⟩
  | 68 => ⟨S8x17x17, .i1⟩
  | 69 => ⟨S_, .f32⟩
  | 70 => ⟨S_, .f32⟩
  | 71 => ⟨S8x17x17, .f32⟩
  | 72 => ⟨S8x17x17, .f32⟩
  | 73 => ⟨S8x17x17, .f32⟩
  | 74 => ⟨S_, .f32⟩
  | 75 => ⟨S8x17x17, .f32⟩
  | 76 => ⟨S8x17x17, .f32⟩
  | 77 => ⟨S_, .f32⟩
  | 78 => ⟨S8x17x17, .f32⟩
  | 79 => ⟨S8x17x17, .f32⟩
  | 80 => ⟨S8x17x17, .f32⟩
  | 81 => ⟨S8x17x17, .f32⟩
  | 82 => ⟨S8x17x17, .f32⟩
  | 83 => ⟨S_, .f32⟩
  | 84 => ⟨S8, .f32⟩
  | 85 => ⟨S8, .f32⟩
  | 86 => ⟨S8, .f32⟩
  | 87 => ⟨S_, .f32⟩
  | 88 => ⟨S8, .f32⟩
  | 89 => ⟨S8, .f32⟩
  | 90 => ⟨S_, .f32⟩
  | 91 => ⟨S8, .f32⟩
  | 92 => ⟨S8, .i1⟩
  | 93 => ⟨S_, .f32⟩
  | 94 => ⟨S8, .f32⟩
  | 95 => ⟨S_, .f32⟩
  | 96 => ⟨S8, .f32⟩
  | 97 => ⟨S8, .f32⟩
  | 98 => ⟨S8, .f32⟩
  | 99 => ⟨S_, .f32⟩
  | 100 => ⟨S_, .f32⟩
  | 101 => ⟨S8, .f32⟩
  | 102 => ⟨S8, .f32⟩
  | 103 => ⟨S8x17x16, .f32⟩
  | 104 => ⟨S_, .f32⟩
  | 105 => ⟨S8x17, .f32⟩
  | 106 => ⟨S_, .f32⟩
  | 107 => ⟨S_, .f32⟩
  | 108 => ⟨S8x17, .f32⟩
  | 109 => ⟨S8x17, .f32⟩
  | 110 => ⟨S8x17, .f32⟩
  | 111 => ⟨S8x17, .f32⟩
  | 112 => ⟨S_, .f32⟩
  | 113 => ⟨S8, .f32⟩
  | 114 => ⟨S_, .f32⟩
  | 115 => ⟨S8, .f32⟩
  | 116 => ⟨S8, .f32⟩
  | 117 => ⟨S8, .f32⟩
  | 118 => ⟨S_, .f32⟩
  | 119 => ⟨S_, .f32⟩
  | 120 => ⟨S_, .f32⟩
  | 121 => ⟨S_, .f32⟩
  | 122 => ⟨S8, .f32⟩
  | 123 => ⟨S_, .f32⟩
  | 124 => ⟨S_, .f32⟩
  | 125 => ⟨S_, .f32⟩
  | 126 => ⟨S8, .f32⟩
  | 127 => ⟨S_, .f32⟩
  | _ => ⟨S8x16x512x512, .f32⟩

abbrev hbmTy0_1 (i : Nat) : BufTy := match i % 128 with
  | 0 => ⟨S_, .f32⟩
  | 1 => ⟨S_, .f32⟩
  | 2 => ⟨S8, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S1, .f32⟩
  | 15 => ⟨S1, .f32⟩
  | 16 => ⟨S1, .f32⟩
  | 17 => ⟨S1, .f32⟩
  | 18 => ⟨S4, .f32⟩
  | _ => ⟨S8x16x512x512, .f32⟩

abbrev hbmTy (i : Nat) : BufTy := match i / 128 with
  | 0 => hbmTy0_0 i
  | 1 => hbmTy0_1 i
  | _ => ⟨S8x16x512x512, .f32⟩

abbrev bufTy : (tb : Table) → Fin (tcTables nBuf tb) → BufTy
  | .hbm, ⟨i, _⟩ => hbmTy i
  | .local _ .vmem, ⟨0, _⟩ => ⟨S1x16x32768, .f32⟩
  | .local _ .vmem, ⟨1, _⟩ => ⟨S1x16x32768, .f32⟩
  | .local _ .vmem, ⟨2, _⟩ => ⟨S1x1x32768, .i32⟩
  | .local _ .vmem, ⟨3, _⟩ => ⟨S1x1x32768, .i32⟩
  | .local _ .vmem, ⟨4, _⟩ => ⟨S1x17x17, .f32⟩
  | .local _ .vmem, ⟨5, _⟩ => ⟨S1x17x17, .f32⟩
  | .local _ .vmem, ⟨6, _⟩ => ⟨S1x16x32768, .f32⟩
  | .local _ .vmem, ⟨7, _⟩ => ⟨S1x16x32768, .f32⟩
  | .local _ .vmem, ⟨8, _⟩ => ⟨S1x1x32768, .i32⟩
  | .local _ .vmem, ⟨9, _⟩ => ⟨S1x1x32768, .i32⟩
  | .local _ .vmem, ⟨10, _⟩ => ⟨S1x17x16, .f32⟩
  | .local _ .vmem, ⟨11, _⟩ => ⟨S1x17x16, .f32⟩
  | .local _ .vmem, ⟨12, _⟩ => ⟨S1x17x1, .f32⟩
  | .local _ .vmem, ⟨13, _⟩ => ⟨S1x17x1, .f32⟩
  | _, _ => ⟨S8x16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_7 : Ref sig .tc := ⟨.hbm, 48, rfl⟩
abbrev main_v37 : Ref sig .tc := ⟨.hbm, 49, rfl⟩
abbrev main_c_8 : Ref sig .tc := ⟨.hbm, 50, rfl⟩
abbrev main_v38 : Ref sig .tc := ⟨.hbm, 51, rfl⟩
abbrev main_call0_v0 : Ref sig .tc := ⟨.hbm, 52, rfl⟩
abbrev main_call0_c : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_c_0 : Ref sig .tc := ⟨.hbm, 58, rfl⟩
abbrev main_call0_v5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_call1_v0 : Ref sig .tc := ⟨.hbm, 70, rfl⟩
abbrev main_call1_v1 : Ref sig .tc := ⟨.hbm, 71, rfl⟩
abbrev main_v48 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_cst_11 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_12 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_13 : Ref sig .tc := ⟨.hbm, 87, rfl⟩
abbrev main_v60 : Ref sig .tc := ⟨.hbm, 88, rfl⟩
abbrev main_v61 : Ref sig .tc := ⟨.hbm, 89, rfl⟩
abbrev main_cst_14 : Ref sig .tc := ⟨.hbm, 90, rfl⟩
abbrev main_v62 : Ref sig .tc := ⟨.hbm, 91, rfl⟩
abbrev main_v63 : Ref sig .tc := ⟨.hbm, 92, rfl⟩
abbrev main_cst_15 : Ref sig .tc := ⟨.hbm, 93, rfl⟩
abbrev main_v64 : Ref sig .tc := ⟨.hbm, 94, rfl⟩
abbrev main_cst_16 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_17 : Ref sig .tc := ⟨.hbm, 99, rfl⟩
abbrev main_call2_v0 : Ref sig .tc := ⟨.hbm, 100, rfl⟩
abbrev main_call2_v1 : Ref sig .tc := ⟨.hbm, 101, rfl⟩
abbrev main_v68 : Ref sig .tc := ⟨.hbm, 102, rfl⟩
abbrev main_v69 : Ref sig .tc := ⟨.hbm, 103, rfl⟩
abbrev main_cst_18 : Ref sig .tc := ⟨.hbm, 104, rfl⟩
abbrev main_v70 : Ref sig .tc := ⟨.hbm, 105, rfl⟩
abbrev main_cst_19 : Ref sig .tc := ⟨.hbm, 106, rfl⟩
abbrev main_call3_v0 : Ref sig .tc := ⟨.hbm, 107, rfl⟩
abbrev main_call3_v1 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_cst_20 : Ref sig .tc := ⟨.hbm, 112, rfl⟩
abbrev main_v74 : Ref sig .tc := ⟨.hbm, 113, rfl⟩
abbrev main_cst_21 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_cst_22 : Ref sig .tc := ⟨.hbm, 118, rfl⟩
abbrev main_v78 : Ref sig .tc := ⟨.hbm, 119, rfl⟩
abbrev main_cst_23 : Ref sig .tc := ⟨.hbm, 120, rfl⟩
abbrev main_v79 : Ref sig .tc := ⟨.hbm, 121, rfl⟩
abbrev main_v80 : Ref sig .tc := ⟨.hbm, 122, rfl⟩
abbrev main_cst_24 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_cst_25 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_cst_26 : Ref sig .tc := ⟨.hbm, 131, rfl⟩
abbrev main_v87 : Ref sig .tc := ⟨.hbm, 132, rfl⟩
abbrev main_v88 : Ref sig .tc := ⟨.hbm, 133, rfl⟩
abbrev main_cst_27 : Ref sig .tc := ⟨.hbm, 134, rfl⟩
abbrev main_v89 : Ref sig .tc := ⟨.hbm, 135, rfl⟩
abbrev main_cst_28 : Ref sig .tc := ⟨.hbm, 136, rfl⟩
abbrev main_v90 : Ref sig .tc := ⟨.hbm, 137, rfl⟩
abbrev main_v91 : Ref sig .tc := ⟨.hbm, 138, rfl⟩
abbrev main_cst_29 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x32768 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x17x17 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x16x32768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x32768 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x17x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x17x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S8x16x512x512_S8x16x262144 : S8x16x512x512.ShapeCasts S8x16x262144
  shapeCasts_S8x512x512_S8x1x262144 : S8x512x512.ShapeCasts S8x1x262144
  inb_S1x17x17_S1x17x17_0_0_0 : ∀ a, (![0, 0, 0] : Fin 3 → Nat) a + S1x17x17.size a ≤ S1x17x17.size a
  h_S1x17x17 : 0 < S1x17x17.numel
  shapeCasts_S1x17x17_S17x17 : S1x17x17.ShapeCasts S17x17
  shapeCasts_S17x17_S1x17x17 : S17x17.ShapeCasts S1x17x17
  inb_S1x16x32768_S1x16x32768_0_0_0 : ∀ a, (![0, 0, 0] : Fin 3 → Nat) a + S1x16x32768.size a ≤ S1x16x32768.size a
  h_S1x16x32768 : 0 < S1x16x32768.numel
  shapeCasts_S1x16x32768_S16x32768 : S1x16x32768.ShapeCasts S16x32768
  bitsLt_bf16_f32 : FTy.bits .bf16 < FTy.bits .f32
  inb_S1x1x32768_S1x1x32768_0_0_0 : ∀ a, (![0, 0, 0] : Fin 3 → Nat) a + S1x1x32768.size a ≤ S1x1x32768.size a
  h_S1x1x32768 : 0 < S1x1x32768.numel
  shapeCasts_S1x1x32768_S1x32768 : S1x1x32768.ShapeCasts S1x32768
  iota_S17x1_d0_w32 : S17x1.Iotas .tc 32 [0]
  broadcasts_S17x1_S17x32768 : S17x1.Broadcasts S17x32768
  broadcasts_S1x32768_S17x32768 : S1x32768.Broadcasts S17x32768
  natLt_1_32 : 1 < 32
  concatenates_S16x32768_S1x32768_S17x32768_d0 : Shape.Concatenates [S16x32768, S1x32768] S17x32768 0
  slices_S8x17x17_S8x17x16_0_0_0 : S8x17x17.Slices ![0, 0, 0] S8x17x16
  slices_S8x17x17_S8x17x1_0_0_16 : S8x17x17.Slices ![0, 0, 16] S8x17x1
  shapeCasts_S8x17x1_S8x17 : S8x17x1.ShapeCasts S8x17
  bcast_S_S8x17 : S_.BroadcastsInDim S8x17 (![] : Fin 0 → Fin S8x17.rank)
  bcast_S_S1 : S_.BroadcastsInDim S1 (![] : Fin 0 → Fin S1.rank)
  bcast_S_S8 : S_.BroadcastsInDim S8 (![] : Fin 0 → Fin S8.rank)
  bcast_S8x17_S8x17x1_0_1 : S8x17.BroadcastsInDim S8x17x1 (![0, 1] : Fin 2 → Fin S8x17x1.rank)
  bcast_S8x17x1_S8x17x16_0_1_2 : S8x17x1.BroadcastsInDim S8x17x16 (![0, 1, 2] : Fin 3 → Fin S8x17x16.rank)
  reducesTo_S8x17_S8_d1 : S8x17.ReducesTo [1] S8
  h_S_ : 0 < S_.numel
  inb_S1x17x1_S1x17x1_0_0_0 : ∀ a, (![0, 0, 0] : Fin 3 → Nat) a + S1x17x1.size a ≤ S1x17x1.size a
  h_S1x17x1 : 0 < S1x17x1.numel
  shapeCasts_S1x17x1_S17x1 : S1x17x1.ShapeCasts S17x1
  shapeCasts_S17x1_S1x17x1 : S17x1.ShapeCasts S1x17x1
  inb_S1x17x16_S1x17x16_0_0_0 : ∀ a, (![0, 0, 0] : Fin 3 → Nat) a + S1x17x16.size a ≤ S1x17x16.size a
  h_S1x17x16 : 0 < S1x17x16.numel
  shapeCasts_S1x17x16_S17x16 : S1x17x16.ShapeCasts S17x16
  reduces_S16x32768_S32768 : S16x32768.Reduces [0] S32768
  shapeCasts_S32768_S1x32768 : S32768.ShapeCasts S1x32768
  bcast_S8x17x16_S8x17x1x16_0_1_3 : S8x17x16.BroadcastsInDim S8x17x1x16 (![0, 1, 3] : Fin 3 → Fin S8x17x1x16.rank)
  bcast_S8x17x16_S8x1x17x16_0_2_3 : S8x17x16.BroadcastsInDim S8x1x17x16 (![0, 2, 3] : Fin 3 → Fin S8x1x17x16.rank)
  bcast_S8x17x1x16_S8x17x17x16_0_1_2_3 : S8x17x1x16.BroadcastsInDim S8x17x17x16 (![0, 1, 2, 3] : Fin 4 → Fin S8x17x17x16.rank)
  bcast_S8x1x17x16_S8x17x17x16_0_1_2_3 : S8x1x17x16.BroadcastsInDim S8x17x17x16 (![0, 1, 2, 3] : Fin 4 → Fin S8x17x17x16.rank)
  reducesTo_S8x17x17x16_S8x17x17_d3 : S8x17x17x16.ReducesTo [3] S8x17x17
  bcast_S_S17x17 : S_.BroadcastsInDim S17x17 (![] : Fin 0 → Fin S17x17.rank)
  bcast_S8x17_S8x1x17_0_2 : S8x17.BroadcastsInDim S8x1x17 (![0, 2] : Fin 2 → Fin S8x1x17.rank)
  bcast_S8x17x1_S8x17x17_0_1_2 : S8x17x1.BroadcastsInDim S8x17x17 (![0, 1, 2] : Fin 3 → Fin S8x17x17.rank)
  bcast_S8x1x17_S8x17x17_0_1_2 : S8x1x17.BroadcastsInDim S8x17x17 (![0, 1, 2] : Fin 3 → Fin S8x17x17.rank)
  bcast_S17x17_S1x17x17_1_2 : S17x17.BroadcastsInDim S1x17x17 (![1, 2] : Fin 2 → Fin S1x17x17.rank)
  bcast_S1x17x17_S8x17x17_0_1_2 : S1x17x17.BroadcastsInDim S8x17x17 (![0, 1, 2] : Fin 3 → Fin S8x17x17.rank)
  bcast_S_S8x17x17 : S_.BroadcastsInDim S8x17x17 (![] : Fin 0 → Fin S8x17x17.rank)
  reducesTo_S8x17x17_S8_d1_2 : S8x17x17.ReducesTo [1, 2] S8
  reducesTo_S8x17x16_S8x17_d2 : S8x17x16.ReducesTo [2] S8x17
  reducesTo_S8_S_d0 : S8.ReducesTo [0] S_
  concatenates_S1_S1_S1_S1_S4_d0 : Shape.Concatenates [S1, S1, S1, S1] S4 0
  dot_S17x32768_S17x32768_S17x17_1_1_0_0_n_n_wf : DotDims.WF S17x32768 S17x32768 S17x17 [1] [1] [0] [0] [] []
  scatter_S8x17_S1_S8_0_1_1_0_wf : ScatterDims.WF S8x17 S1 S8 [0] [1] [1] 0
  dot_S17x16_S17x32768_S16x32768_0_0_1_1_n_n_wf : DotDims.WF S17x16 S17x32768 S16x32768 [0] [0] [1] [1] [] []
  dot_S17x32768_S1x32768_S17x1_1_1_0_0_n_n_wf : DotDims.WF S17x32768 S1x32768 S17x1 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x32768.size a ≤ S8x16x262144.size a
  hwx0_0 : ∀ i : grid0.Coords, EltTy.bits .f32 = 32 ∨ (Rect.block (s := S8x16x262144) S1x16x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x32768.size a ≤ S8x1x262144.size a
  hwx0_1 : ∀ i : grid0.Coords, EltTy.bits .i32 = 32 ∨ (Rect.block (s := S8x1x262144) S1x1x32768.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x17x17.size a ≤ S8x17x17.size a
  hwx0_2 : ∀ i : grid0.Coords, EltTy.bits .f32 = 32 ∨ (Rect.block (s := S8x17x17) S1x17x17.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16x32768.size a ≤ S8x16x262144.size a
  hwx1_0 : ∀ i : grid1.Coords, EltTy.bits .f32 = 32 ∨ (Rect.block (s := S8x16x262144) S1x16x32768.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x32768.size a ≤ S8x1x262144.size a
  hwx1_1 : ∀ i : grid1.Coords, EltTy.bits .i32 = 32 ∨ (Rect.block (s := S8x1x262144) S1x1x32768.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x17x16.size a ≤ S8x17x16.size a
  hwx1_2 : ∀ i : grid1.Coords, EltTy.bits .f32 = 32 ∨ (Rect.block (s := S8x17x16) S1x17x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x17x1.size a ≤ S8x17x1.size a
  hwx1_3 : ∀ i : grid1.Coords, EltTy.bits .f32 = 32 ∨ (Rect.block (s := S8x17x1) S1x17x1.size (cc1_transform_3 i) (hinb1_3 i)).WholeWords (EltTy.packing .f32)

variable [Facts₀]

def dot_S17x32768_S17x32768_S17x17_1_1_0_0_n_n : DotDims S17x32768 S17x32768 S17x17 where
  lhsContracting := [1]
  rhsContracting := [1]
  lhsNonContracting := [0]
  rhsNonContracting := [0]
  lhsBatch := []
  rhsBatch := []
  wf := dot_S17x32768_S17x32768_S17x17_1_1_0_0_n_n_wf
def scatter_S8x17_S1_S8_0_1_1_0 : ScatterDims S8x17 S1 S8 where
  updateWindowDims := [0]
  insertedWindowDims := [1]
  scatterDimsToOperandDims := [1]
  indexVectorDim := 0
  wf := scatter_S8x17_S1_S8_0_1_1_0_wf
def dot_S17x16_S17x32768_S16x32768_0_0_1_1_n_n : DotDims S17x16 S17x32768 S16x32768 where
  lhsContracting := [0]
  rhsContracting := [0]
  lhsNonContracting := [1]
  rhsNonContracting := [1]
  lhsBatch := []
  rhsBatch := []
  wf := dot_S17x16_S17x32768_S16x32768_0_0_1_1_n_n_wf
def dot_S17x32768_S1x32768_S17x1_1_1_0_0_n_n : DotDims S17x32768 S1x32768 S17x1 where
  lhsContracting := [1]
  rhsContracting := [1]
  lhsNonContracting := [0]
  rhsNonContracting := [0]
  lhsBatch := []
  rhsBatch := []
  wf := dot_S17x32768_S1x32768_S17x1_1_1_0_0_n_n_wf

abbrev win0_0 : Pipeline.Window sig grid0 :=
  Pipeline.Window.ofSpec (Memref.whole main_v0) S1x16x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x17x17.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1x16x32768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x1x32768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x17x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1x17x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x16x512x512 : Shape := ⟨4, ![8, 16, 512, 512]⟩
abbrev S8x512x512 : Shape := ⟨3, ![8, 512, 512]⟩
abbrev S8x16x262144 : Shape := ⟨3, ![8, 16, 262144]⟩
abbrev S8x262144x16 : Shape := ⟨3, ![8, 262144, 16]⟩
abbrev S8x262144 : Shape := ⟨2, ![8, 262144]⟩
abbrev S8 : Shape := ⟨1, ![8]⟩
abbrev S8x1 : Shape := ⟨2, ![8, 1]⟩
abbrev S_ : Shape := ⟨0, ![]⟩
abbrev S2097152 : Shape := ⟨1, ![2097152]⟩
abbrev S2097152x16 : Shape := ⟨2, ![2097152, 16]⟩
abbrev S136x16 : Shape := ⟨2, ![136, 16]⟩
abbrev S2097152x1 : Shape := ⟨2, ![2097152, 1]⟩
abbrev S8x17x16 : Shape := ⟨3, ![8, 17, 16]⟩
abbrev S136 : Shape := ⟨1, ![136]⟩
abbrev S8x17 : Shape := ⟨2, ![8, 17]⟩
abbrev S1 : Shape := ⟨1, ![1]⟩
abbrev S8x17x1 : Shape := ⟨3, ![8, 17, 1]⟩
abbrev S8x262144x1 : Shape := ⟨3, ![8, 262144, 1]⟩
abbrev S8x262144x2 : Shape := ⟨3, ![8, 262144, 2]⟩
abbrev S8x17x1x16 : Shape := ⟨4, ![8, 17, 1, 16]⟩
abbrev S8x1x17x16 : Shape := ⟨4, ![8, 1, 17, 16]⟩
abbrev S8x17x17x16 : Shape := ⟨4, ![8, 17, 17, 16]⟩
abbrev S8x17x17 : Shape := ⟨3, ![8, 17, 17]⟩
abbrev S17x17 : Shape := ⟨2, ![17, 17]⟩
abbrev S8x1x17 : Shape := ⟨3, ![8, 1, 17]⟩
abbrev S1x17x17 : Shape := ⟨3, ![1, 17, 17]⟩
abbrev S4 : Shape := ⟨1, ![4]⟩

abbrev nBuf : Space → Nat
  | .hbm => 211
  | .vmem => 0
  | .smem => 0
  | _ => 0

abbrev hbmTy0_0 (i : Nat) : BufTy := match i % 128 with
  | 0 => ⟨S8x16x512x512, .f32⟩
  | 1 => ⟨S8x512x512, .i32⟩
  | 2 => ⟨S8x16x262144, .f32⟩
  | 3 => ⟨S8x262144x16, .f32⟩
  | 4 => ⟨S8x262144, .i32⟩
  | 5 => ⟨S8, .i32⟩
  | 6 => ⟨S8x1, .i32⟩
  | 7 => ⟨S_, .i32⟩
  | 8 => ⟨S8x1, .i32⟩
  | 9 => ⟨S8x1, .i32⟩
  | 10 => ⟨S8x262144, .i32⟩
  | 11 => ⟨S8x262144, .i32⟩
  | 12 => ⟨S2097152, .i32⟩
  | 13 => ⟨S2097152x16, .f32⟩
  | 14 => ⟨S_, .f32⟩
  | 15 => ⟨S136x16, .f32⟩
  | 16 => ⟨S2097152x1, .i32⟩
  | 17 => ⟨S136x16, .f32⟩
  | 18 => ⟨S8x17x16, .f32⟩
  | 19 => ⟨S_, .f32⟩
  | 20 => ⟨S2097152, .f32⟩
  | 21 => ⟨S_, .f32⟩
  | 22 => ⟨S136, .f32⟩
  | 23 => ⟨S2097152x1, .i32⟩
  | 24 => ⟨S136, .f32⟩
  | 25 => ⟨S8x17, .f32⟩
  | 26 => ⟨S_, .f32⟩
  | 27 => ⟨S8x17, .f32⟩
  | 28 => ⟨S8x17, .i1⟩
  | 29 => ⟨S_, .i32⟩
  | 30 => ⟨S1, .i32⟩
  | 31 => ⟨S_, .i1⟩
  | 32 => ⟨S8, .i1⟩
  | 33 => ⟨S8x17, .i1⟩
  | 34 => ⟨S8x17, .f32⟩
  | 35 => ⟨S_, .f32⟩
  | 36 => ⟨S8x17, .f32⟩
  | 37 => ⟨S8x17, .f32⟩
  | 38 => ⟨S8x17x1, .f32⟩
  | 39 => ⟨S8x17x16, .f32⟩
  | 40 => ⟨S8x17x16, .f32⟩
  | 41 => ⟨S_, .f32⟩
  | 42 => ⟨S8, .f32⟩
  | 43 => ⟨S_, .f32⟩
  | 44 => ⟨S8, .f32⟩
  | 45 => ⟨S8, .i1⟩
  | 46 => ⟨S8, .f32⟩
  | 47 => ⟨S8, .i32⟩
  | 48 => ⟨S8x1, .i32⟩
  | 49 => ⟨S_, .i32⟩
  | 50 => ⟨S8x1, .i32⟩
  | 51 => ⟨S8x1, .i1⟩
  | 52 => ⟨S_, .i32⟩
  | 53 => ⟨S8x1, .i32⟩
  | 54 => ⟨S8x1, .i32⟩
  | 55 => ⟨S8x1, .i32⟩
  | 56 => ⟨S_, .i32⟩
  | 57 => ⟨S8x262144, .i32⟩
  | 58 => ⟨S8x262144, .i1⟩
  | 59 => ⟨S_, .i32⟩
  | 60 => ⟨S8x262144, .i32⟩
  | 61 => ⟨S8x262144, .i32⟩
  | 62 => ⟨S8x262144, .i32⟩
  | 63 => ⟨S8x262144, .i32⟩
  | 64 => ⟨S8x262144x1, .i32⟩
  | 65 => ⟨S8x262144x1, .i32⟩
  | 66 => ⟨S8x262144x2, .i32⟩
  | 67 => ⟨S8x262144x16, .f32⟩
  | 68 => ⟨S8x262144x16, .f32⟩
  | 69 => ⟨S8x262144x16, .f32⟩
  | 70 => ⟨S_, .f32⟩
  | 71 => ⟨S8x262144, .f32⟩
  | 72 => ⟨S_, .i32⟩
  | 73 => ⟨S8x262144, .i32⟩
  | 74 => ⟨S8x262144, .i1⟩
  | 75 => ⟨S_, .f32⟩
  | 76 => ⟨S_, .f32⟩
  | 77 => ⟨S8x262144, .f32⟩
  | 78 => ⟨S8x262144, .f32⟩
  | 79 => ⟨S8x262144, .f32⟩
  | 80 => ⟨S_, .f32⟩
  | 81 => ⟨S8x262144, .f32⟩
  | 82 => ⟨S8x262144, .f32⟩
  | 83 => ⟨S_, .f32⟩
  | 84 => ⟨S8x262144, .f32⟩
  | 85 => ⟨S8x262144, .f32⟩
  | 86 => ⟨S8x262144, .f32⟩
  | 87 => ⟨S8x262144, .f32⟩
  | 88 => ⟨S8x262144, .f32⟩
  | 89 => ⟨S2097152, .f32⟩
  | 90 => ⟨S_, .f32⟩
  | 91 => ⟨S136, .f32⟩
  | 92 => ⟨S2097152x1, .i32⟩
  | 93 => ⟨S136, .f32⟩
  | 94 => ⟨S8x17, .f32⟩
  | 95 => ⟨S_, .f32⟩
  | 96 => ⟨S8x17, .f32⟩
  | 97 => ⟨S8x17, .f32⟩
  | 98 => ⟨S8x17, .f32⟩
  | 99 => ⟨S8x17, .f32⟩
  | 100 => ⟨S_, .f32⟩
  | 101 => ⟨S8, .f32⟩
  | 102 => ⟨S_, .f32⟩
  | 103 => ⟨S8, .f32⟩
  | 104 => ⟨S8, .f32⟩
  | 105 => ⟨S8, .f32⟩
  | 106 => ⟨S8x17x1x16, .f32⟩
  | 107 => ⟨S8x1x17x16, .f32⟩
  | 108 => ⟨S8x17x17x16, .f32⟩
  | 109 => ⟨S8x17x17x16, .f32⟩
  | 110 => ⟨S8x17x17x16, .f32⟩
  | 111 => ⟨S8x17x17x16, .f32⟩
  | 112 => ⟨S_, .f32⟩
  | 113 => ⟨S8x17x17, .f32⟩
  | 114 => ⟨S_, .i1⟩
  | 115 => ⟨S17x17, .i1⟩
  | 116 => ⟨S17x17, .i32⟩
  | 117 => ⟨S_, .i32⟩
  | 118 => ⟨S17x17, .i32⟩
  | 119 => ⟨S17x17, .i32⟩
  | 120 => ⟨S17x17, .i32⟩
  | 121 => ⟨S17x17, .i1⟩
  | 122 => ⟨S_, .i1⟩
  | 123 => ⟨S17x17, .i1⟩
  | 124 => ⟨S17x17, .i1⟩
  | 125 => ⟨S8x17x1, .i1⟩
  | 126 => ⟨S8x1x17, .i1⟩
  | 127 => ⟨S8x17x17, .i1⟩
  | _ => ⟨S8x16x512x512, .f32⟩

abbrev hbmTy0_1 (i : Nat) : BufTy := match i % 128 with
  | 0 => ⟨S8x17x17, .i1⟩
  | 1 => ⟨S8x17x17, .i1⟩
  | 2 => ⟨S1x17x17, .i1⟩
  | 3 => ⟨S8x17x17, .i1⟩
  | 4 => ⟨S8x17x17, .i1⟩
  | 5 => ⟨S_, .f32⟩
  | 6 => ⟨S_, .f32⟩
  | 7 => ⟨S8x17x17, .f32⟩
  | 8 => ⟨S8x17x17, .f32⟩
  | 9 => ⟨S8x17x17, .f32⟩
  | 10 => ⟨S_, .f32⟩
  | 11 => ⟨S8x17x17, .f32⟩
  | 12 => ⟨S8x17x17, .f32⟩
  | 13 => ⟨S_, .f32⟩
  | 14 => ⟨S8x17x17, .f32⟩
  | 15 => ⟨S8x17x17, .f32⟩
  | 16 => ⟨S8x17x17, .f32⟩
  | 17 => ⟨S8x17x17, .f32⟩
  | 18 => ⟨S8x17x17, .f32⟩
  | 19 => ⟨S_, .f32⟩
  | 20 => ⟨S8, .f32⟩
  | 21 => ⟨S8, .f32⟩
  | 22 => ⟨S8, .f32⟩
  | 23 => ⟨S_, .f32⟩
  | 24 => ⟨S8, .f32⟩
  | 25 => ⟨S8, .f32⟩
  | 26 => ⟨S_, .f32⟩
  | 27 => ⟨S8, .f32⟩
  | 28 => ⟨S8, .i1⟩
  | 29 => ⟨S_, .f32⟩
  | 30 => ⟨S8, .f32⟩
  | 31 => ⟨S_, .f32⟩
  | 32 => ⟨S8, .f32⟩
  | 33 => ⟨S8, .f32⟩
  | 34 => ⟨S8, .f32⟩
  | 35 => ⟨S_, .f32⟩
  | 36 => ⟨S_, .f32⟩
  | 37 => ⟨S8, .f32⟩
  | 38 => ⟨S8, .f32⟩
  | 39 => ⟨S8x17x16, .f32⟩
  | 40 => ⟨S_, .f32⟩
  | 41 => ⟨S8x17, .f32⟩
  | 42 => ⟨S_, .f32⟩
  | 43 => ⟨S_, .f32⟩
  | 44 => ⟨S8x17, .f32⟩
  | 45 => ⟨S8x17, .f32⟩
  | 46 => ⟨S8x17, .f32⟩
  | 47 => ⟨S8x17, .f32⟩
  | 48 => ⟨S_, .f32⟩
  | 49 => ⟨S8, .f32⟩
  | 50 => ⟨S_, .f32⟩
  | 51 => ⟨S8, .f32⟩
  | 52 => ⟨S8, .f32⟩
  | 53 => ⟨S8, .f32⟩
  | 54 => ⟨S_, .f32⟩
  | 55 => ⟨S_, .f32⟩
  | 56 => ⟨S_, .f32⟩
  | 57 => ⟨S_, .f32⟩
  | 58 => ⟨S8, .f32⟩
  | 59 => ⟨S_, .f32⟩
  | 60 => ⟨S_, .f32⟩
  | 61 => ⟨S_, .f32⟩
  | 62 => ⟨S8, .f32⟩
  | 63 => ⟨S_, .f32⟩
  | 64 => ⟨S_, .f32⟩
  | 65 => ⟨S_, .f32⟩
  | 66 => ⟨S8, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S1, .f32⟩
  | 79 => ⟨S1, .f32⟩
  | 80 => ⟨S1, .f32⟩
  | 81 => ⟨S1, .f32⟩
  | 82 => ⟨S4, .f32⟩
  | _ => ⟨S8x16x512x512, .f32⟩

abbrev hbmTy (i : Nat) : BufTy := match i / 128 with
  | 0 => hbmTy0_0 i
  | 1 => hbmTy0_1 i
  | _ => ⟨S8x16x512x512, .f32⟩

abbrev bufTy : (tb : Table) → Fin (tcTables nBuf tb) → BufTy
  | .hbm, ⟨i, _⟩ => hbmTy i
  | _, _ => ⟨S8x16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_c_3 : Ref sig .tc := ⟨.hbm, 29, rfl⟩
abbrev main_v22 : Ref sig .tc := ⟨.hbm, 30, rfl⟩
abbrev main_c_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_6 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_8 : Ref sig .tc := ⟨.hbm, 49, rfl⟩
abbrev main_v37 : Ref sig .tc := ⟨.hbm, 50, rfl⟩
abbrev main_v38 : Ref sig .tc := ⟨.hbm, 51, rfl⟩
abbrev main_c_9 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c_10 : Ref sig .tc := ⟨.hbm, 56, rfl⟩
abbrev main_v42 : Ref sig .tc := ⟨.hbm, 57, rfl⟩
abbrev main_v43 : Ref sig .tc := ⟨.hbm, 58, rfl⟩
abbrev main_c_11 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_12 : Ref sig .tc := ⟨.hbm, 70, rfl⟩
abbrev main_v54 : Ref sig .tc := ⟨.hbm, 71, rfl⟩
abbrev main_c_13 : Ref sig .tc := ⟨.hbm, 72, rfl⟩
abbrev main_v55 : Ref sig .tc := ⟨.hbm, 73, rfl⟩
abbrev main_v56 : Ref sig .tc := ⟨.hbm, 74, rfl⟩
abbrev main_cst_14 : Ref sig .tc := ⟨.hbm, 75, rfl⟩
abbrev main_call0_v0 : Ref sig .tc := ⟨.hbm, 76, rfl⟩
abbrev main_call0_v1 : Ref sig .tc := ⟨.hbm, 77, rfl⟩
abbrev main_v57 : Ref sig .tc := ⟨.hbm, 78, rfl⟩
abbrev main_v58 : Ref sig .tc := ⟨.hbm, 79, rfl⟩
abbrev main_cst_15 : Ref sig .tc := ⟨.hbm, 80, rfl⟩
abbrev main_v59 : Ref sig .tc := ⟨.hbm, 81, rfl⟩
abbrev main_v60 : Ref sig .tc := ⟨.hbm, 82, rfl⟩
abbrev main_cst_16 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_17 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_18 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_19 : Ref sig .tc := ⟨.hbm, 100, rfl⟩
abbrev main_v75 : Ref sig .tc := ⟨.hbm, 101, rfl⟩
abbrev main_cst_20 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_21 : Ref sig .tc := ⟨.hbm, 112, rfl⟩
abbrev main_v85 : Ref sig .tc := ⟨.hbm, 113, rfl⟩
abbrev main_c_22 : Ref sig .tc := ⟨.hbm, 114, rfl⟩
abbrev main_v86 : Ref sig .tc := ⟨.hbm, 115, rfl⟩
abbrev main_call1_v0 : Ref sig .tc := ⟨.hbm, 116, rfl⟩
abbrev main_call1_c : Ref sig .tc := ⟨.hbm, 117, rfl⟩
abbrev main_call1_v1 : Ref sig .tc := ⟨.hbm, 118, rfl⟩
abbrev main_call1_v2 : Ref sig .tc := ⟨.hbm, 119, rfl⟩
abbrev main_call1_v3 : Ref sig .tc := ⟨.hbm, 120, rfl⟩
abbrev main_call1_v4 : Ref sig .tc := ⟨.hbm, 121, rfl⟩
abbrev main_call1_c_0 : Ref sig .tc := ⟨.hbm, 122, rfl⟩
abbrev main_call1_v5 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_23 : Ref sig .tc := ⟨.hbm, 133, rfl⟩
abbrev main_call2_v0 : Ref sig .tc := ⟨.hbm, 134, rfl⟩
abbrev main_call2_v1 : Ref sig .tc := ⟨.hbm, 135, rfl⟩
abbrev main_v96 : Ref sig .tc := ⟨.hbm, 136, rfl⟩
abbrev main_v97 : Ref sig .tc := ⟨.hbm, 137, rfl⟩
abbrev main_cst_24 : Ref sig .tc := ⟨.hbm, 138, rfl⟩
abbrev main_v98 : Ref sig .tc := ⟨.hbm, 139, rfl⟩
abbrev main_v99 : Ref sig .tc := ⟨.hbm, 140, rfl⟩
abbrev main_cst_25 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_cst_26 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_cst_27 : Ref sig .tc := ⟨.hbm, 151, rfl⟩
abbrev main_v108 : Ref sig .tc := ⟨.hbm, 152, rfl⟩
abbrev main_v109 : Ref sig .tc := ⟨.hbm, 153, rfl⟩
abbrev main_cst_28 : Ref sig .tc := ⟨.hbm, 154, rfl⟩
abbrev main_v110 : Ref sig .tc := ⟨.hbm, 155, rfl⟩
abbrev main_v111 : Ref sig .tc := ⟨.hbm, 156, rfl⟩
abbrev main_cst_29 : Ref sig .tc := ⟨.hbm, 157, rfl⟩
abbrev main_v112 : Ref sig .tc := ⟨.hbm, 158, rfl⟩
abbrev main_cst_30 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_cst_31 : Ref sig .tc := ⟨.hbm, 163, rfl⟩
abbrev main_call3_v0 : Ref sig .tc := ⟨.hbm, 164, rfl⟩
abbrev main_call3_v1 : Ref sig .tc := ⟨.hbm, 165, rfl⟩
abbrev main_v116 : Ref sig .tc := ⟨.hbm, 166, rfl⟩
abbrev main_v117 : Ref sig .tc := ⟨.hbm, 167, rfl⟩
abbrev main_cst_32 : Ref sig .tc := ⟨.hbm, 168, rfl⟩
abbrev main_v118 : Ref sig .tc := ⟨.hbm, 169, rfl⟩
abbrev main_cst_33 : Ref sig .tc := ⟨.hbm, 170, rfl⟩
abbrev main_call4_v0 : Ref sig .tc := ⟨.hbm, 171, rfl⟩
abbrev main_call4_v1 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_cst_34 : Ref sig .tc := ⟨.hbm, 176, rfl⟩
abbrev main_v122 : Ref sig .tc := ⟨.hbm, 177, rfl⟩
abbrev main_cst_35 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_cst_36 : Ref sig .tc := ⟨.hbm, 182, rfl⟩
abbrev main_v126 : Ref sig .tc := ⟨.hbm, 183, rfl⟩
abbrev main_cst_37 : Ref sig .tc := ⟨.hbm, 184, rfl⟩
abbrev main_v127 : Ref sig .tc := ⟨.hbm, 185, rfl⟩
abbrev main_v128 : Ref sig .tc := ⟨.hbm, 186, rfl⟩
abbrev main_cst_38 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_cst_39 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_cst_40 : Ref sig .tc := ⟨.hbm, 195, rfl⟩
abbrev main_v135 : Ref sig .tc := ⟨.hbm, 196, rfl⟩
abbrev main_v136 : Ref sig .tc := ⟨.hbm, 197, rfl⟩
abbrev main_cst_41 : Ref sig .tc := ⟨.hbm, 198, rfl⟩
abbrev main_v137 : Ref sig .tc := ⟨.hbm, 199, rfl⟩
abbrev main_cst_42 : Ref sig .tc := ⟨.hbm, 200, rfl⟩
abbrev main_v138 : Ref sig .tc := ⟨.hbm, 201, rfl⟩
abbrev main_v139 : Ref sig .tc := ⟨.hbm, 202, rfl⟩
abbrev main_cst_43 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩

abbrev nD : Nat := 1
abbrev τ : Topo := Topo.v7x

variable {F : FTy → Type} [FloatOps F]

class Facts₀ : Prop where
  shapeCasts_S8x16x512x512_S8x16x262144 : S8x16x512x512.ShapeCasts S8x16x262144
  transposes_S8x16x262144_S8x262144x16_0_2_1 : S8x16x262144.Transposes [0, 2, 1] S8x262144x16
  shapeCasts_S8x512x512_S8x262144 : S8x512x512.ShapeCasts S8x262144
  bcast_S8_S8x1_0 : S8.BroadcastsInDim S8x1 (![0] : Fin 1 → Fin S8x1.rank)
  bcast_S_S8x1 : S_.BroadcastsInDim S8x1 (![] : Fin 0 → Fin S8x1.rank)
  bcast_S8x1_S8x262144_0_1 : S8x1.BroadcastsInDim S8x262144 (![0, 1] : Fin 2 → Fin S8x262144.rank)
  shapeCasts_S8x262144_S2097152 : S8x262144.ShapeCasts S2097152
  shapeCasts_S8x262144x16_S2097152x16 : S8x262144x16.ShapeCasts S2097152x16
  bcast_S_S136x16 : S_.BroadcastsInDim S136x16 (![] : Fin 0 → Fin S136x16.rank)
  bcast_S2097152_S2097152x1_0 : S2097152.BroadcastsInDim S2097152x1 (![0] : Fin 1 → Fin S2097152x1.rank)
  shapeCasts_S136x16_S8x17x16 : S136x16.ShapeCasts S8x17x16
  bcast_S_S2097152 : S_.BroadcastsInDim S2097152 (![] : Fin 0 → Fin S2097152.rank)
  bcast_S_S136 : S_.BroadcastsInDim S136 (![] : Fin 0 → Fin S136.rank)
  shapeCasts_S136_S8x17 : S136.ShapeCasts S8x17
  bcast_S_S8x17 : S_.BroadcastsInDim S8x17 (![] : Fin 0 → Fin S8x17.rank)
  bcast_S_S1 : S_.BroadcastsInDim S1 (![] : Fin 0 → Fin S1.rank)
  bcast_S_S8 : S_.BroadcastsInDim S8 (![] : Fin 0 → Fin S8.rank)
  bcast_S8x17_S8x17x1_0_1 : S8x17.BroadcastsInDim S8x17x1 (![0, 1] : Fin 2 → Fin S8x17x1.rank)
  bcast_S8x17x1_S8x17x16_0_1_2 : S8x17x1.BroadcastsInDim S8x17x16 (![0, 1, 2] : Fin 3 → Fin S8x17x16.rank)
  reducesTo_S8x17_S8_d1 : S8x17.ReducesTo [1] S8
  h_S_ : 0 < S_.numel
  bcast_S_S8x262144 : S_.BroadcastsInDim S8x262144 (![] : Fin 0 → Fin S8x262144.rank)
  bcast_S8x262144_S8x262144x1_0_1 : S8x262144.BroadcastsInDim S8x262144x1 (![0, 1] : Fin 2 → Fin S8x262144x1.rank)
  concatenates_S8x262144x1_S8x262144x1_S8x262144x2_d2 : Shape.Concatenates [S8x262144x1, S8x262144x1] S8x262144x2 2
  reducesTo_S8x262144x16_S8x262144_d2 : S8x262144x16.ReducesTo [2] S8x262144
  bcast_S8x17x16_S8x17x1x16_0_1_3 : S8x17x16.BroadcastsInDim S8x17x1x16 (![0, 1, 3] : Fin 3 → Fin S8x17x1x16.rank)
  bcast_S8x17x16_S8x1x17x16_0_2_3 : S8x17x16.BroadcastsInDim S8x1x17x16 (![0, 2, 3] : Fin 3 → Fin S8x1x17x16.rank)
  bcast_S8x17x1x16_S8x17x17x16_0_1_2_3 : S8x17x1x16.BroadcastsInDim S8x17x17x16 (![0, 1, 2, 3] : Fin 4 → Fin S8x17x17x16.rank)
  bcast_S8x1x17x16_S8x17x17x16_0_1_2_3 : S8x1x17x16.BroadcastsInDim S8x17x17x16 (![0, 1, 2, 3] : Fin 4 → Fin S8x17x17x16.rank)
  reducesTo_S8x17x17x16_S8x17x17_d3 : S8x17x17x16.ReducesTo [3] S8x17x17
  bcast_S_S17x17 : S_.BroadcastsInDim S17x17 (![] : Fin 0 → Fin S17x17.rank)
  bcast_S8x17_S8x1x17_0_2 : S8x17.BroadcastsInDim S8x1x17 (![0, 2] : Fin 2 → Fin S8x1x17.rank)
  bcast_S8x17x1_S8x17x17_0_1_2 : S8x17x1.BroadcastsInDim S8x17x17 (![0, 1, 2] : Fin 3 → Fin S8x17x17.rank)
  bcast_S8x1x17_S8x17x17_0_1_2 : S8x1x17.BroadcastsInDim S8x17x17 (![0, 1, 2] : Fin 3 → Fin S8x17x17.rank)
  bcast_S17x17_S1x17x17_1_2 : S17x17.BroadcastsInDim S1x17x17 (![1, 2] : Fin 2 → Fin S1x17x17.rank)
  bcast_S1x17x17_S8x17x17_0_1_2 : S1x17x17.BroadcastsInDim S8x17x17 (![0, 1, 2] : Fin 3 → Fin S8x17x17.rank)
  bcast_S_S8x17x17 : S_.BroadcastsInDim S8x17x17 (![] : Fin 0 → Fin S8x17x17.rank)
  reducesTo_S8x17x17_S8_d1_2 : S8x17x17.ReducesTo [1, 2] S8
  reducesTo_S8x17x16_S8x17_d2 : S8x17x16.ReducesTo [2] S8x17
  reducesTo_S8_S_d0 : S8.ReducesTo [0] S_
  concatenates_S1_S1_S1_S1_S4_d0 : Shape.Concatenates [S1, S1, S1, S1] S4 0
  scatter_S136x16_S2097152x1_S2097152x16_1_0_0_1_wf : ScatterDims.WF S136x16 S2097152x1 S2097152x16 [1] [0] [0] 1
  scatter_S136_S2097152x1_S2097152_n_0_0_1_wf : ScatterDims.WF S136 S2097152x1 S2097152 [] [0] [0] 1
  scatter_S8x17_S1_S8_0_1_1_0_wf : ScatterDims.WF S8x17 S1 S8 [0] [1] [1] 0
  gather_S8x17x16_S8x262144x2_S8x262144x16_2_01_n_n_01_2_1116_wf : GatherDims.WF S8x17x16 S8x262144x2 S8x262144x16 [2] [0, 1] [] [0, 1] [] 2 ![1, 1, 16]

variable [Facts₀]

def scatter_S136x16_S2097152x1_S2097152x16_1_0_0_1 : ScatterDims S136x16 S2097152x1 S2097152x16 where
  updateWindowDims := [1]
  insertedWindowDims := [0]
  scatterDimsToOperandDims := [0]
  indexVectorDim := 1
  wf := scatter_S136x16_S2097152x1_S2097152x16_1_0_0_1_wf
def scatter_S136_S2097152x1_S2097152_n_0_0_1 : ScatterDims S136 S2097152x1 S2097152 where
  updateWindowDims := []
  insertedWindowDims := [0]
  scatterDimsToOperandDims := [0]
  indexVectorDim := 1
  wf := scatter_S136_S2097152x1_S2097152_n_0_0_1_wf
def scatter_S8x17_S1_S8_0_1_1_0 : ScatterDims S8x17 S1 S8 where
  updateWindowDims := [0]
  insertedWindowDims := [1]
  scatterDimsToOperandDims := [1]
  indexVectorDim := 0
  wf := scatter_S8x17_S1_S8_0_1_1_0_wf
def gather_S8x17x16_S8x262144x2_S8x262144x16_2_01_n_n_01_2_1116 : GatherDims S8x17x16 S8x262144x2 S8x262144x16 where
  offsetDims := [2]
  collapsedSliceDims := [0, 1]
  operandBatchingDims := []
  startIndicesBatchingDims := []
  startIndexMap := [0, 1]
  indexVectorDim := 2
  sliceSizes := ![1, 1, 16]
  wf := gather_S8x17x16_S8x262144x2_S8x262144x16_2_01_n_n_01_2_1116_wf

class Facts : Prop extends Facts₀ where

variable [Facts]
-- ==== Proof.K_R0Shared.lean ====
/- The first kernel region (per batch, the label one-hot times the augmented embeddings, accumulated over the
    eight tiles of a batch): what its two body cases share. The region is entered with the TensorCore's buffers
    at a parameter `V`. A tile's two input blocks are read off `V`; the output block is reset at a batch's first
    tile (grid coordinate 1 equal to 0, that is point number ≡ 0 mod 8) and carried over at the seven others. -/
import proofs.«401362_j69569880261306_3_alg».proof.Proof.Gen.Kernel.Launch
import proofs.«401362_j69569880261306_3_alg».proof.Proof.Gen.Kernel.Skeleton
import proofs.«401362_j69569880261306_3_alg».proof.Proof.Gen.Kernel.Points
import Idealize.ShloMosaic.Lib.Pipeline.FrameBody
import Idealize.ShloMosaic.Lib.Ring
import Idealize.ShloMosaic.Lib.Tactic

-- membership in a rectangle of the blocks' extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The embeddings' staging buffer holds the tile's block at every point, for any proof data over `V` whose body
    leaves that block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the labels' staging buffer. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's one branch condition (is this a batch's first tile?), from the grid coordinates. -/
abbrev cond0 (i : grid0.Coords) : Prop := (Scalar.cmpi .ne (Scalar.extui (Scalar.cmpi .eq (BitVec.ofNat 32 (i 1).val) 0#32)) 0#32) = 1#1
/-- It holds exactly at the points whose number is a multiple of 8 — decided over the 64 points. -/
theorem hcond0 : ∀ t : Fin cfg0.N, cond0 (grid0.coords t) ↔ t.val % 8 = 0 :=
  (by decide +kernel : ∀ t : Fin grid0.N, cond0 (grid0.coords t) ↔ t.val % 8 = 0)

/-- One staging buffer of the output window, through which its contents are stated. -/
abbrev VO0_2 : View sig .tc .vmem S1x17x17 .f32 := (Memref.whole cc0_stg2_0 : Memref sig .tc .vmem S1x17x17 .f32).view
/-- Each window's current staging memref at point `t`, as the pipeline passes it, and its wholeness. -/
abbrev ms0_0 (t : Fin cfg0.N) : Memref sig .tc .vmem S1x16x32768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x32768 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x17x17 .f32 := win0_2.stage (cfg0.slots t 2)
abbrev hs0_2 (t : Fin cfg0.N) : (ms0_2 t).IsWhole := hstage0_2 ((cfg0.slots t 2).cast nbuf0_2)

end Cert.Kernel.Hand

end
-- ==== Proof.K_R0RunA.lean ====
/- The first kernel's body at a batch's FIRST tile: it stores the zero block into the output's staging buffer, reads it
    back, and stores the sum of that and the tile's product. The body's triple, with the pieces its stores leave as
    the witness the symbolic run finds. -/
import proofs.«401362_j69569880261306_3_alg».proof.Proof.K_R0Shared

-- membership in a rectangle of the blocks' extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole staging memrefs — the inputs' at their contents, the output's at anything — the body at a first tile runs
    to the continuation holding the inputs' as they were and the output's with its pieces written. -/
noncomputable def kernelRun0_A (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x17x17 .f32) (harg4 : arg4.IsWhole) (hc0 : cond0 i)
    (x0 : Vec F S1x16x32768 .f32) (x1 : Vec F S1x1x32768 .i32) :
    { L2 : List (View.Piece (Elt F) S1x17x17 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__k1_kernel i arg2 harg2 arg3 harg3 arg4 harg4) K } := by
  refine ⟨?_, fun E K => ?run⟩
  case run =>
    simp only [cc0__k1_kernel_eq_skeleton]; unfold cc0__k1_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Hand

end
-- ==== Proof.K_R0RunB.lean ====
/- The first kernel's body at a batch's LATER tiles: it reads the running block from the output's staging buffer and
    stores the sum of that and the tile's product. -/
import proofs.«401362_j69569880261306_3_alg».proof.Proof.K_R0RunA

-- membership in a rectangle of the blocks' extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole staging memrefs — the inputs' at their contents, the output's at its running contents `xo` — the body at a
    later tile runs to the continuation holding the inputs' as they were and the output's with its pieces written. -/
noncomputable def kernelRun0_B (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x17x17 .f32) (harg4 : arg4.IsWhole) (hc0 : ¬cond0 i)
    (x0 : Vec F S1x16x32768 .f32) (x1 : Vec F S1x1x32768 .i32) (xo : Vec F S1x17x17 .f32) :
    { L2 : List (View.Piece (Elt F) S1x17x17 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__k1_kernel i arg2 harg2 arg3 harg3 arg4 harg4) K } := by
  refine ⟨?_, fun E K => ?run⟩
  case run =>
    simp only [cc0__k1_kernel_eq_skeleton]; unfold cc0__k1_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Hand

end
-- ==== Proof.K_R0Frame.lean ====
/- The first kernel region's proof data and body obligation. What the output's staging buffer holds after each point is
    defined by recursion on the point's number: at a batch's first tile what the first-tile case leaves, at a later tile
    what the later-tile case leaves over the contents of the point before (the buffer is written back only after a
    batch's last tile, so between two tiles of one batch it is carried over untouched). -/
import proofs.«401362_j69569880261306_3_alg».proof.Proof.K_R0RunB

-- membership in a rectangle of the blocks' extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The first-tile case's one-or-two stores tile the output block, so they cover it. -/
theorem cover0_A (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x17x17 .f32) (harg4 : arg4.IsWhole) (hc0 : cond0 i)
    (x0 : Vec F S1x16x32768 .f32) (x1 : Vec F S1x1x32768 .i32) (y : S1x17x17.Idx) :
    ∃ pc ∈ (kernelRun0_A c i arg2 harg2 arg3 harg3 arg4 harg4 hc0 x0 x1).1, y ∈ pc.1.set :=
  View.cover_of_tiledL (kernelRun0_A c i arg2 harg2 arg3 harg3 arg4 harg4 hc0 x0 x1).1 S1x17x17.size (by sl_kernel_rfl) y

/-- What the first-tile case leaves in the output's staging buffer: its pieces read back over junk. -/
def out0_A (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x17x17 .f32) (harg4 : arg4.IsWhole) (hc0 : cond0 i)
    (x0 : Vec F S1x16x32768 .f32) (x1 : Vec F S1x1x32768 .i32) : Vec F S1x17x17 .f32 :=
  VO0_2.read (Elt F) (VO0_2.writes (Elt F) VO0_2.junk (kernelRun0_A c i arg2 harg2 arg3 harg3 arg4 harg4 hc0 x0 x1).1)

/-- The later-tile case's store covers the output block. -/
theorem cover0_B (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x17x17 .f32) (harg4 : arg4.IsWhole) (hc0 : ¬cond0 i)
    (x0 : Vec F S1x16x32768 .f32) (x1 : Vec F S1x1x32768 .i32) (xo : Vec F S1x17x17 .f32) (y : S1x17x17.Idx) :
    ∃ pc ∈ (kernelRun0_B c i arg2 harg2 arg3 harg3 arg4 harg4 hc0 x0 x1 xo).1, y ∈ pc.1.set :=
  View.cover_of_tiledL (kernelRun0_B c i arg2 harg2 arg3 harg3 arg4 harg4 hc0 x0 x1 xo).1 S1x17x17.size (by sl_kernel_rfl) y

/-- What the later-tile case leaves in the output's staging buffer. -/
def out0_B (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x17x17 .f32) (harg4 : arg4.IsWhole) (hc0 : ¬cond0 i)
    (x0 : Vec F S1x16x32768 .f32) (x1 : Vec F S1x1x32768 .i32) (xo : Vec F S1x17x17 .f32) : Vec F S1x17x17 .f32 :=
  VO0_2.read (Elt F) (VO0_2.writes (Elt F) VO0_2.junk (kernelRun0_B c i arg2 harg2 arg3 harg3 arg4 harg4 hc0 x0 x1 xo).1)

/-- THE ACCUMULATION: what the output's staging buffer holds after the body at point number `n`. -/
def outsAt0 (c : Dev nD) : (n : ℕ) → n < cfg0.N → Vec F S1x17x17 .f32
  | 0, hn => out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0 ⟨0, hn⟩).mpr (Nat.zero_mod _)) (iblk0 V c 0 ⟨0, hn⟩) (iblk0 V c 1 ⟨0, hn⟩)
  | n + 1, hn =>
    if h0 : (n + 1) % 8 = 0 then
      out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0 ⟨n + 1, hn⟩).mpr h0) (iblk0 V c 0 ⟨n + 1, hn⟩) (iblk0 V c 1 ⟨n + 1, hn⟩)
    else
      out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0 ⟨n + 1, hn⟩).mp h)) (iblk0 V c 0 ⟨n + 1, hn⟩) (iblk0 V c 1 ⟨n + 1, hn⟩) (outsAt0 c n (Nat.lt_of_succ_lt hn))

/-- At a batch's first tile: the first-tile case's contents. -/
theorem outsAt0_A (c : Dev nD) (t : Fin cfg0.N) (h0 : t.val % 8 = 0) :
    outsAt0 V c t.val t.isLt = out0_A c (grid0.coords t) (ms0_0 t) (hs0_0 t) (ms0_1 t) (hs0_1 t) (ms0_2 t) (hs0_2 t) ((hcond0 t).mpr h0) (iblk0 V c 0 t) (iblk0 V c 1 t) := by
  obtain ⟨n, hn⟩ := t
  cases n with
  | zero => exact rfl
  | succ n => exact (dif_pos h0).trans rfl

/-- At a later tile: the later-tile case's contents, over what the point before left. -/
theorem outsAt0_B (c : Dev nD) (t : Fin cfg0.N) (h0 : ¬t.val % 8 = 0) :
    outsAt0 V c t.val t.isLt = out0_B c (grid0.coords t) (ms0_0 t) (hs0_0 t) (ms0_1 t) (hs0_1 t) (ms0_2 t) (hs0_2 t) (fun h => h0 ((hcond0 t).mp h)) (iblk0 V c 0 t) (iblk0 V c 1 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data of the first pipeline on core `c`: the arrays as the region finds them; after the body at point `t`
    each input's buffer at its block and the output's at `outsAt0`; the scoped rest and the generator register untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- At a later tile the output's staging buffer holds what the body left at the point before: the buffer was not written
    back between (that happens after a batch's last tile only). -/
theorem before0_2_B (c : Dev nD) (t : Fin cfg0.N) (h0 : ¬t.val % 8 = 0) (d) :
    (dat0 V c).before 2 t d = (outsAt0 V c (t.val - 1) (Nat.lt_of_le_of_lt (Nat.sub_le _ _) t.isLt)) := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    (fun _ => rfl) (fun _ _ => rfl)]
  dsimp only [dat0]

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 800000 in
/-- The body at any point: the inputs' memrefs hold their blocks; the point's number mod 8 says which case it is in; at a
    later tile the output's buffer holds what the point before left; so the case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  have hN : t.val < 64 := lt_of_lt_of_eq t.isLt (show cfg0.N = 64 from N_0)
  by_cases h0 : t.val % 8 = 0
  · rw [outsAt0_A V c t h0]
    unfold out0_A
    iintro ⟨HΦ, Ho, ⟨%d0, H0⟩, ⟨%d1, H1⟩, ⟨%d2, H2⟩⟩
    iapply ((kernelRun0_A c (grid0.coords t) _ _ _ _ _ _ ((hcond0 t).mpr h0) (iblk0 V c 0 t) (iblk0 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A c _ _ _ _ _ _ _ _ _ _)
  · rw [outsAt0_B V c t h0]
    simp only [before0_2_B V c t h0]
    unfold out0_B
    iintro ⟨HΦ, Ho, ⟨%d0, H0⟩, ⟨%d1, H1⟩, ⟨%d2, H2⟩⟩
    iapply ((kernelRun0_B c (grid0.coords t) _ _ _ _ _ _ (fun h => h0 ((hcond0 t).mp h)) (iblk0 V c 0 t) (iblk0 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B c _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K_R1Shared.lean ====
/- The second kernel region (per batch, the label one-hot times the pixels' hinge, accumulated over the eight tiles of a
    batch): what its two body cases share. Three inputs — a tile's embeddings and labels, and the batch's block of means,
    which moves only when the batch does — and the output block, reset at a batch's first tile and carried over at the
    seven others. -/
import proofs.«401362_j69569880261306_3_alg».proof.Proof.Gen.Kernel.Launch
import proofs.«401362_j69569880261306_3_alg».proof.Proof.Gen.Kernel.Skeleton
import proofs.«401362_j69569880261306_3_alg».proof.Proof.Gen.Kernel.Points
import Idealize.ShloMosaic.Lib.Pipeline.FrameBody
import Idealize.ShloMosaic.Lib.Ring
import Idealize.ShloMosaic.Lib.Tactic

-- membership in a rectangle of the blocks' extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds its block at every point, fetched there or not (an unfetched block's index has not
    moved), for any proof data over `V` whose body leaves the block in place: the embeddings, -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- the labels, -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- and the means. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's one branch condition (is this a batch's first tile?), from the grid coordinates. -/
abbrev cond1 (i : grid1.Coords) : Prop := (Scalar.cmpi .ne (Scalar.extui (Scalar.cmpi .eq (BitVec.ofNat 32 (i 1).val) 0#32)) 0#32) = 1#1
/-- It holds exactly at the points whose number is a multiple of 8 — decided over the 64 points. -/
theorem hcond1 : ∀ t : Fin cfg1.N, cond1 (grid1.coords t) ↔ t.val % 8 = 0 :=
  (by decide +kernel : ∀ t : Fin grid1.N, cond1 (grid1.coords t) ↔ t.val % 8 = 0)

/-- One staging buffer of the output window, through which its contents are stated. -/
abbrev VO1_3 : View sig .tc .vmem S1x17x1 .f32 := (Memref.whole cc1_stg3_0 : Memref sig .tc .vmem S1x17x1 .f32).view
/-- Each window's current staging memref at point `t`, as the pipeline passes it, and its wholeness. -/
abbrev ms1_0 (t : Fin cfg1.N) : Memref sig .tc .vmem S1x16x32768 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x32768 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x17x16 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x17x1 .f32 := win1_3.stage (cfg1.slots t 3)
abbrev hs1_3 (t : Fin cfg1.N) : (ms1_3 t).IsWhole := hstage1_3 ((cfg1.slots t 3).cast nbuf1_3)

end Cert.Kernel.Hand

end
-- ==== Proof.K_R1RunA.lean ====
/- The second kernel's body at a batch's FIRST tile: it stores the zero block into the output's staging buffer, reads it
    back, and stores the sum of that and the tile's product. The body's triple, with the pieces its stores leave as
    the witness the symbolic run finds. -/
import proofs.«401362_j69569880261306_3_alg».proof.Proof.K_R1Shared

-- membership in a rectangle of the blocks' extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole staging memrefs — the inputs' at their contents, the output's at anything — the body at a first tile runs
    to the continuation holding the inputs' as they were and the output's with its pieces written. -/
noncomputable def kernelRun1_A (c : Dev nD) (i : grid1.Coords) (arg2 : Memref sig .tc .vmem S1x16x32768 .f32) (harg2 : arg2.IsWhole) (arg3 : Memref sig .tc .vmem S1x1x32768 .i32) (harg3 : arg3.IsWhole) (arg4 : Memref sig .tc .vmem S1x17x16 .f32) (harg4 : arg4.IsWhole) (arg5 : Memref sig .tc .vmem S1x17x1 .f32) (harg5 : arg5.IsWhole) (hc0 : cond1 i)
    (x0 : Vec F S1x16x32768 .f32) (x1 : Vec F S1x1x32768 .i32) (x2 : Vec F S1x17x16 .f32) :
    { L3 : List (View.Piece (Elt F) S1x17x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc1__k2_kernel i arg2 harg2 arg3 harg3 arg4 harg4 arg5 harg5) K } := by
  refine ⟨?_, fun E K => ?run⟩
  case run =>
    simp only [cc1__k2_kernel_eq_skeleton]; unfold cc1__k2_kernel_skel
    simp only [k1_part1_eq_skeleton]
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Hand

end
-- ==== Proof.K_R1RunB.lean ====
/- The second kernel's body at a batch's LATER tiles: it reads the running block from the output's staging buffer and
    stores the sum of that and the tile's product. -/
import proofs.«401362_j69569880261306_3_alg».proof.Proof.K_R1RunA

-- membership in a rectangle of the blocks' extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole staging memrefs — the inputs' at their contents, the output's at its running contents `xo` — the body at a
    later tile runs to the continuation holding the inputs' as they were and the output's with its pieces written. -/
noncomputable def kernelRun1_B (c : Dev nD) (i : grid1.Coords) (arg2 : Memref sig .tc .vmem S1x16x32768 .f32) (harg2 : arg2.IsWhole) (arg3 : Memref sig .tc .vmem S1x1x32768 .i32) (harg3 : arg3.IsWhole) (arg4 : Memref sig .tc .vmem S1x17x16 .f32) (harg4 : arg4.IsWhole) (arg5 : Memref sig .tc .vmem S1x17x1 .f32) (harg5 : arg5.IsWhole) (hc0 : ¬cond1 i)
    (x0 : Vec F S1x16x32768 .f32) (x1 : Vec F S1x1x32768 .i32) (x2 : Vec F S1x17x16 .f32) (xo : Vec F S1x17x1 .f32) :
    { L3 : List (View.Piece (Elt F) S1x17x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc1__k2_kernel i arg2 harg2 arg3 harg3 arg4 harg4 arg5 harg5) K } := by
  refine ⟨?_, fun E K => ?run⟩
  case run =>
    simp only [cc1__k2_kernel_eq_skeleton]; unfold cc1__k2_kernel_skel
    simp only [k1_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Hand

end
-- ==== Proof.K_R1Frame.lean ====
/- The second kernel region's proof data and body obligation. What the output's staging buffer holds after each point is
    defined by recursion on the point's number, as for the first region: at a batch's first tile what the first-tile case
    leaves, at a later tile what the later-tile case leaves over the contents of the point before. -/
import proofs.«401362_j69569880261306_3_alg».proof.Proof.K_R1RunB

-- membership in a rectangle of the blocks' extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The first-tile case's stores tile the output block, so they cover it. -/
theorem cover1_A (c : Dev nD) (i : grid1.Coords) (arg2 : Memref sig .tc .vmem S1x16x32768 .f32) (harg2 : arg2.IsWhole) (arg3 : Memref sig .tc .vmem S1x1x32768 .i32) (harg3 : arg3.IsWhole) (arg4 : Memref sig .tc .vmem S1x17x16 .f32) (harg4 : arg4.IsWhole) (arg5 : Memref sig .tc .vmem S1x17x1 .f32) (harg5 : arg5.IsWhole) (hc0 : cond1 i)
    (x0 : Vec F S1x16x32768 .f32) (x1 : Vec F S1x1x32768 .i32) (x2 : Vec F S1x17x16 .f32) (y : S1x17x1.Idx) :
    ∃ pc ∈ (kernelRun1_A c i arg2 harg2 arg3 harg3 arg4 harg4 arg5 harg5 hc0 x0 x1 x2).1, y ∈ pc.1.set :=
  View.cover_of_tiledL (kernelRun1_A c i arg2 harg2 arg3 harg3 arg4 harg4 arg5 harg5 hc0 x0 x1 x2).1 S1x17x1.size (by sl_kernel_rfl) y

/-- What the first-tile case leaves in the output's staging buffer: its pieces read back over junk. -/
def out1_A (c : Dev nD) (i : grid1.Coords) (arg2 : Memref sig .tc .vmem S1x16x32768 .f32) (harg2 : arg2.IsWhole) (arg3 : Memref sig .tc .vmem S1x1x32768 .i32) (harg3 : arg3.IsWhole) (arg4 : Memref sig .tc .vmem S1x17x16 .f32) (harg4 : arg4.IsWhole) (arg5 : Memref sig .tc .vmem S1x17x1 .f32) (harg5 : arg5.IsWhole) (hc0 : cond1 i)
    (x0 : Vec F S1x16x32768 .f32) (x1 : Vec F S1x1x32768 .i32) (x2 : Vec F S1x17x16 .f32) : Vec F S1x17x1 .f32 :=
  VO1_3.read (Elt F) (VO1_3.writes (Elt F) VO1_3.junk (kernelRun1_A c i arg2 harg2 arg3 harg3 arg4 harg4 arg5 harg5 hc0 x0 x1 x2).1)

/-- The later-tile case's store covers the output block. -/
theorem cover1_B (c : Dev nD) (i : grid1.Coords) (arg2 : Memref sig .tc .vmem S1x16x32768 .f32) (harg2 : arg2.IsWhole) (arg3 : Memref sig .tc .vmem S1x1x32768 .i32) (harg3 : arg3.IsWhole) (arg4 : Memref sig .tc .vmem S1x17x16 .f32) (harg4 : arg4.IsWhole) (arg5 : Memref sig .tc .vmem S1x17x1 .f32) (harg5 : arg5.IsWhole) (hc0 : ¬cond1 i)
    (x0 : Vec F S1x16x32768 .f32) (x1 : Vec F S1x1x32768 .i32) (x2 : Vec F S1x17x16 .f32) (xo : Vec F S1x17x1 .f32) (y : S1x17x1.Idx) :
    ∃ pc ∈ (kernelRun1_B c i arg2 harg2 arg3 harg3 arg4 harg4 arg5 harg5 hc0 x0 x1 x2 xo).1, y ∈ pc.1.set :=
  View.cover_of_tiledL (kernelRun1_B c i arg2 harg2 arg3 harg3 arg4 harg4 arg5 harg5 hc0 x0 x1 x2 xo).1 S1x17x1.size (by sl_kernel_rfl) y

/-- What the later-tile case leaves in the output's staging buffer. -/
def out1_B (c : Dev nD) (i : grid1.Coords) (arg2 : Memref sig .tc .vmem S1x16x32768 .f32) (harg2 : arg2.IsWhole) (arg3 : Memref sig .tc .vmem S1x1x32768 .i32) (harg3 : arg3.IsWhole) (arg4 : Memref sig .tc .vmem S1x17x16 .f32) (harg4 : arg4.IsWhole) (arg5 : Memref sig .tc .vmem S1x17x1 .f32) (harg5 : arg5.IsWhole) (hc0 : ¬cond1 i)
    (x0 : Vec F S1x16x32768 .f32) (x1 : Vec F S1x1x32768 .i32) (x2 : Vec F S1x17x16 .f32) (xo : Vec F S1x17x1 .f32) : Vec F S1x17x1 .f32 :=
  VO1_3.read (Elt F) (VO1_3.writes (Elt F) VO1_3.junk (kernelRun1_B c i arg2 harg2 arg3 harg3 arg4 harg4 arg5 harg5 hc0 x0 x1 x2 xo).1)

/-- THE ACCUMULATION: what the output's staging buffer holds after the body at point number `n`. -/
def outsAt1 (c : Dev nD) : (n : ℕ) → n < cfg1.N → Vec F S1x17x1 .f32
  | 0, hn => out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) ((hcond1 ⟨0, hn⟩).mpr (Nat.zero_mod _)) (iblk1 V c 0 ⟨0, hn⟩) (iblk1 V c 1 ⟨0, hn⟩) (iblk1 V c 2 ⟨0, hn⟩)
  | n + 1, hn =>
    if h0 : (n + 1) % 8 = 0 then
      out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) ((hcond1 ⟨n + 1, hn⟩).mpr h0) (iblk1 V c 0 ⟨n + 1, hn⟩) (iblk1 V c 1 ⟨n + 1, hn⟩) (iblk1 V c 2 ⟨n + 1, hn⟩)
    else
      out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn))

/-- At a batch's first tile: the first-tile case's contents. -/
theorem outsAt1_A (c : Dev nD) (t : Fin cfg1.N) (h0 : t.val % 8 = 0) :
    outsAt1 V c t.val t.isLt = out1_A c (grid1.coords t) (ms1_0 t) (hs1_0 t) (ms1_1 t) (hs1_1 t) (ms1_2 t) (hs1_2 t) (ms1_3 t) (hs1_3 t) ((hcond1 t).mpr h0) (iblk1 V c 0 t) (iblk1 V c 1 t) (iblk1 V c 2 t) := by
  obtain ⟨n, hn⟩ := t
  cases n with
  | zero => exact rfl
  | succ n => exact (dif_pos h0).trans rfl

/-- At a later tile: the later-tile case's contents, over what the point before left. -/
theorem outsAt1_B (c : Dev nD) (t : Fin cfg1.N) (h0 : ¬t.val % 8 = 0) :
    outsAt1 V c t.val t.isLt = out1_B c (grid1.coords t) (ms1_0 t) (hs1_0 t) (ms1_1 t) (hs1_1 t) (ms1_2 t) (hs1_2 t) (ms1_3 t) (hs1_3 t) (fun h => h0 ((hcond1 t).mp h)) (iblk1 V c 0 t) (iblk1 V c 1 t) (iblk1 V c 2 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data of the second pipeline on core `c`: the arrays as the region finds them; after the body at point `t`
    each input's buffer at its block and the output's at `outsAt1`; the scoped rest and the generator register untouched;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
/-- At a later tile the output's staging buffer holds what the body left at the point before. -/
theorem before1_3_B (c : Dev nD) (t : Fin cfg1.N) (h0 : ¬t.val % 8 = 0) (d) :
    (dat1 V c).before 3 t d = (outsAt1 V c (t.val - 1) (Nat.lt_of_le_of_lt (Nat.sub_le _ _) t.isLt)) := by
  have hN : t.val < 64 := lt_of_lt_of_eq t.isLt (show cfg1.N = 64 from N_1)
  rw [Dat.before_out_kept _ 3 rfl t (by omega) (Bool.eq_false_iff.mpr fun h => by have := (flush1_3 _).mp h; dsimp only at this; omega)
    (fun _ => rfl) (fun _ _ => rfl)]
  dsimp only [dat1]

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 800000 in
/-- The body at any point: the inputs' memrefs hold their blocks; the point's number mod 8 says which case it is in; at a
    later tile the output's buffer holds what the point before left; so the case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  have hN : t.val < 64 := lt_of_lt_of_eq t.isLt (show cfg1.N = 64 from N_1)
  by_cases h0 : t.val % 8 = 0
  · rw [outsAt1_A V c t h0]
    unfold out1_A
    iintro ⟨HΦ, Ho, ⟨%d0, H0⟩, ⟨%d1, H1⟩, ⟨%d2, H2⟩, ⟨%d3, H3⟩⟩
    iapply ((kernelRun1_A c (grid1.coords t) _ _ _ _ _ _ _ _ ((hcond1 t).mpr h0) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_A c _ _ _ _ _ _ _ _ _ _ _ _ _)
  · rw [outsAt1_B V c t h0]
    simp only [before1_3_B V c t h0]
    unfold out1_B
    iintro ⟨HΦ, Ho, ⟨%d0, H0⟩, ⟨%d1, H1⟩, ⟨%d2, H2⟩, ⟨%d3, H3⟩⟩
    iapply ((kernelRun1_B c (grid1.coords t) _ _ _ _ _ _ _ _ (fun h => h0 ((hcond1 t).mp h)) (iblk1 V c 0 t) (iblk1 V c 1 t) (iblk1 V c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B c _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K_Regions.lean ====
/- @main's two kernel regions as segments of its run, and the run itself. Between @main's items every unscoped buffer of a
   core is held at a valuation: the launch memory, then each host stretch applied, then what a region leaves in its result
   array. Region 0 leaves in its result the fold of its write-backs, and region 1 likewise, entered from the contents the
   host stretch after region 0 computes. Each region's record splits its windows' arrays out of the unscoped buffers at
   entry and puts them back at exit; the generator register and the core's (empty) debts ride along. -/
import proofs.«401362_j69569880261306_3_alg».proof.Proof.K_R0Frame
import proofs.«401362_j69569880261306_3_alg».proof.Proof.K_R1Frame
import proofs.«401362_j69569880261306_3_alg».proof.Proof.Gen.Kernel.Regions
import Idealize.ShloMosaic.Lib.Pipeline.RegionsLoop
import Idealize.ShloMosaic.Lib.Pipeline.FrameSuffix

-- membership in a rectangle of the blocks' extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-- A family of valuations read at the TensorCore's references: what a region's proof data take. -/
abbrev atTc (W : Dev nD → Valuation τ sig (Elt F)) : (c : Dev nD) → (b : Ref sig .tc) → Buf (Elt F) ((c : Thread nD τ).loc b) :=
  fun c b => W c b

/-! ## What the regions leave -/

/-- Region 0's result array after the region: its write-backs folded. -/
def res0 (c : Dev nD) : Buf (Elt F) ((c : Thread nD τ).loc main_v2) := (dat0 (atTc (V1 m)) c).arrAt 2 cfg0.N
/-- The buffers after region 0, -/
def U2 (c : Dev nD) : Valuation τ sig (Elt F) := Function.update (V1 m c) (Proc.devRef .tc main_v2) (res0 m c)
/-- and after the host stretch that follows: region 1's entry contents. -/
def U3 (c : Dev nD) : Valuation τ sig (Elt F) := StableHlo.after hostOps1 (U2 m c)
/-- Region 1's result array after the region. -/
def res1 (c : Dev nD) : Buf (Elt F) ((c : Thread nD τ).loc main_v21) := (dat1 (atTc (U3 m)) c).arrAt 3 cfg1.N
/-- The buffers after region 1. -/
def U4 (c : Dev nD) : Valuation τ sig (Elt F) := Function.update (U3 m c) (Proc.devRef .tc main_v21) (res1 m c)

/-- The contents the regions leave, in the form the generated boundary valuations read them. -/
def outs : Outs (F := F) := fun J r c => if J ≤ 2 then U2 m c r else U4 m c r

theorem outs_2 (c : Dev nD) : outs m 2 main_v2 c = res0 m c := by
  unfold outs; rw [if_pos (by decide)]; unfold U2; exact Function.update_self _ _ _
theorem outs_4 (c : Dev nD) : outs m 4 main_v21 c = res1 m c := by
  unfold outs; rw [if_neg (by decide)]; unfold U4; exact Function.update_self _ _ _
theorem V2_eq (c : Dev nD) : V2 m (outs m) c = U2 m c := by
  show Function.update (V1 m c) _ (outs m 2 main_v2 c) = _; rw [outs_2]; rfl
theorem V3_eq (c : Dev nD) : V3 m (outs m) c = U3 m c := by
  show StableHlo.after hostOps1 (V2 m (outs m) c) = _; rw [V2_eq]; rfl
theorem V4_eq (c : Dev nD) : V4 m (outs m) c = U4 m c := by
  show Function.update (V3 m (outs m) c) _ (outs m 4 main_v21 c) = _; rw [outs_4, V3_eq]; rfl

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (atTc (V1 m)) c
  | ⟨1, _⟩ => fun c => dat1 (atTc (U3 m)) c

abbrev 𝒱₀ : Variants := Variants.none
/-- No core owes another anything: no level is assigned. -/
abbrev Lv : GSem nD τ sig → Finset Unit := fun _ => ∅
abbrev lv : GSem nD τ sig → Unit → ℕ := fun _ _ => 0
/-- What rides beside the buffers through every segment: the core's generator register at some state and its debts, none. -/
abbrev R (c : Dev nD) : sProp 𝕄 := iprop((∃ r, prngReg c r) ∗ ∃ W, owes (c : Thread nD τ) (0 : CellTallies nD τ sig Unit) W)

/-- At region 0's exit each of its arrays holds what the pipeline leaves: an input its entry contents, the result the fold. -/
theorem hF0 (c : Dev nD) : ∀ w : Fin cfg0.W, (dat0 (atTc (V1 m)) c).arrAt w cfg0.N = atTc (V2 m (outs m)) c (Pipeline.arrRef spec0 w)
  | ⟨0, _⟩ => ((dat0 (atTc (V1 m)) c).arrAt_in 0 rfl _).trans ((A_eq0 (atTc (V1 m)) c 0).trans (V2_of m (outs m) c main_v0 (by decide)).symm)
  | ⟨1, _⟩ => ((dat0 (atTc (V1 m)) c).arrAt_in 1 rfl _).trans ((A_eq0 (atTc (V1 m)) c 1).trans (V2_of m (outs m) c main_v1 (by decide)).symm)
  | ⟨2, _⟩ => ((congrFun (V2_eq m c) (Proc.devRef .tc main_v2)).trans (Function.update_self _ _ _)).symm
/-- and every other buffer what it held at entry. -/
theorem hrest0 (c : Dev nD) : ∀ b, b ∉ Finset.univ.image (Pipeline.arrRef spec0) → atTc (V2 m (outs m)) c b = atTc (V1 m) c b :=
  fun b hb => V2_of m (outs m) c b fun hmem => hb (Finset.mem_image.mpr ⟨2, Finset.mem_univ _, (List.mem_singleton.mp hmem).symm⟩)

/-- The same at region 1's exit. -/
theorem hF1 (c : Dev nD) : ∀ w : Fin cfg1.W, (dat1 (atTc (U3 m)) c).arrAt w cfg1.N = atTc (V4 m (outs m)) c (Pipeline.arrRef spec1 w)
  | ⟨0, _⟩ => ((dat1 (atTc (U3 m)) c).arrAt_in 0 rfl _).trans ((A_eq1 (atTc (U3 m)) c 0).trans ((V4_of m (outs m) c main_v0 (by decide)).trans (congrFun (V3_eq m c) _)).symm)
  | ⟨1, _⟩ => ((dat1 (atTc (U3 m)) c).arrAt_in 1 rfl _).trans ((A_eq1 (atTc (U3 m)) c 1).trans ((V4_of m (outs m) c main_v1 (by decide)).trans (congrFun (V3_eq m c) _)).symm)
  | ⟨2, _⟩ => ((dat1 (atTc (U3 m)) c).arrAt_in 2 rfl _).trans ((A_eq1 (atTc (U3 m)) c 2).trans ((V4_of m (outs m) c main_v16 (by decide)).trans (congrFun (V3_eq m c) _)).symm)
  | ⟨3, _⟩ => ((congrFun (V4_eq m c) (Proc.devRef .tc main_v21)).trans (Function.update_self _ _ _)).symm
theorem hrest1 (c : Dev nD) : ∀ b, b ∉ Finset.univ.image (Pipeline.arrRef spec1) → atTc (V4 m (outs m)) c b = atTc (U3 m) c b :=
  fun b hb => (V4_of m (outs m) c b fun hmem => hb (Finset.mem_image.mpr ⟨3, Finset.mem_univ _, (List.mem_singleton.mp hmem).symm⟩)).trans (congrFun (V3_eq m c) _)

/-! ## The regions as segments -/

set_option backward.isDefEq.respectTransparency.types false in
/-- REGION 0 over the thread state: entered from every unscoped buffer at the contents after the first host stretch, left
    at those contents with the result array at its fold. -/
def reg0 : RegionSeg (pcfgs (F := F)) adm (pdats m) () defs₀ 𝒱₀ Lv lv 0 where
  win := launch0.win.to₀
  block_pos := launch0.block_pos
  stage_whole := launch0.stage_whole
  K := PEmpty
  osem k := k.elim
  ho := Pipeline.OwnSemFacts.none _
  hbody c := (body_obligation0 (atTc (V1 m)) c).loose
  hwaits := Pipeline.hwaits_of_owed_zero _ _ _ _ Lv lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (atTc (V1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (V1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (V1 m) c) (atTc (V2 m (outs m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at the contents after the second host stretch, left
    at those contents with the result array at its fold. -/
def reg1 : RegionSeg (pcfgs (F := F)) adm (pdats m) () defs₀ 𝒱₀ Lv lv 1 where
  win := launch1.win.to₀
  block_pos := launch1.block_pos
  stage_whole := launch1.stage_whole
  K := PEmpty
  osem k := k.elim
  ho := Pipeline.OwnSemFacts.none _
  hbody c := (body_obligation1 (atTc (U3 m)) c).loose
  hwaits := Pipeline.hwaits_of_owed_zero _ _ _ _ Lv lv 1 fun _ _ => rfl
  pre c := iprop(StableHlo.held (c : Thread nD τ) (Pipeline.ucRefs τ sig) (U3 m c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (atTc (U3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (U3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (U3 m) c) (atTc (V4 m (outs m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch's side: the algebra's first element, the rest states -/

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts Lv lv)
    ⊢ (|={Set.univ}=> bigSep Finset.univ (fun c : Dev nD => R (F := F) c) : sProp 𝕄) :=
  Pipeline.initEach Lv lv fun c => by
    iintro ⟨⟨-, HO, -, Hp, -⟩, -⟩
    imodintro
    isplitl [Hp]; · iexists _; iexact Hp
    iexists ∅; iexact HO

/-! ## The frame, and the run with the result named -/

/-- Every weakly fair execution of @main terminates, faults nowhere and leaves the two argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_cond m emb₁ () 𝒱₀ Lv lv (fun _ _ => rfl) ρ (outs m) (pdats m) 0 (fun _ => iprop(emp))
    (initOf (Pipeline.cells cfgs cellOf_inj) (Pipeline.launchToks cfgs cellOf_inj)) hu₀
    (fun _ c => R c) (hE0 ρ) (fun c => by iintro ⟨-, H⟩; iexact H)
    (reg0 m) (fun c => .rfl) (fun c => .rfl)
    (reg1 m) (fun c => by rw [V3_eq]; exact .rfl) (fun c => .rfl)

-- the launch theorem's implicit arguments are found by unifying its conclusion with this one, which takes unfolding plain
-- definitions in a metavariable's type
set_option backward.isDefEq.respectTransparency.types false in
/-- The same run with the result named: every weakly fair execution of @main terminates, faults nowhere, and ends with the
    result buffer at the last boundary valuation's contents and the two argument arrays as launched. -/
theorem run_val : θ_run defs (onTc (τ := τ) (main (F := F))) ⟨m, fun _ => 0, ρ⟩ (fun r => ∀ c : Dev nD,
      r.2.mem ((c.tc : Thread nD τ).loc main_v98) = V13 m (outs m) c main_v98
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  exact Pipeline.θ_run_regions_kit_dev (pcfgs (F := F)) adm (pdats m) () cellOf_inj emb₁ defs₀ 𝒱₀ Lv lv m ρ main
    (segs m (outs m) 𝒱₀ Lv lv (fun _ c => R c) () (pdats m) (reg0 m) (reg1 m))
    (fun c Q => by
      rewrite [main_chain c, Seg.run_eq_chain,
        show (segs m (outs m) 𝒱₀ Lv lv (fun _ c => R c) () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8 ] from rfl]
      exact .rfl)
    (fun c => by simp only [segs, Seg.pipes_host, Seg.pipes_region, Seg.pipes_nil]; decide) (0 : Dev nD → CellTallies nD τ sig Unit) (fun _ _ => rfl) (fun _ => iprop(emp))
    (initOf (Pipeline.cells cfgs cellOf_inj) (Pipeline.launchToks cfgs cellOf_inj)) hu₀
    (T₀ := fun c => iprop(StableHlo.held (c : Thread nD τ) (Pipeline.ucRefs τ sig) (V0 m c) ∗ R c))
    (Tₙ := fun c => StableHlo.held (c : Thread nD τ) (Pipeline.ucRefs τ sig) (V13 m (outs m) c))
    (hch := fun c => ⟨.rfl, .rfl, .rfl, (show iprop(StableHlo.held (c : Thread nD τ) (Pipeline.ucRefs τ sig) (V3 m (outs m) c) ∗ R c) ⊢ iprop(StableHlo.held (c : Thread nD τ) (Pipeline.ucRefs τ sig) (U3 m c) ∗ R c) from by rw [V3_eq]), .rfl, .rfl, .rfl, .rfl, .rfl, .rfl, .rfl, .rfl, .rfl, sep_mono .rfl (by iintro ⟨-, H⟩; iexact H)⟩)
    (hinit := by
      refine Pipeline.initEach Lv lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V13 m (outs m) c b)
    (hfin := fun c s' => by
      iintro ⟨Hh, HSI⟩
      unfold StableHlo.held
      imodintro
      iapply (pointsTo_read_all (Pipeline.ucRefs τ sig) (fun b => (((c : Thread nD τ)).1, b)) (V13 m (outs m) c) s')
      isplitl [Hh] <;> iassumption)
    (hQ := fun s h c =>
      ⟨h c (Proc.devRef .tc main_v98) (Finset.mem_filter.mpr ⟨StableHlo.devRef_mem_tcRefs main_v98, by decide⟩),
        (h c (Proc.devRef .tc main_arg0) (Finset.mem_filter.mpr ⟨StableHlo.devRef_mem_tcRefs main_arg0, by decide⟩)).trans (V13_main_arg0 m (outs m) c),
        (h c (Proc.devRef .tc main_arg1) (Finset.mem_filter.mpr ⟨StableHlo.devRef_mem_tcRefs main_arg1, by decide⟩)).trans (V13_main_arg1 m (outs m) c)⟩)

end Cert.Kernel.Hand

end
-- ==== Proof.RefFrame.lean ====
import proofs.«401362_j69569880261306_3_alg».proof.Defs
import proofs.«401362_j69569880261306_3_alg».proof.Proof.Gen.ReferenceIdeal
import proofs.«401362_j69569880261306_3_alg».proof.Proof.Gen.Pre_finite_inputs
import proofs.«401362_j69569880261306_3_alg».proof.Proof.RefRunP

/-! The reference program is a straight line of host operations: it runs to the end from any memory,
    and no operation writes an argument array. -/

noncomputable section

namespace Cert.Proof.RefFrame

open Idealize.ShloMosaic Idealize.SL.Sem

theorem frame_ref [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.ValueP.run (F := Ideal) m ρ)

end Cert.Proof.RefFrame

end
-- ==== Proof.Spec.lean ====
/- The mathematics both programs compute before their common closing arithmetic, stated once over plain functions of
   (batch, channel, pixel): the embeddings `E b c n`, the label words `L b n` and, for the second pass, a table of
   per-instance means `M b k c`.
   * `scAt`: entry (k, j) of batch b's table is the sum over the pixels labelled k of the embeddings' channel j, the
     last column (j = 16) counting those pixels (an all-ones row joined under the sixteen channels).
   * `pisAt`: entry k of batch b is the sum over the pixels labelled k of the pixel's hinge: with d the root of the
     squared distance between the pixel's embedding and the mean row its label selects (1 at a background pixel),
     max (d - 1/2) 0 squared, times 0 at a background pixel and 1 elsewhere. -/
import Idealize.ShloMosaic.PureOps.Ideal
import Idealize.ShloMosaic.Lib.ValueIdx

noncomputable section

namespace Cert.Spec

open Idealize.ShloMosaic

/-- The one-hot entry: 1 where the label word is the number `k`, else 0. -/
def oh (k : Fin 17) (w : BitVec 32) : EReal := if w = BitVec.ofNat 32 k.val then 1 else 0

/-- The embeddings with the all-ones row joined under their sixteen channels. -/
def aug (E : Fin 8 → Fin 16 → Fin 262144 → EReal) (b : Fin 8) (j : Fin 17) (n : Fin 262144) : EReal :=
  if h : j.val < 16 then E b ⟨j.val, h⟩ n else 1

/-- Batch `b`'s table of per-label sums (columns 0 to 15) and counts (column 16). -/
def scAt (E : Fin 8 → Fin 16 → Fin 262144 → EReal) (L : Fin 8 → Fin 262144 → BitVec 32) (b : Fin 8) (k j : Fin 17) : EReal :=
  ∑ n : Fin 262144, oh k (L b n) * aug E b j n

/-- The mean row a pixel's label selects, channel `c`: the means' column weighted by the one-hot of the label. -/
def meanPx (L : Fin 8 → Fin 262144 → BitVec 32) (M : Fin 8 → Fin 17 → Fin 16 → EReal) (b : Fin 8) (c : Fin 16) (n : Fin 262144) : EReal :=
  ∑ k : Fin 17, M b k c * oh k (L b n)

/-- The squared distance between a pixel's embedding and its selected mean row. -/
def sqdAt (E : Fin 8 → Fin 16 → Fin 262144 → EReal) (L : Fin 8 → Fin 262144 → BitVec 32) (M : Fin 8 → Fin 17 → Fin 16 → EReal)
    (b : Fin 8) (n : Fin 262144) : EReal :=
  ∑ c : Fin 16, (E b c n - meanPx L M b c n) * (E b c n - meanPx L M b c n)

/-- Is the label word not the background's? As a bit. -/
def fgBit (w : BitVec 32) : BitVec 1 := IntOp.cmpi .ne w 0#32

/-- The pixel's hinge. The three float literals are 1, 1/2 and 0, kept as the words both programs print. -/
def hingeAt (E : Fin 8 → Fin 16 → Fin 262144 → EReal) (L : Fin 8 → Fin 262144 → BitVec 32) (M : Fin 8 → Fin 17 → Fin 16 → EReal)
    (b : Fin 8) (n : Fin 262144) : EReal :=
  let d := Ideal.sqrt (Scalar.select (fgBit (L b n)) (sqdAt E L M b n) (Ideal.ofBits .f32 0x3F800000#32))
  let h := max (d - Ideal.ofBits .f32 0x3F000000#32) (Ideal.ofBits .f32 0x00000000#32)
  h * h * (if fgBit (L b n) = 1#1 then 1 else 0)

/-- Batch `b`'s per-label sums of the hinge. -/
def pisAt (E : Fin 8 → Fin 16 → Fin 262144 → EReal) (L : Fin 8 → Fin 262144 → BitVec 32) (M : Fin 8 → Fin 17 → Fin 16 → EReal)
    (b : Fin 8) (k : Fin 17) : EReal :=
  ∑ n : Fin 262144, oh k (L b n) * hingeAt E L M b n

/-- With the label in range the one-hot weighting of a column picks the label's entry. -/
theorem meanPx_eq (L : Fin 8 → Fin 262144 → BitVec 32) (M : Fin 8 → Fin 17 → Fin 16 → EReal) (b : Fin 8) (c : Fin 16) (n : Fin 262144)
    (h : (L b n).toNat < 17) : meanPx L M b c n = M b ⟨(L b n).toNat, h⟩ c := by
  unfold meanPx oh
  rw [Finset.sum_eq_single (⟨(L b n).toNat, h⟩ : Fin 17)]
  · rw [if_pos (by simp), mul_one]
  · intro k _ hk
    rw [if_neg, mul_zero]
    intro e
    apply hk
    apply Fin.ext
    show k.val = (L b n).toNat
    have := congrArg BitVec.toNat e
    simp only [BitVec.toNat_ofNat] at this
    have hk17 : k.val < 17 := k.isLt
    omega
  · intro hn; exact absurd (Finset.mem_univ _) hn

end Cert.Spec

end
-- ==== Proof.KI_ValBase.lean ====
/- The kernel regions' entry contents as plain functions of (batch, channel, pixel): the reshaped embeddings
   [8, 16, 262144], the reshaped labels [8, 1, 262144] and, for the second region, the means [8, 17, 16]. -/
import proofs.«401362_j69569880261306_3_alg».proof.Proof.Gen.KernelIdeal
import proofs.«401362_j69569880261306_3_alg».proof.Proof.Spec

-- membership in a rectangle of the blocks' extents recurses once per coordinate of the long axes
set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

open Cert.Spec Idealize.ShloMosaic.ValueIdx

variable (V : (c : Dev nD) → (b : Ref sig .tc) → Buf (Elt Ideal) ((c : Thread nD τ).loc b))

/-- The embeddings a region is entered with, by batch, channel and pixel. -/
def Ek (c : Dev nD) : Fin 8 → Fin 16 → Fin 262144 → EReal := fun b ch n => (V c main_v0 : Vec Ideal S8x16x262144 .f32) (ix3 b ch n)
/-- The label words, by batch and pixel. -/
def Lk (c : Dev nD) : Fin 8 → Fin 262144 → BitVec 32 := fun b n => (V c main_v1 : Vec Ideal S8x1x262144 .i32) (ix3 b 0 n)
/-- The means the second region is entered with, by batch, instance and channel. -/
def Mk (c : Dev nD) : Fin 8 → Fin 17 → Fin 16 → EReal := fun b k ch => (V c main_v16 : Vec Ideal S8x17x16 .f32) (ix3 b k ch)

end Cert.KernelIdeal.Hand

end
-- ==== Proof.RefBase.lean ====
/- The reference's reshaped arguments as plain functions of (batch, channel, pixel): its embeddings [8, 16, 262144], its
   labels [8, 262144], and the table of per-instance means [8, 17, 16] it divides out of its segment sums. -/
import proofs.«401362_j69569880261306_3_alg».proof.Proof.RefReadP
import proofs.«401362_j69569880261306_3_alg».proof.Proof.Spec

noncomputable section

namespace Cert.ReferenceIdeal.Hand

open Cert.ReferenceIdeal Cert.ReferenceIdeal.Gen Cert.ReferenceIdeal.ReadP Cert.Spec
open Idealize.ShloMosaic Idealize.ShloMosaic.ValueIdx

abbrev X0 : Type := (⟨S8x16x512x512, .f32⟩ : BufTy).Contents (Elt Ideal)
abbrev X1 : Type := (⟨S8x512x512, .i32⟩ : BufTy).Contents (Elt Ideal)

/-- The embeddings, by batch, channel and pixel. -/
def Er (x0 : X0) : Fin 8 → Fin 16 → Fin 262144 → EReal := fun b c n => val_main_v0 (F := Ideal) x0 (ix3 b c n)
/-- The label words, by batch and pixel. -/
def Lr (x1 : X1) : Fin 8 → Fin 262144 → BitVec 32 := fun b n => val_main_v2 (F := Ideal) x1 (ix2 b n)
/-- The means, by batch, instance and channel. -/
def Mr (x0 : X0) (x1 : X1) : Fin 8 → Fin 17 → Fin 16 → EReal := fun b k c => val_main_v30 (F := Ideal) x0 x1 (ix3 b k c)

end Cert.ReferenceIdeal.Hand

end
-- ==== Proof.PreDecode.lean ====
/- What the precondition says of the labels: every label word, read as a natural number, is below 17.
   The printed predicate is the conjunction of two all-reductions; its second one is, at every pixel, the conjunction of the
   signed comparisons  0 ≤ label  and  label < 17. -/
import proofs.«401362_j69569880261306_3_alg».proof.Pre_finite_inputs
import proofs.«401362_j69569880261306_3_alg».proof.Proof.Gen.Pre_finite_inputs
import Idealize.ShloMosaic.Lib.ReduceAll
import Idealize.ShloMosaic.Lib.StableHlo.Predicate

noncomputable section

namespace Cert.Proof.PreDecode

open Idealize.ShloMosaic Cert.Pre_finite_inputs

/-- A 32-bit word whose signed reading lies in [0, 17) has the same unsigned reading: a word with its top bit set
    reads negative, so the signed lower bound excludes it, and below 2^31 the two readings agree. -/
theorem toNat_lt_of_toInt (w : BitVec 32) (h0 : 0 ≤ w.toInt) (h1 : w.toInt < 17) : w.toNat < 17 := by
  have hc := BitVec.toInt_eq_toNat_cond w
  have hw := w.isLt
  split at hc <;> omega

/-- The scalar shape has exactly one index. -/
instance : Subsingleton S_.Idx := ⟨fun _ _ => funext fun d => d.elim0⟩

/-- Under the precondition every label is one of 0, …, 16. -/
theorem lab_lt {F : FTy → Type} [FloatOps F] [Cert.Pre_finite_inputs.Facts] (x : FVec F S8x16x512x512 .f32) (l : IVec S8x512x512 32)
    (h : fn (F := F) x l = fun _ => 1#1) (i : S8x512x512.Idx) : (l i).toNat < 17 := by
  -- the predicate at its one index: the conjunction of the two all-reductions
  have h0 := congrFun h (fun a => a.elim0)
  unfold fn at h0
  obtain ⟨-, h9⟩ := IntOp.andi_eq_one.1 h0
  -- the second all-reduction is 1, so its operand is 1 at the pixel i
  have hi := Host.reduce_andi_all _ _ _ _ _ h9 i
  -- at a pixel the operand is the conjunction of the two signed comparisons with the constants 0 and 17
  obtain ⟨hge, hlt⟩ := IntOp.andi_eq_one.1 hi
  have hge' : (0#32 : BitVec 32).toInt ≤ (l i).toInt := IntOp.cmpi_sge.1 hge
  have hlt' : (l i).toInt < (17#32 : BitVec 32).toInt := IntOp.cmpi_slt.1 hlt
  exact toNat_lt_of_toInt (l i) (by simpa using hge') (by simpa using hlt')

end Cert.Proof.PreDecode

end
-- ==== Proof.BridgeBase.lean ====
/- The two programs reshape the same arguments: read as functions of (batch, channel, pixel) the kernel's embeddings
   [8, 16, 262144] and labels [8, 1, 262144] are the reference's embeddings [8, 16, 262144] and labels [8, 262144] — every
   reshape keeps the row-major position, and pixel n of batch b sits at position 262144·b + n in both label layouts.
   Under the precondition every label, read through either layout, is below 17. -/
import proofs.«401362_j69569880261306_3_alg».proof.Proof.KI_ValBase
import proofs.«401362_j69569880261306_3_alg».proof.Proof.RefBase
import proofs.«401362_j69569880261306_3_alg».proof.Proof.PreDecode
import Idealize.ShloMosaic.Lib.Pipeline.Value

noncomputable section

namespace Cert.Proof.Bridge

open Idealize.ShloMosaic Idealize.ShloMosaic.TcCoe Idealize.ShloMosaic.ValueIdx Idealize.SL.Sem
open Cert.Spec Cert.KernelIdeal.Hand Cert.ReferenceIdeal.Hand

/-- The kernel's reshaped embeddings, as a function of (batch, channel, pixel), are the reference's. -/
theorem Ek_eq (V : (c : Dev Cert.KernelIdeal.nD) → (b : Ref Cert.KernelIdeal.sig .tc) → Buf (Elt Ideal) ((c : Thread Cert.KernelIdeal.nD Cert.KernelIdeal.τ).loc b))
    (c : Dev Cert.KernelIdeal.nD) (x0 : X0)
    (h : V c Cert.KernelIdeal.main_v0 = shapeCast Cert.KernelIdeal.S8x16x262144 x0 Cert.KernelIdeal.Gen.shapeCasts_S8x16x512x512_S8x16x262144) :
    Ek V c = Er x0 := by
  funext b ch n
  unfold Ek Er Cert.ReferenceIdeal.ReadP.val_main_v0
  rw [h]

/-- The kernel's reshaped labels [8, 1, 262144], as a function of (batch, pixel), are the reference's [8, 262144]. -/
theorem Lk_eq (V : (c : Dev Cert.KernelIdeal.nD) → (b : Ref Cert.KernelIdeal.sig .tc) → Buf (Elt Ideal) ((c : Thread Cert.KernelIdeal.nD Cert.KernelIdeal.τ).loc b))
    (c : Dev Cert.KernelIdeal.nD) (x1 : X1)
    (h : V c Cert.KernelIdeal.main_v1 = shapeCast Cert.KernelIdeal.S8x1x262144 x1 Cert.KernelIdeal.Gen.shapeCasts_S8x512x512_S8x1x262144) :
    Lk V c = Lr x1 := by
  funext b n
  unfold Lk Lr
  rw [h, Cert.ReferenceIdeal.ReadP.val_main_v2_apply]
  exact shapeCast_apply x1 Cert.KernelIdeal.Gen.shapeCasts_S8x512x512_S8x1x262144 (ix3 b 0 n) (Cert.ReferenceIdeal.ReadP.idx_main_v2 (ix2 b n))
    (by
      rewrite [Shape.rowMajor_val_three, Shape.rowMajor_val_three]
      have hb : b.val < 8 := b.isLt
      have hn : n.val < 262144 := n.isLt
      show ((b.val * 262144 + n.val) / 262144 * 512 + (b.val * 262144 + n.val) / 512 % 512) * 512 + (b.val * 262144 + n.val) % 512 = (b.val * 1 + 0) * 262144 + n.val
      omega)

set_option maxRecDepth 100000 in
/-- Under the precondition every label word the reference reads is below 17. -/
theorem lab_lt_ref (x0 : X0) (x1 : X1) (h : Cert.Pre_finite_inputs.fn (F := Ideal) x0 x1 = fun _ => 1#1) (b : Fin 8) (n : Fin 262144) :
    (Lr x1 b n).toNat < 17 := by
  unfold Lr
  rw [Cert.ReferenceIdeal.ReadP.val_main_v2_apply]
  exact Cert.Proof.PreDecode.lab_lt (F := Ideal) x0 x1 h (Cert.ReferenceIdeal.ReadP.idx_main_v2 (ix2 b n))

end Cert.Proof.Bridge

end
-- ==== Proof.KI_R0Shared.lean ====
/- The first kernel region (per batch, the label one-hot times the augmented embeddings, accumulated over the
    eight tiles of a batch): what its two body cases share. The region is entered with the TensorCore's buffers
    at a parameter `V`. A tile's two input blocks are read off `V`; the output block is reset at a batch's first
    tile (grid coordinate 1 equal to 0, that is point number ≡ 0 mod 8) and carried over at the seven others. -/
import proofs.«401362_j69569880261306_3_alg».proof.Proof.Gen.KernelIdeal.Launch
import proofs.«401362_j69569880261306_3_alg».proof.Proof.Gen.KernelIdeal.Skeleton
import proofs.«401362_j69569880261306_3_alg».proof.Proof.Gen.KernelIdeal.Points
import Idealize.ShloMosaic.Lib.Pipeline.FrameBody
import Idealize.ShloMosaic.Lib.Ring
import Idealize.ShloMosaic.Lib.Tactic

-- membership in a rectangle of the blocks' extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The embeddings' staging buffer holds the tile's block at every point, for any proof data over `V` whose body
    leaves that block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the labels' staging buffer. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's one branch condition (is this a batch's first tile?), from the grid coordinates. -/
abbrev cond0 (i : grid0.Coords) : Prop := (Scalar.cmpi .ne (Scalar.extui (Scalar.cmpi .eq (BitVec.ofNat 32 (i 1).val) 0#32)) 0#32) = 1#1
/-- It holds exactly at the points whose number is a multiple of 8 — decided over the 64 points. -/
theorem hcond0 : ∀ t : Fin cfg0.N, cond0 (grid0.coords t) ↔ t.val % 8 = 0 :=
  (by decide +kernel : ∀ t : Fin grid0.N, cond0 (grid0.coords t) ↔ t.val % 8 = 0)

/-- One staging buffer of the output window, through which its contents are stated. -/
abbrev VO0_2 : View sig .tc .vmem S1x17x17 .f32 := (Memref.whole cc0_stg2_0 : Memref sig .tc .vmem S1x17x17 .f32).view
/-- Each window's current staging memref at point `t`, as the pipeline passes it, and its wholeness. -/
abbrev ms0_0 (t : Fin cfg0.N) : Memref sig .tc .vmem S1x16x32768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x32768 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x17x17 .f32 := win0_2.stage (cfg0.slots t 2)
abbrev hs0_2 (t : Fin cfg0.N) : (ms0_2 t).IsWhole := hstage0_2 ((cfg0.slots t 2).cast nbuf0_2)

end Cert.KernelIdeal.Hand

end
-- ==== Proof.KI_R0RunA.lean ====
/- The first kernel's body at a batch's FIRST tile: it stores the zero block into the output's staging buffer, reads it
    back, and stores the sum of that and the tile's product. The body's triple, with the pieces its stores leave as
    the witness the symbolic run finds. -/
import proofs.«401362_j69569880261306_3_alg».proof.Proof.KI_R0Shared

-- membership in a rectangle of the blocks' extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole staging memrefs — the inputs' at their contents, the output's at anything — the body at a first tile runs
    to the continuation holding the inputs' as they were and the output's with its pieces written. -/
noncomputable def kernelRun0_A (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x17x17 .f32) (harg4 : arg4.IsWhole) (hc0 : cond0 i)
    (x0 : Vec F S1x16x32768 .f32) (x1 : Vec F S1x1x32768 .i32) :
    { L2 : List (View.Piece (Elt F) S1x17x17 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__k1_kernel i arg2 harg2 arg3 harg3 arg4 harg4) K } := by
  refine ⟨?_, fun E K => ?run⟩
  case run =>
    simp only [cc0__k1_kernel_eq_skeleton]; unfold cc0__k1_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Hand

end
-- ==== Proof.KI_R0RunB.lean ====
/- The first kernel's body at a batch's LATER tiles: it reads the running block from the output's staging buffer and
    stores the sum of that and the tile's product. -/
import proofs.«401362_j69569880261306_3_alg».proof.Proof.KI_R0RunA

-- membership in a rectangle of the blocks' extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole staging memrefs — the inputs' at their contents, the output's at its running contents `xo` — the body at a
    later tile runs to the continuation holding the inputs' as they were and the output's with its pieces written. -/
noncomputable def kernelRun0_B (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x17x17 .f32) (harg4 : arg4.IsWhole) (hc0 : ¬cond0 i)
    (x0 : Vec F S1x16x32768 .f32) (x1 : Vec F S1x1x32768 .i32) (xo : Vec F S1x17x17 .f32) :
    { L2 : List (View.Piece (Elt F) S1x17x17 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__k1_kernel i arg2 harg2 arg3 harg3 arg4 harg4) K } := by
  refine ⟨?_, fun E K => ?run⟩
  case run =>
    simp only [cc0__k1_kernel_eq_skeleton]; unfold cc0__k1_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Hand

end
-- ==== Proof.KI_R0Frame.lean ====
/- The first kernel region's proof data and body obligation. What the output's staging buffer holds after each point is
    defined by recursion on the point's number: at a batch's first tile what the first-tile case leaves, at a later tile
    what the later-tile case leaves over the contents of the point before (the buffer is written back only after a
    batch's last tile, so between two tiles of one batch it is carried over untouched). -/
import proofs.«401362_j69569880261306_3_alg».proof.Proof.KI_R0RunB

-- membership in a rectangle of the blocks' extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The first-tile case's one-or-two stores tile the output block, so they cover it. -/
theorem cover0_A (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x17x17 .f32) (harg4 : arg4.IsWhole) (hc0 : cond0 i)
    (x0 : Vec F S1x16x32768 .f32) (x1 : Vec F S1x1x32768 .i32) (y : S1x17x17.Idx) :
    ∃ pc ∈ (kernelRun0_A c i arg2 harg2 arg3 harg3 arg4 harg4 hc0 x0 x1).1, y ∈ pc.1.set :=
  View.cover_of_tiledL (kernelRun0_A c i arg2 harg2 arg3 harg3 arg4 harg4 hc0 x0 x1).1 S1x17x17.size (by sl_kernel_rfl) y

/-- What the first-tile case leaves in the output's staging buffer: its pieces read back over junk. -/
def out0_A (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x17x17 .f32) (harg4 : arg4.IsWhole) (hc0 : cond0 i)
    (x0 : Vec F S1x16x32768 .f32) (x1 : Vec F S1x1x32768 .i32) : Vec F S1x17x17 .f32 :=
  VO0_2.read (Elt F) (VO0_2.writes (Elt F) VO0_2.junk (kernelRun0_A c i arg2 harg2 arg3 harg3 arg4 harg4 hc0 x0 x1).1)

/-- The later-tile case's store covers the output block. -/
theorem cover0_B (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x17x17 .f32) (harg4 : arg4.IsWhole) (hc0 : ¬cond0 i)
    (x0 : Vec F S1x16x32768 .f32) (x1 : Vec F S1x1x32768 .i32) (xo : Vec F S1x17x17 .f32) (y : S1x17x17.Idx) :
    ∃ pc ∈ (kernelRun0_B c i arg2 harg2 arg3 harg3 arg4 harg4 hc0 x0 x1 xo).1, y ∈ pc.1.set :=
  View.cover_of_tiledL (kernelRun0_B c i arg2 harg2 arg3 harg3 arg4 harg4 hc0 x0 x1 xo).1 S1x17x17.size (by sl_kernel_rfl) y

/-- What the later-tile case leaves in the output's staging buffer. -/
def out0_B (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x17x17 .f32) (harg4 : arg4.IsWhole) (hc0 : ¬cond0 i)
    (x0 : Vec F S1x16x32768 .f32) (x1 : Vec F S1x1x32768 .i32) (xo : Vec F S1x17x17 .f32) : Vec F S1x17x17 .f32 :=
  VO0_2.read (Elt F) (VO0_2.writes (Elt F) VO0_2.junk (kernelRun0_B c i arg2 harg2 arg3 harg3 arg4 harg4 hc0 x0 x1 xo).1)

/-- THE ACCUMULATION: what the output's staging buffer holds after the body at point number `n`. -/
def outsAt0 (c : Dev nD) : (n : ℕ) → n < cfg0.N → Vec F S1x17x17 .f32
  | 0, hn => out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0 ⟨0, hn⟩).mpr (Nat.zero_mod _)) (iblk0 V c 0 ⟨0, hn⟩) (iblk0 V c 1 ⟨0, hn⟩)
  | n + 1, hn =>
    if h0 : (n + 1) % 8 = 0 then
      out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0 ⟨n + 1, hn⟩).mpr h0) (iblk0 V c 0 ⟨n + 1, hn⟩) (iblk0 V c 1 ⟨n + 1, hn⟩)
    else
      out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0 ⟨n + 1, hn⟩).mp h)) (iblk0 V c 0 ⟨n + 1, hn⟩) (iblk0 V c 1 ⟨n + 1, hn⟩) (outsAt0 c n (Nat.lt_of_succ_lt hn))

/-- At a batch's first tile: the first-tile case's contents. -/
theorem outsAt0_A (c : Dev nD) (t : Fin cfg0.N) (h0 : t.val % 8 = 0) :
    outsAt0 V c t.val t.isLt = out0_A c (grid0.coords t) (ms0_0 t) (hs0_0 t) (ms0_1 t) (hs0_1 t) (ms0_2 t) (hs0_2 t) ((hcond0 t).mpr h0) (iblk0 V c 0 t) (iblk0 V c 1 t) := by
  obtain ⟨n, hn⟩ := t
  cases n with
  | zero => exact rfl
  | succ n => exact (dif_pos h0).trans rfl

/-- At a later tile: the later-tile case's contents, over what the point before left. -/
theorem outsAt0_B (c : Dev nD) (t : Fin cfg0.N) (h0 : ¬t.val % 8 = 0) :
    outsAt0 V c t.val t.isLt = out0_B c (grid0.coords t) (ms0_0 t) (hs0_0 t) (ms0_1 t) (hs0_1 t) (ms0_2 t) (hs0_2 t) (fun h => h0 ((hcond0 t).mp h)) (iblk0 V c 0 t) (iblk0 V c 1 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data of the first pipeline on core `c`: the arrays as the region finds them; after the body at point `t`
    each input's buffer at its block and the output's at `outsAt0`; the scoped rest and the generator register untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- At a later tile the output's staging buffer holds what the body left at the point before: the buffer was not written
    back between (that happens after a batch's last tile only). -/
theorem before0_2_B (c : Dev nD) (t : Fin cfg0.N) (h0 : ¬t.val % 8 = 0) (d) :
    (dat0 V c).before 2 t d = (outsAt0 V c (t.val - 1) (Nat.lt_of_le_of_lt (Nat.sub_le _ _) t.isLt)) := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    (fun _ => rfl) (fun _ _ => rfl)]
  dsimp only [dat0]

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 800000 in
/-- The body at any point: the inputs' memrefs hold their blocks; the point's number mod 8 says which case it is in; at a
    later tile the output's buffer holds what the point before left; so the case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  have hN : t.val < 64 := lt_of_lt_of_eq t.isLt (show cfg0.N = 64 from N_0)
  by_cases h0 : t.val % 8 = 0
  · rw [outsAt0_A V c t h0]
    unfold out0_A
    iintro ⟨HΦ, Ho, ⟨%d0, H0⟩, ⟨%d1, H1⟩, ⟨%d2, H2⟩⟩
    iapply ((kernelRun0_A c (grid0.coords t) _ _ _ _ _ _ ((hcond0 t).mpr h0) (iblk0 V c 0 t) (iblk0 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A c _ _ _ _ _ _ _ _ _ _)
  · rw [outsAt0_B V c t h0]
    simp only [before0_2_B V c t h0]
    unfold out0_B
    iintro ⟨HΦ, Ho, ⟨%d0, H0⟩, ⟨%d1, H1⟩, ⟨%d2, H2⟩⟩
    iapply ((kernelRun0_B c (grid0.coords t) _ _ _ _ _ _ (fun h => h0 ((hcond0 t).mp h)) (iblk0 V c 0 t) (iblk0 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B c _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI_Val0.lean ====
/- What the first kernel region leaves in its result array [8, 17, 17], at the exact instance: entry (b, k, j) is the sum over
   batch b's pixels of the one-hot of the label at k times the augmented embeddings' row j. Per tile the body adds to the
   running block the product of the tile's one-hot block and its augmented embeddings block; the block is reset at a
   batch's first tile and written back after its last, so what is written back is the sum over the batch's eight tiles,
   which is the sum over all its pixels. -/
import proofs.«401362_j69569880261306_3_alg».proof.Proof.KI_R0Frame
import proofs.«401362_j69569880261306_3_alg».proof.Proof.KI_ValBase
import Idealize.ShloMosaic.Lib.Pipeline.Value
import Idealize.ShloMosaic.Lib.ValueLayout
import Idealize.ShloMosaic.Lib.IdealHost
import Idealize.ShloMosaic.PureOps.Ideal.Laws

-- membership in a rectangle of the blocks' extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Spec Idealize.ShloMosaic.ValueIdx

variable (V : (c : Dev nD) → (b : Ref sig .tc) → Buf (Elt Ideal) ((c : Thread nD τ).loc b))

namespace Val0

/-! ## What each case of the body leaves, as the payload of its last store -/

section Pieces
variable {F : FTy → Type} [FloatOps F]

theorem hz3 : (![0, 0, 0] : Fin 3 → Nat) = fun _ => 0 := funext fun a => by fin_cases a <;> rfl

/-- At a later tile the body leaves the running block plus the tile's product. -/
theorem out0_B_eq (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x17x17 .f32) (harg4 : arg4.IsWhole) (hc0 : ¬cond0 i)
    (x0 : Vec F S1x16x32768 .f32) (x1 : Vec F S1x1x32768 .i32) (xo : Vec F S1x17x17 .f32) :
    out0_B c i arg2 harg2 arg3 harg3 arg4 harg4 hc0 x0 x1 xo = k0_pay2 x0 x1 xo := by
  unfold out0_B
  rw [View.read_writes_eq_canon _ _ _ (cover0_B c i arg2 harg2 arg3 harg3 arg4 harg4 hc0 x0 x1 xo)]
  unfold kernelRun0_B
  dsimp only
  sl_unfold_words
  rw [View.canon_unit_zero hz3]
  simp only [View.readAt_eq_ld, harg2.read_unread, harg3.read_unread, harg4.read_unread, View.ld_unit_zero (S := S1x16x32768) hz3,
    View.ld_unit_zero (S := S1x1x32768) hz3, View.ld_unit_zero (S := S1x17x17) hz3]

/-- At a batch's first tile it leaves the zero block plus the tile's product. -/
theorem out0_A_eq (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x17x17 .f32) (harg4 : arg4.IsWhole) (hc0 : cond0 i)
    (x0 : Vec F S1x16x32768 .f32) (x1 : Vec F S1x1x32768 .i32) :
    out0_A c i arg2 harg2 arg3 harg3 arg4 harg4 hc0 x0 x1 = k0_pay2 x0 x1 (k0_pay1 (F := F)) := by
  unfold out0_A
  rw [View.read_writes_eq_canon _ _ _ (cover0_A c i arg2 harg2 arg3 harg3 arg4 harg4 hc0 x0 x1)]
  unfold kernelRun0_A
  dsimp only
  sl_unfold_words
  rw [View.canon_cons_unit_zero (S := S1x17x17) hz3]
  simp only [View.readAt_eq_ld, harg2.read_unread, harg3.read_unread, View.readCov_unit_zero (S := S1x17x17) _ hz3, View.ld_unit_zero (S := S1x16x32768) hz3,
    View.ld_unit_zero (S := S1x1x32768) hz3, View.ld_unit_zero (S := S1x17x17) hz3]

end Pieces

/-! ## The body's payload read at an entry, at the exact instance -/

/-- The dot's record, named. -/
abbrev D0 : DotDims S17x32768 S17x32768 S17x17 := dot_S17x32768_S17x32768_S17x17_1_1_0_0_n_n

theorem D0_lhs (k j : Fin 17) (n : Fin 32768) :
    D0.lhsIdx (ix2 k j) ((contrEquiv1 D0 32768 rfl rfl).symm n) = ix2 k n := by
  have c2 := contrEquiv1_symm_val D0 32768 rfl rfl n
  funext ax; apply Fin.ext
  match ax with
  | ⟨0, _⟩ => simp [DotDims.lhsIdx, D0, dot_S17x32768_S17x32768_S17x17_1_1_0_0_n_n]; rfl
  | ⟨1, _⟩ => simp [DotDims.lhsIdx, D0, dot_S17x32768_S17x32768_S17x17_1_1_0_0_n_n]; exact c2

theorem D0_rhs (k j : Fin 17) (n : Fin 32768) :
    D0.rhsIdx (ix2 k j) ((contrEquiv1 D0 32768 rfl rfl).symm n) = ix2 j n := by
  have c2 := contrEquiv1_symm_val D0 32768 rfl rfl n
  funext ax; apply Fin.ext
  match ax with
  | ⟨0, _⟩ => simp [DotDims.rhsIdx, D0, dot_S17x32768_S17x32768_S17x17_1_1_0_0_n_n]; rfl
  | ⟨1, _⟩ => simp [DotDims.rhsIdx, D0, dot_S17x32768_S17x32768_S17x17_1_1_0_0_n_n]; exact c2

/-- A [17, 1] column broadcast along the lanes reads, at (p, c), the column at p. -/
theorem bcast_col_apply {α : Type} (v : S17x1.Idx → α) (h : S17x1.Broadcasts S17x32768) (p : Fin 17) (c : Fin 32768) :
    broadcastTo S17x32768 v h (ix2 p c) = v (ix2 p (0 : Fin 1)) := by
  refine broadcastTo_apply v h (ix2 p c) (ix2 p (0 : Fin 1)) fun ax => ?_
  match ax with
  | ⟨0, _⟩ =>
    show p.val = if (17 : ℕ) = 1 then 0 else p.val
    rw [if_neg (by decide)]
  | ⟨1, _⟩ => exact (if_pos rfl).symm

/-- A one-bit word widened and read as a signed integer is 1 or 0 as the bit is. -/
theorem bit_to_real (a w : BitVec 32) :
    ((((IntOp.cmpi .eq a w).setWidth 32).toInt : ℝ) : EReal) = if w = a then 1 else 0 := by
  by_cases h : w = a
  · rw [if_pos h, IntOp.cmpi_eq.mpr h.symm]
    show (((1 : ℤ) : ℝ) : EReal) = 1
    simp
  · rw [if_neg h, eq_zero_of_ne_one (fun e => h (IntOp.cmpi_eq.mp e).symm)]
    show (((0 : ℤ) : ℝ) : EReal) = 0
    simp

/-- The one-hot block the body builds from the tile's labels, at (k, n). -/
theorem onehot_apply (x1 : Vec Ideal S1x1x32768 .i32) (k : Fin 17) (n : Fin 32768) :
    (truncf .bf16 (sitofp .f32 (extui 32 (cmpi .eq (broadcastTo S17x32768 (iota .tc S17x1 32 [0] iota_S17x1_d0_w32) broadcasts_S17x1_S17x32768)
      (broadcastTo S17x32768 (shapeCast S1x32768 x1 shapeCasts_S1x1x32768_S1x32768) broadcasts_S1x32768_S17x32768)) natLt_1_32) : FVec Ideal S17x32768 .f32)
      bitsLt_bf16_f32 : FVec Ideal S17x32768 .bf16) (ix2 k n) = oh k (x1 (ix3 (0 : Fin 1) (0 : Fin 1) n)) := by
  show ((((IntOp.cmpi .eq (broadcastTo S17x32768 (iota .tc S17x1 32 [0] iota_S17x1_d0_w32) broadcasts_S17x1_S17x32768 (ix2 k n))
      (broadcastTo S17x32768 (shapeCast S1x32768 x1 shapeCasts_S1x1x32768_S1x32768) broadcasts_S1x32768_S17x32768 (ix2 k n))).setWidth 32).toInt : ℝ) : EReal) = _
  rw [bcast_col_apply, broadcastTo_1b_ab_apply, shapeCast_1ab_ab_apply, iota_single_apply, bit_to_real]
  rfl

/-- The tile's embeddings with the all-ones row joined under the sixteen channels. -/
def augB (x0 : Vec Ideal S1x16x32768 .f32) (j : Fin 17) (n : Fin 32768) : EReal :=
  if h : j.val < 16 then x0 (ix3 (0 : Fin 1) (⟨j.val, h⟩ : Fin 16) n) else 1

theorem aug_apply (x0 : Vec Ideal S1x16x32768 .f32) (j : Fin 17) (n : Fin 32768) :
    (concatenate S17x32768 0 [⟨S16x32768, (truncf .bf16 (shapeCast S16x32768 x0 shapeCasts_S1x16x32768_S16x32768 : FVec Ideal S16x32768 .f32) bitsLt_bf16_f32 : FVec Ideal S16x32768 .bf16)⟩,
      ⟨S1x32768, (broadcast S1x32768 (Scalar.ofBits .bf16 0x3F80#16 : Ideal .bf16) : FVec Ideal S1x32768 .bf16)⟩] concatenates_S16x32768_S1x32768_S17x32768_d0 : FVec Ideal S17x32768 .bf16) (ix2 j n)
      = augB x0 j n := by
  unfold augB
  by_cases h : j.val < 16
  · rw [dif_pos h]
    refine (concatenate_pair_apply_left (t := S17x32768) (s₁ := S16x32768) (s₂ := S1x32768) (0 : Fin 2) _ _ concatenates_S16x32768_S1x32768_S17x32768_d0 (ix2 j n) rfl (ix2 (⟨j.val, h⟩ : Fin 16) n) (fun b => ?_)).trans ?_
    · match b with
      | ⟨0, _⟩ => rfl
      | ⟨1, _⟩ => rfl
    · exact shapeCast_1ab_ab_apply x0 _ _ _
  · rw [dif_neg h]
    refine (concatenate_pair_apply_right (t := S17x32768) (s₁ := S16x32768) (s₂ := S1x32768) (0 : Fin 2) _ _ concatenates_S16x32768_S1x32768_S17x32768_d0 (ix2 j n) rfl rfl (ix2 (0 : Fin 1) n) (fun b hb => ?_) ?_).trans ?_
    · match b with
      | ⟨0, _⟩ => exact absurd rfl hb
      | ⟨1, _⟩ => rfl
    · show 0 + 16 = j.val
      have := j.isLt; omega
    · exact Ideal.ofBits_one_bf16

theorem pay2_apply (x0 : Vec Ideal S1x16x32768 .f32) (x1 : Vec Ideal S1x1x32768 .i32) (xo : Vec Ideal S1x17x17 .f32) (k j : Fin 17) :
    k0_pay2 (F := Ideal) x0 x1 xo (ix3 (0 : Fin 1) k j)
      = xo (ix3 (0 : Fin 1) k j) + ∑ n : Fin 32768, oh k (x1 (ix3 (0 : Fin 1) (0 : Fin 1) n)) * augB x0 j n := by
  unfold k0_pay2
  refine (shapeCast_ab_1ab_apply _ _ (0 : Fin 1) k j).trans ?_
  refine congrArg₂ (· + ·) (shapeCast_1ab_ab_apply xo _ k j) ?_
  refine (Ideal.matmul_constant_zero_apply D0 none _ _ (ix2 k j)).trans ?_
  rw [← Equiv.sum_comp (contrEquiv1 D0 32768 rfl rfl).symm]
  refine Finset.sum_congr rfl fun n _ => ?_
  rw [D0_lhs, D0_rhs]
  exact congrArg₂ (· * ·) (onehot_apply x1 k n) (aug_apply x0 j n)

theorem pay1_apply (k j : Fin 17) : k0_pay1 (F := Ideal) (ix3 (0 : Fin 1) k j) = 0 := by
  unfold k0_pay1
  refine (shapeCast_ab_1ab_apply _ _ (0 : Fin 1) k j).trans ?_
  exact Ideal.ofBits_zero_f32

/-! ## The tile's blocks as parts of the region's entry arrays -/

/-- The tile's embeddings block, at its literal type. -/
abbrev eblk (c : Dev nD) (t : Fin cfg0.N) : Vec Ideal S1x16x32768 .f32 := iblk0 V c 0 t
/-- The tile's labels block, at its literal type. -/
abbrev lblk (c : Dev nD) (t : Fin cfg0.N) : Vec Ideal S1x1x32768 .i32 := iblk0 V c 1 t

/-- Pixel n' of tile s of a batch is the batch's pixel 32768·s + n'. -/
def pixEquiv : Fin 8 × Fin 32768 ≃ Fin 262144 := finProdFinEquiv
theorem pixEquiv_val (s : Fin 8) (n' : Fin 32768) : (pixEquiv (s, n')).val = n'.val + 32768 * s.val := rfl

/-- Point t = 8·b + s reads block (b, 0, s) of the embeddings, -/
theorem idx0_facts : ∀ t : Fin cfg0.N, win0_0.index t (0 : Fin 3) = t.val / 8 ∧ win0_0.index t (1 : Fin 3) = 0 ∧ win0_0.index t (2 : Fin 3) = t.val % 8 :=
  (by decide +kernel : ∀ t : Fin grid0.N, win0_0.index t (0 : Fin 3) = t.val / 8 ∧ win0_0.index t (1 : Fin 3) = 0 ∧ win0_0.index t (2 : Fin 3) = t.val % 8)
/-- block (b, 0, s) of the labels, -/
theorem idx1_facts : ∀ t : Fin cfg0.N, win0_1.index t (0 : Fin 3) = t.val / 8 ∧ win0_1.index t (1 : Fin 3) = 0 ∧ win0_1.index t (2 : Fin 3) = t.val % 8 :=
  (by decide +kernel : ∀ t : Fin grid0.N, win0_1.index t (0 : Fin 3) = t.val / 8 ∧ win0_1.index t (1 : Fin 3) = 0 ∧ win0_1.index t (2 : Fin 3) = t.val % 8)
/-- and writes block (b, 0, 0) of the result. -/
theorem idx2_facts : ∀ t : Fin cfg0.N, win0_2.index t (0 : Fin 3) = t.val / 8 ∧ win0_2.index t (1 : Fin 3) = 0 ∧ win0_2.index t (2 : Fin 3) = 0 :=
  (by decide +kernel : ∀ t : Fin grid0.N, win0_2.index t (0 : Fin 3) = t.val / 8 ∧ win0_2.index t (1 : Fin 3) = 0 ∧ win0_2.index t (2 : Fin 3) = 0)

theorem eblk_apply (c : Dev nD) (t : Fin cfg0.N) (b s : Fin 8) (hb : b.val = t.val / 8) (hs : s.val = t.val % 8) (ch : Fin 16) (n' : Fin 32768) :
    eblk V c t (ix3 (0 : Fin 1) ch n') = Ek V c b ch (pixEquiv (s, n')) := by
  obtain ⟨h0, h1, h2⟩ := idx0_facts t
  show iblk0 V c 0 t (ix3 (0 : Fin 1) ch n') = _
  unfold iblk0 Ek
  rw [View.read_apply]
  show V c main_v0 _ = V c main_v0 _
  congr 1
  funext a
  apply Fin.ext
  match a with
  | ⟨0, _⟩ => show win0_0.index t (0 : Fin 3) * 1 + 1 * 0 = b.val; rw [h0]; omega
  | ⟨1, _⟩ => show win0_0.index t (1 : Fin 3) * 16 + 1 * ch.val = ch.val; rw [h1]; omega
  | ⟨2, _⟩ => show win0_0.index t (2 : Fin 3) * 32768 + 1 * n'.val = n'.val + 32768 * s.val; rw [h2]; omega

theorem lblk_apply (c : Dev nD) (t : Fin cfg0.N) (b s : Fin 8) (hb : b.val = t.val / 8) (hs : s.val = t.val % 8) (n' : Fin 32768) :
    lblk V c t (ix3 (0 : Fin 1) (0 : Fin 1) n') = Lk V c b (pixEquiv (s, n')) := by
  obtain ⟨h0, h1, h2⟩ := idx1_facts t
  show iblk0 V c 1 t (ix3 (0 : Fin 1) (0 : Fin 1) n') = _
  unfold iblk0 Lk
  rw [View.read_apply]
  show V c main_v1 _ = V c main_v1 _
  congr 1
  funext a
  apply Fin.ext
  match a with
  | ⟨0, _⟩ => show win0_1.index t (0 : Fin 3) * 1 + 1 * 0 = b.val; rw [h0]; omega
  | ⟨1, _⟩ => show win0_1.index t (1 : Fin 3) * 1 + 1 * 0 = 0; rw [h1]
  | ⟨2, _⟩ => show win0_1.index t (2 : Fin 3) * 32768 + 1 * n'.val = n'.val + 32768 * s.val; rw [h2]; omega

/-! ## A batch's table entry as the sum of its eight tiles' shares -/

/-- Tile s's share of entry (k, j) of batch b's table. -/
def tileSum (E : Fin 8 → Fin 16 → Fin 262144 → EReal) (L : Fin 8 → Fin 262144 → BitVec 32) (b : Fin 8) (k j : Fin 17) (s : Fin 8) : EReal :=
  ∑ n' : Fin 32768, oh k (L b (pixEquiv (s, n'))) * aug E b j (pixEquiv (s, n'))

/-- The entry is the sum of the eight shares: the batch's pixels are its tiles' pixels. -/
theorem scAt_eq_tiles (E : Fin 8 → Fin 16 → Fin 262144 → EReal) (L : Fin 8 → Fin 262144 → BitVec 32) (b : Fin 8) (k j : Fin 17) :
    scAt E L b k j = ∑ s : Fin 8, tileSum E L b k j s := by
  unfold scAt tileSum
  rw [← Equiv.sum_comp pixEquiv, Fintype.sum_prod_type]

/-- The share of tile number u of batch number B, zero past the grid: the addend of a sum over a range of naturals. -/
def shareN (E : Fin 8 → Fin 16 → Fin 262144 → EReal) (L : Fin 8 → Fin 262144 → BitVec 32) (k j : Fin 17) (B u : ℕ) : EReal :=
  if h : B < 8 ∧ u < 8 then tileSum E L ⟨B, h.1⟩ k j ⟨u, h.2⟩ else 0

/-- All eight shares of a batch sum to its entry. -/
theorem full_sum (E : Fin 8 → Fin 16 → Fin 262144 → EReal) (L : Fin 8 → Fin 262144 → BitVec 32) (b : Fin 8) (k j : Fin 17) :
    ∑ u ∈ Finset.range 8, shareN E L k j b.val u = scAt E L b k j := by
  rw [scAt_eq_tiles, Finset.sum_range]
  refine Finset.sum_congr rfl fun s _ => ?_
  unfold shareN
  rw [dif_pos ⟨b.isLt, s.isLt⟩]

/-- The augmented embeddings of the tile's block are the batch's, at the tile's pixels. -/
theorem augB_eq (c : Dev nD) (t : Fin cfg0.N) (b s : Fin 8) (hb : b.val = t.val / 8) (hs : s.val = t.val % 8) (j : Fin 17) (n' : Fin 32768) :
    augB (eblk V c t) j n' = aug (Ek V c) b j (pixEquiv (s, n')) := by
  unfold augB aug
  by_cases h : j.val < 16
  · rw [dif_pos h, dif_pos h]; exact eblk_apply V c t b s hb hs ⟨j.val, h⟩ n'
  · rw [dif_neg h, dif_neg h]

/-- The product the body forms at point t, at (k, j), is the share of tile t % 8 of batch t / 8. -/
theorem tile_eq_shareN (c : Dev nD) (t : Fin cfg0.N) (k j : Fin 17) :
    ∑ n' : Fin 32768, oh k (lblk V c t (ix3 (0 : Fin 1) (0 : Fin 1) n')) * augB (eblk V c t) j n'
      = shareN (Ek V c) (Lk V c) k j (t.val / 8) (t.val % 8) := by
  have hN : t.val < 64 := lt_of_lt_of_eq t.isLt (show cfg0.N = 64 from N_0)
  unfold shareN
  rw [dif_pos ⟨by omega, by omega⟩]
  unfold tileSum
  refine Finset.sum_congr rfl fun n' _ => ?_
  rw [lblk_apply V c t ⟨t.val / 8, by omega⟩ ⟨t.val % 8, by omega⟩ rfl rfl n', augB_eq V c t ⟨t.val / 8, by omega⟩ ⟨t.val % 8, by omega⟩ rfl rfl j n']

/-! ## The result array -/

/-- The table as contents of the result array. -/
def G0 (c : Dev nD) : Vec Ideal S8x17x17 .f32 := fun i => scAt (Ek V c) (Lk V c) (i 0) (i 1) (i 2)

/-- Every entry of the result array lies in the block written back after its batch's last tile. -/
theorem cover0 (c : Dev nD) (i : ((cfg0.win 2).arr.view.loc (c.tc : Thread nD τ)).2.ty.Idx) :
    ∃ t : Fin cfg0.N, (cfg0.win 2).flush t = true ∧ i ∈ ((cfg0.win 2).blk t).view.set := by
  have h0 : (i 0 : Nat) < 8 := (i 0).isLt
  have h1 : (i 1 : Nat) < 17 := (i 1).isLt
  have h2 : (i 2 : Nat) < 17 := (i 2).isLt
  have hlt : 8 * (i 0 : Nat) + 7 < cfg0.N := by rw [show cfg0.N = 64 from N_0]; omega
  refine ⟨⟨8 * (i 0 : Nat) + 7, hlt⟩, (flush0_2 _).mpr (by show (8 * (i 0 : Nat) + 7) % 8 = 7; omega), ?_⟩
  obtain ⟨i0, i1, i2⟩ := idx2_facts ⟨8 * (i 0 : Nat) + 7, hlt⟩
  show i ∈ ((View.whole main_v2).slice (win0_2.rect ⟨8 * (i 0 : Nat) + 7, hlt⟩)).set
  rw [View.set_slice_whole, Rect.mem_set_unit]
  intro a
  match a with
  | ⟨0, _⟩ =>
    show win0_2.index ⟨8 * (i 0 : Nat) + 7, hlt⟩ (0 : Fin 3) * 1 ≤ (i 0 : Nat) ∧ (i 0 : Nat) < win0_2.index ⟨8 * (i 0 : Nat) + 7, hlt⟩ (0 : Fin 3) * 1 + 1
    rw [i0]; dsimp only; omega
  | ⟨1, _⟩ =>
    show win0_2.index ⟨8 * (i 0 : Nat) + 7, hlt⟩ (1 : Fin 3) * 17 ≤ (i 1 : Nat) ∧ (i 1 : Nat) < win0_2.index ⟨8 * (i 0 : Nat) + 7, hlt⟩ (1 : Fin 3) * 17 + 17
    rw [i1]; omega
  | ⟨2, _⟩ =>
    show win0_2.index ⟨8 * (i 0 : Nat) + 7, hlt⟩ (2 : Fin 3) * 17 ≤ (i 2 : Nat) ∧ (i 2 : Nat) < win0_2.index ⟨8 * (i 0 : Nat) + 7, hlt⟩ (2 : Fin 3) * 17 + 17
    rw [i2]; omega

/-! ## What the output's staging buffer holds after each point -/

/-- After a batch's first tile: that tile's share. -/
theorem outsAt0_first (c : Dev nD) (t : Fin cfg0.N) (h0 : t.val % 8 = 0) (k j : Fin 17) :
    (outsAt0 V c t.val t.isLt : Vec Ideal S1x17x17 .f32) (ix3 (0 : Fin 1) k j)
      = shareN (Ek V c) (Lk V c) k j (t.val / 8) (t.val % 8) := by
  rw [outsAt0_A V c t h0]
  refine (congrFun (out0_A_eq (F := Ideal) c (grid0.coords t) (ms0_0 t) (hs0_0 t) (ms0_1 t) (hs0_1 t) (ms0_2 t) (hs0_2 t) ((hcond0 t).mpr h0)
    (iblk0 V c 0 t) (iblk0 V c 1 t)) (ix3 (0 : Fin 1) k j)).trans ?_
  refine (pay2_apply (eblk V c t) (lblk V c t) (k0_pay1 (F := Ideal)) k j).trans ?_
  rw [pay1_apply, zero_add]
  exact tile_eq_shareN V c t k j

/-- After a later tile: what the point before left, plus this tile's share. -/
theorem outsAt0_later (c : Dev nD) (t : Fin cfg0.N) (h0 : ¬t.val % 8 = 0) (k j : Fin 17) :
    (outsAt0 V c t.val t.isLt : Vec Ideal S1x17x17 .f32) (ix3 (0 : Fin 1) k j)
      = (outsAt0 V c (t.val - 1) (Nat.lt_of_le_of_lt (Nat.sub_le _ _) t.isLt) : Vec Ideal S1x17x17 .f32) (ix3 (0 : Fin 1) k j)
        + shareN (Ek V c) (Lk V c) k j (t.val / 8) (t.val % 8) := by
  rw [outsAt0_B V c t h0]
  refine (congrFun (out0_B_eq (F := Ideal) c (grid0.coords t) (ms0_0 t) (hs0_0 t) (ms0_1 t) (hs0_1 t) (ms0_2 t) (hs0_2 t) (fun h => h0 ((hcond0 t).mp h))
    (iblk0 V c 0 t) (iblk0 V c 1 t) (outsAt0 V c (t.val - 1) (Nat.lt_of_le_of_lt (Nat.sub_le _ _) t.isLt))) (ix3 (0 : Fin 1) k j)).trans ?_
  refine (pay2_apply (eblk V c t) (lblk V c t) (outsAt0 V c (t.val - 1) (Nat.lt_of_le_of_lt (Nat.sub_le _ _) t.isLt)) k j).trans ?_
  rw [tile_eq_shareN V c t k j]

/-- So after point n it holds the shares of the tiles of batch n / 8 up to tile n % 8: by induction on the point. -/
theorem outsAt0_apply (c : Dev nD) (k j : Fin 17) : ∀ (n : ℕ) (hn : n < cfg0.N),
    (outsAt0 V c n hn : Vec Ideal S1x17x17 .f32) (ix3 (0 : Fin 1) k j)
      = ∑ u ∈ Finset.range (n % 8 + 1), shareN (Ek V c) (Lk V c) k j (n / 8) u
  | 0, hn => by
    refine (outsAt0_first V c ⟨0, hn⟩ rfl k j).trans ?_
    show shareN (Ek V c) (Lk V c) k j (0 / 8) (0 % 8) = ∑ u ∈ Finset.range 1, shareN (Ek V c) (Lk V c) k j (0 / 8) u
    rw [Finset.sum_range_one]
  | n + 1, hn => by
    by_cases h0 : (n + 1) % 8 = 0
    · refine (outsAt0_first V c ⟨n + 1, hn⟩ h0 k j).trans ?_
      show shareN (Ek V c) (Lk V c) k j ((n + 1) / 8) ((n + 1) % 8) = _
      rw [h0, Nat.zero_add, Finset.sum_range_one]
    · refine (outsAt0_later V c ⟨n + 1, hn⟩ h0 k j).trans ?_
      show (outsAt0 V c n (Nat.lt_of_succ_lt hn) : Vec Ideal S1x17x17 .f32) (ix3 (0 : Fin 1) k j)
        + shareN (Ek V c) (Lk V c) k j ((n + 1) / 8) ((n + 1) % 8) = _
      rw [outsAt0_apply c k j n (Nat.lt_of_succ_lt hn)]
      have e1 : (n + 1) / 8 = n / 8 := by omega
      have e2 : (n + 1) % 8 = n % 8 + 1 := by omega
      rw [e1, e2, Finset.sum_range_succ _ (n % 8 + 1)]

/-! ## The write-back and the result array -/

/-- Reading contents of the result array through the block of point t reads them at the block's entries. -/
theorem read_blk2_apply (G : Vec Ideal S8x17x17 .f32) (t : Fin cfg0.N) (y : ((cfg0.win 2).xblock (cfg0.grid.coords t)).Idx) :
    ((cfg0.win 2).blk t).view.read (Elt Ideal) G y = G (((cfg0.win 2).blk t).view.emb y) := rfl

/-- The block written back after a batch's last tile is the batch's rows of the table. -/
theorem flushed0_eq (c : Dev nD) (t : Fin cfg0.N) (hf : (cfg0.win 2).flush t = true) :
    (dat0 (F := Ideal) V c).flushed 2 t = ((cfg0.win 2).blk t).view.read (Elt Ideal) (G0 V c) := by
  have h7 : t.val % 8 = 7 := (flush0_2 t).mp hf
  have hN : t.val < 64 := lt_of_lt_of_eq t.isLt (show cfg0.N = 64 from N_0)
  obtain ⟨i0, i1, i2⟩ := idx2_facts t
  funext y
  obtain ⟨u, k, j, rfl⟩ : ∃ (u : Fin 1) (k j : Fin 17), y = (ix3 u k j : S1x17x17.Idx) := ⟨y 0, y 1, y 2, eq_ix3 y⟩
  obtain rfl : u = 0 := Subsingleton.elim _ _
  show (cfg0.win 2).cut (grid0.coords t) ((dat0 (F := Ideal) V c).after 2 t) (ix3 (0 : Fin 1) k j) = _
  rw [after0_2, read_blk2_apply (G0 V c) t (ix3 (0 : Fin 1) k j)]
  show (outsAt0 V c t.val t.isLt : Vec Ideal S1x17x17 .f32) (ix3 (0 : Fin 1) k j) = _
  have eidx : ((cfg0.win 2).blk t).view.emb (ix3 (0 : Fin 1) k j) = (ix3 (⟨t.val / 8, by omega⟩ : Fin 8) k j : S8x17x17.Idx) := by
    funext a
    apply Fin.ext
    match a with
    | ⟨0, _⟩ => show win0_2.index t (0 : Fin 3) * 1 + 1 * 0 = t.val / 8; rw [i0]; omega
    | ⟨1, _⟩ => show win0_2.index t (1 : Fin 3) * 17 + 1 * k.val = k.val; rw [i1]; omega
    | ⟨2, _⟩ => show win0_2.index t (2 : Fin 3) * 17 + 1 * j.val = j.val; rw [i2]; omega
  rw [eidx, outsAt0_apply V c k j t.val t.isLt, h7]
  exact full_sum (Ek V c) (Lk V c) ⟨t.val / 8, by omega⟩ k j

/-- The result array after the region is the table. -/
theorem final0_arr (c : Dev nD) : (dat0 (F := Ideal) V c).arrAt 2 cfg0.N = G0 V c :=
  (dat0 (F := Ideal) V c).arrAt_eq_of_cover 2 (G0 V c) (flushed0_eq V c) (cover0 c)

end Val0

/-- The first region's result array after the region, entry by entry. -/
theorem final0 (c : Dev nD) (b : Fin 8) (k j : Fin 17) :
    ((dat0 (F := Ideal) V c).arrAt 2 cfg0.N : Vec Ideal S8x17x17 .f32) (ix3 b k j) = scAt (Ek V c) (Lk V c) b k j := by
  rw [Val0.final0_arr V c]
  rfl

end Cert.KernelIdeal.Hand

end
-- ==== Proof.KI_R1Shared.lean ====
/- The second kernel region (per batch, the label one-hot times the pixels' hinge, accumulated over the eight tiles of a
    batch): what its two body cases share. Three inputs — a tile's embeddings and labels, and the batch's block of means,
    which moves only when the batch does — and the output block, reset at a batch's first tile and carried over at the
    seven others. -/
import proofs.«401362_j69569880261306_3_alg».proof.Proof.Gen.KernelIdeal.Launch
import proofs.«401362_j69569880261306_3_alg».proof.Proof.Gen.KernelIdeal.Skeleton
import proofs.«401362_j69569880261306_3_alg».proof.Proof.Gen.KernelIdeal.Points
import Idealize.ShloMosaic.Lib.Pipeline.FrameBody
import Idealize.ShloMosaic.Lib.Ring
import Idealize.ShloMosaic.Lib.Tactic

-- membership in a rectangle of the blocks' extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds its block at every point, fetched there or not (an unfetched block's index has not
    moved), for any proof data over `V` whose body leaves the block in place: the embeddings, -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- the labels, -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- and the means. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's one branch condition (is this a batch's first tile?), from the grid coordinates. -/
abbrev cond1 (i : grid1.Coords) : Prop := (Scalar.cmpi .ne (Scalar.extui (Scalar.cmpi .eq (BitVec.ofNat 32 (i 1).val) 0#32)) 0#32) = 1#1
/-- It holds exactly at the points whose number is a multiple of 8 — decided over the 64 points. -/
theorem hcond1 : ∀ t : Fin cfg1.N, cond1 (grid1.coords t) ↔ t.val % 8 = 0 :=
  (by decide +kernel : ∀ t : Fin grid1.N, cond1 (grid1.coords t) ↔ t.val % 8 = 0)

/-- One staging buffer of the output window, through which its contents are stated. -/
abbrev VO1_3 : View sig .tc .vmem S1x17x1 .f32 := (Memref.whole cc1_stg3_0 : Memref sig .tc .vmem S1x17x1 .f32).view
/-- Each window's current staging memref at point `t`, as the pipeline passes it, and its wholeness. -/
abbrev ms1_0 (t : Fin cfg1.N) : Memref sig .tc .vmem S1x16x32768 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x32768 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x17x16 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x17x1 .f32 := win1_3.stage (cfg1.slots t 3)
abbrev hs1_3 (t : Fin cfg1.N) : (ms1_3 t).IsWhole := hstage1_3 ((cfg1.slots t 3).cast nbuf1_3)

end Cert.KernelIdeal.Hand

end
-- ==== Proof.KI_R1RunA.lean ====
/- The second kernel's body at a batch's FIRST tile: it stores the zero block into the output's staging buffer, reads it
    back, and stores the sum of that and the tile's product. The body's triple, with the pieces its stores leave as
    the witness the symbolic run finds. -/
import proofs.«401362_j69569880261306_3_alg».proof.Proof.KI_R1Shared

-- membership in a rectangle of the blocks' extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole staging memrefs — the inputs' at their contents, the output's at anything — the body at a first tile runs
    to the continuation holding the inputs' as they were and the output's with its pieces written. -/
noncomputable def kernelRun1_A (c : Dev nD) (i : grid1.Coords) (arg2 : Memref sig .tc .vmem S1x16x32768 .f32) (harg2 : arg2.IsWhole) (arg3 : Memref sig .tc .vmem S1x1x32768 .i32) (harg3 : arg3.IsWhole) (arg4 : Memref sig .tc .vmem S1x17x16 .f32) (harg4 : arg4.IsWhole) (arg5 : Memref sig .tc .vmem S1x17x1 .f32) (harg5 : arg5.IsWhole) (hc0 : cond1 i)
    (x0 : Vec F S1x16x32768 .f32) (x1 : Vec F S1x1x32768 .i32) (x2 : Vec F S1x17x16 .f32) :
    { L3 : List (View.Piece (Elt F) S1x17x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc1__k2_kernel i arg2 harg2 arg3 harg3 arg4 harg4 arg5 harg5) K } := by
  refine ⟨?_, fun E K => ?run⟩
  case run =>
    simp only [cc1__k2_kernel_eq_skeleton]; unfold cc1__k2_kernel_skel
    simp only [k1_part1_eq_skeleton]
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Hand

end
-- ==== Proof.KI_R1RunB.lean ====
/- The second kernel's body at a batch's LATER tiles: it reads the running block from the output's staging buffer and
    stores the sum of that and the tile's product. -/
import proofs.«401362_j69569880261306_3_alg».proof.Proof.KI_R1RunA

-- membership in a rectangle of the blocks' extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole staging memrefs — the inputs' at their contents, the output's at its running contents `xo` — the body at a
    later tile runs to the continuation holding the inputs' as they were and the output's with its pieces written. -/
noncomputable def kernelRun1_B (c : Dev nD) (i : grid1.Coords) (arg2 : Memref sig .tc .vmem S1x16x32768 .f32) (harg2 : arg2.IsWhole) (arg3 : Memref sig .tc .vmem S1x1x32768 .i32) (harg3 : arg3.IsWhole) (arg4 : Memref sig .tc .vmem S1x17x16 .f32) (harg4 : arg4.IsWhole) (arg5 : Memref sig .tc .vmem S1x17x1 .f32) (harg5 : arg5.IsWhole) (hc0 : ¬cond1 i)
    (x0 : Vec F S1x16x32768 .f32) (x1 : Vec F S1x1x32768 .i32) (x2 : Vec F S1x17x16 .f32) (xo : Vec F S1x17x1 .f32) :
    { L3 : List (View.Piece (Elt F) S1x17x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc1__k2_kernel i arg2 harg2 arg3 harg3 arg4 harg4 arg5 harg5) K } := by
  refine ⟨?_, fun E K => ?run⟩
  case run =>
    simp only [cc1__k2_kernel_eq_skeleton]; unfold cc1__k2_kernel_skel
    simp only [k1_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Hand

end
-- ==== Proof.KI_R1Frame.lean ====
/- The second kernel region's proof data and body obligation. What the output's staging buffer holds after each point is
    defined by recursion on the point's number, as for the first region: at a batch's first tile what the first-tile case
    leaves, at a later tile what the later-tile case leaves over the contents of the point before. -/
import proofs.«401362_j69569880261306_3_alg».proof.Proof.KI_R1RunB

-- membership in a rectangle of the blocks' extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The first-tile case's stores tile the output block, so they cover it. -/
theorem cover1_A (c : Dev nD) (i : grid1.Coords) (arg2 : Memref sig .tc .vmem S1x16x32768 .f32) (harg2 : arg2.IsWhole) (arg3 : Memref sig .tc .vmem S1x1x32768 .i32) (harg3 : arg3.IsWhole) (arg4 : Memref sig .tc .vmem S1x17x16 .f32) (harg4 : arg4.IsWhole) (arg5 : Memref sig .tc .vmem S1x17x1 .f32) (harg5 : arg5.IsWhole) (hc0 : cond1 i)
    (x0 : Vec F S1x16x32768 .f32) (x1 : Vec F S1x1x32768 .i32) (x2 : Vec F S1x17x16 .f32) (y : S1x17x1.Idx) :
    ∃ pc ∈ (kernelRun1_A c i arg2 harg2 arg3 harg3 arg4 harg4 arg5 harg5 hc0 x0 x1 x2).1, y ∈ pc.1.set :=
  View.cover_of_tiledL (kernelRun1_A c i arg2 harg2 arg3 harg3 arg4 harg4 arg5 harg5 hc0 x0 x1 x2).1 S1x17x1.size (by sl_kernel_rfl) y

/-- What the first-tile case leaves in the output's staging buffer: its pieces read back over junk. -/
def out1_A (c : Dev nD) (i : grid1.Coords) (arg2 : Memref sig .tc .vmem S1x16x32768 .f32) (harg2 : arg2.IsWhole) (arg3 : Memref sig .tc .vmem S1x1x32768 .i32) (harg3 : arg3.IsWhole) (arg4 : Memref sig .tc .vmem S1x17x16 .f32) (harg4 : arg4.IsWhole) (arg5 : Memref sig .tc .vmem S1x17x1 .f32) (harg5 : arg5.IsWhole) (hc0 : cond1 i)
    (x0 : Vec F S1x16x32768 .f32) (x1 : Vec F S1x1x32768 .i32) (x2 : Vec F S1x17x16 .f32) : Vec F S1x17x1 .f32 :=
  VO1_3.read (Elt F) (VO1_3.writes (Elt F) VO1_3.junk (kernelRun1_A c i arg2 harg2 arg3 harg3 arg4 harg4 arg5 harg5 hc0 x0 x1 x2).1)

/-- The later-tile case's store covers the output block. -/
theorem cover1_B (c : Dev nD) (i : grid1.Coords) (arg2 : Memref sig .tc .vmem S1x16x32768 .f32) (harg2 : arg2.IsWhole) (arg3 : Memref sig .tc .vmem S1x1x32768 .i32) (harg3 : arg3.IsWhole) (arg4 : Memref sig .tc .vmem S1x17x16 .f32) (harg4 : arg4.IsWhole) (arg5 : Memref sig .tc .vmem S1x17x1 .f32) (harg5 : arg5.IsWhole) (hc0 : ¬cond1 i)
    (x0 : Vec F S1x16x32768 .f32) (x1 : Vec F S1x1x32768 .i32) (x2 : Vec F S1x17x16 .f32) (xo : Vec F S1x17x1 .f32) (y : S1x17x1.Idx) :
    ∃ pc ∈ (kernelRun1_B c i arg2 harg2 arg3 harg3 arg4 harg4 arg5 harg5 hc0 x0 x1 x2 xo).1, y ∈ pc.1.set :=
  View.cover_of_tiledL (kernelRun1_B c i arg2 harg2 arg3 harg3 arg4 harg4 arg5 harg5 hc0 x0 x1 x2 xo).1 S1x17x1.size (by sl_kernel_rfl) y

/-- What the later-tile case leaves in the output's staging buffer. -/
def out1_B (c : Dev nD) (i : grid1.Coords) (arg2 : Memref sig .tc .vmem S1x16x32768 .f32) (harg2 : arg2.IsWhole) (arg3 : Memref sig .tc .vmem S1x1x32768 .i32) (harg3 : arg3.IsWhole) (arg4 : Memref sig .tc .vmem S1x17x16 .f32) (harg4 : arg4.IsWhole) (arg5 : Memref sig .tc .vmem S1x17x1 .f32) (harg5 : arg5.IsWhole) (hc0 : ¬cond1 i)
    (x0 : Vec F S1x16x32768 .f32) (x1 : Vec F S1x1x32768 .i32) (x2 : Vec F S1x17x16 .f32) (xo : Vec F S1x17x1 .f32) : Vec F S1x17x1 .f32 :=
  VO1_3.read (Elt F) (VO1_3.writes (Elt F) VO1_3.junk (kernelRun1_B c i arg2 harg2 arg3 harg3 arg4 harg4 arg5 harg5 hc0 x0 x1 x2 xo).1)

/-- THE ACCUMULATION: what the output's staging buffer holds after the body at point number `n`. -/
def outsAt1 (c : Dev nD) : (n : ℕ) → n < cfg1.N → Vec F S1x17x1 .f32
  | 0, hn => out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) ((hcond1 ⟨0, hn⟩).mpr (Nat.zero_mod _)) (iblk1 V c 0 ⟨0, hn⟩) (iblk1 V c 1 ⟨0, hn⟩) (iblk1 V c 2 ⟨0, hn⟩)
  | n + 1, hn =>
    if h0 : (n + 1) % 8 = 0 then
      out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) ((hcond1 ⟨n + 1, hn⟩).mpr h0) (iblk1 V c 0 ⟨n + 1, hn⟩) (iblk1 V c 1 ⟨n + 1, hn⟩) (iblk1 V c 2 ⟨n + 1, hn⟩)
    else
      out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn))

/-- At a batch's first tile: the first-tile case's contents. -/
theorem outsAt1_A (c : Dev nD) (t : Fin cfg1.N) (h0 : t.val % 8 = 0) :
    outsAt1 V c t.val t.isLt = out1_A c (grid1.coords t) (ms1_0 t) (hs1_0 t) (ms1_1 t) (hs1_1 t) (ms1_2 t) (hs1_2 t) (ms1_3 t) (hs1_3 t) ((hcond1 t).mpr h0) (iblk1 V c 0 t) (iblk1 V c 1 t) (iblk1 V c 2 t) := by
  obtain ⟨n, hn⟩ := t
  cases n with
  | zero => exact rfl
  | succ n => exact (dif_pos h0).trans rfl

/-- At a later tile: the later-tile case's contents, over what the point before left. -/
theorem outsAt1_B (c : Dev nD) (t : Fin cfg1.N) (h0 : ¬t.val % 8 = 0) :
    outsAt1 V c t.val t.isLt = out1_B c (grid1.coords t) (ms1_0 t) (hs1_0 t) (ms1_1 t) (hs1_1 t) (ms1_2 t) (hs1_2 t) (ms1_3 t) (hs1_3 t) (fun h => h0 ((hcond1 t).mp h)) (iblk1 V c 0 t) (iblk1 V c 1 t) (iblk1 V c 2 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data of the second pipeline on core `c`: the arrays as the region finds them; after the body at point `t`
    each input's buffer at its block and the output's at `outsAt1`; the scoped rest and the generator register untouched;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
/-- At a later tile the output's staging buffer holds what the body left at the point before. -/
theorem before1_3_B (c : Dev nD) (t : Fin cfg1.N) (h0 : ¬t.val % 8 = 0) (d) :
    (dat1 V c).before 3 t d = (outsAt1 V c (t.val - 1) (Nat.lt_of_le_of_lt (Nat.sub_le _ _) t.isLt)) := by
  have hN : t.val < 64 := lt_of_lt_of_eq t.isLt (show cfg1.N = 64 from N_1)
  rw [Dat.before_out_kept _ 3 rfl t (by omega) (Bool.eq_false_iff.mpr fun h => by have := (flush1_3 _).mp h; dsimp only at this; omega)
    (fun _ => rfl) (fun _ _ => rfl)]
  dsimp only [dat1]

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 800000 in
/-- The body at any point: the inputs' memrefs hold their blocks; the point's number mod 8 says which case it is in; at a
    later tile the output's buffer holds what the point before left; so the case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  have hN : t.val < 64 := lt_of_lt_of_eq t.isLt (show cfg1.N = 64 from N_1)
  by_cases h0 : t.val % 8 = 0
  · rw [outsAt1_A V c t h0]
    unfold out1_A
    iintro ⟨HΦ, Ho, ⟨%d0, H0⟩, ⟨%d1, H1⟩, ⟨%d2, H2⟩, ⟨%d3, H3⟩⟩
    iapply ((kernelRun1_A c (grid1.coords t) _ _ _ _ _ _ _ _ ((hcond1 t).mpr h0) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_A c _ _ _ _ _ _ _ _ _ _ _ _ _)
  · rw [outsAt1_B V c t h0]
    simp only [before1_3_B V c t h0]
    unfold out1_B
    iintro ⟨HΦ, Ho, ⟨%d0, H0⟩, ⟨%d1, H1⟩, ⟨%d2, H2⟩, ⟨%d3, H3⟩⟩
    iapply ((kernelRun1_B c (grid1.coords t) _ _ _ _ _ _ _ _ (fun h => h0 ((hcond1 t).mp h)) (iblk1 V c 0 t) (iblk1 V c 1 t) (iblk1 V c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B c _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI_Val1.lean ====
/- What the second kernel region leaves in its result array [8, 17, 1], at the exact instance: entry (b, k, 0) is the sum over
   batch b's pixels of the one-hot of the label at k times the pixel's hinge, the hinge computed from the pixel's embedding,
   its label and the batch's block of means exactly as the specification states it.
   In order: the tile's payload read operation by operation at an index (the label one-hot, the two contractions, the
   lane sum over the channels, the hinge); the blocks the body is given, read off the entry arrays; what each of the
   body's two cases leaves in the output's block; the accumulation over a batch's eight tiles by induction on the tile;
   the block written back at a batch's last tile, and the result array. -/
import proofs.«401362_j69569880261306_3_alg».proof.Proof.KI_R1Frame
import proofs.«401362_j69569880261306_3_alg».proof.Proof.KI_ValBase
import Idealize.ShloMosaic.Lib.Pipeline.Value
import Idealize.ShloMosaic.Lib.ValueLayout
import Idealize.ShloMosaic.Lib.ValueIdx
import Idealize.ShloMosaic.PureOps.Ideal.Laws

-- membership in a rectangle of the blocks' extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Spec Idealize.ShloMosaic.ValueIdx

variable (V : (c : Dev nD) → (b : Ref sig .tc) → Buf (Elt Ideal) ((c : Thread nD τ).loc b))

namespace Val1

/-! ## The tile's payload, operation by operation -/

/-- The tile's label row [1, 32768]. -/
abbrev labRow (x1 : Vec Ideal S1x1x32768 .i32) : IVec S1x32768 32 := shapeCast S1x32768 x1 shapeCasts_S1x1x32768_S1x32768

theorem labRow_apply (x1 : Vec Ideal S1x1x32768 .i32) (u : Fin 1) (n : Fin 32768) : labRow x1 (ix2 u n) = x1 (ix3 0 0 n) := by
  obtain rfl : u = 0 := Subsingleton.elim _ _
  exact shapeCast_1ab_ab_apply x1 shapeCasts_S1x1x32768_S1x32768 (0 : Fin 1) n

/-- The tile's one-hot matrix [17, 32768]: row k is 1 where the label is k. -/
abbrev ohVec (x1 : Vec Ideal S1x1x32768 .i32) : FVec Ideal S17x32768 .f32 :=
  sitofp .f32 (extui 32 (cmpi .eq (broadcastTo S17x32768 (iota .tc S17x1 32 [0] iota_S17x1_d0_w32) broadcasts_S17x1_S17x32768)
    (broadcastTo S17x32768 (labRow x1) broadcasts_S1x32768_S17x32768)) natLt_1_32)

/-- A one-bit word widened and read as a signed number is 1 or 0. -/
theorem sitofp_bit (p : Bool) : (FloatOps.sitofp .f32 ((BitVec.ofBool p).setWidth 32) : Ideal .f32) = if p = true then 1 else 0 := by
  cases p
  · show (((BitVec.setWidth 32 (BitVec.ofBool false)).toInt : ℝ) : EReal) = _
    simp
  · show (((BitVec.setWidth 32 (BitVec.ofBool true)).toInt : ℝ) : EReal) = _
    simp

theorem ohVec_apply (x1 : Vec Ideal S1x1x32768 .i32) (k : Fin 17) (n : Fin 32768) :
    ohVec x1 (ix2 k n) = oh k (x1 (ix3 0 0 n)) := by
  show FloatOps.sitofp .f32 ((IntOp.cmpi .eq (broadcastTo S17x32768 (iota .tc S17x1 32 [0] iota_S17x1_d0_w32) broadcasts_S17x1_S17x32768 (ix2 k n))
    (broadcastTo S17x32768 (labRow x1) broadcasts_S1x32768_S17x32768 (ix2 k n))).setWidth 32) = _
  rw [broadcastTo_1b_ab_apply, labRow_apply]
  rw [broadcastTo_apply (iota .tc S17x1 32 [0] iota_S17x1_d0_w32) broadcasts_S17x1_S17x32768 (ix2 k n) (ix2 k (0 : Fin 1)) (fun ax => by
    match ax with
    | ⟨0, _⟩ => rfl
    | ⟨1, _⟩ => rfl)]
  rw [iota_single_apply]
  show FloatOps.sitofp .f32 ((BitVec.ofBool (BitVec.ofNat 32 k.val == x1 (ix3 0 0 n))).setWidth 32) = _
  rw [sitofp_bit]
  unfold oh
  by_cases h : x1 (ix3 0 0 n) = BitVec.ofNat 32 k.val
  · rw [if_pos h, if_pos (by rw [h]; simp)]
  · rw [if_neg h, if_neg (by intro e; exact h (by simpa using (beq_iff_eq.mp e).symm))]

/-! ### The two contractions' operand indices -/

theorem lhs_means_0 (j : S16x32768.Idx) (q : dot_S17x16_S17x32768_S16x32768_0_0_1_1_n_n.contr.Idx) :
    ((dot_S17x16_S17x32768_S16x32768_0_0_1_1_n_n.lhsIdx j q) (0 : Fin 2)).val = (q ⟨0, by decide⟩).val :=
  dot_S17x16_S17x32768_S16x32768_0_0_1_1_n_n.lhsIdx_val_of_single (cl := (0 : Fin 2)) rfl j q
theorem lhs_means_1 (j : S16x32768.Idx) (q : dot_S17x16_S17x32768_S16x32768_0_0_1_1_n_n.contr.Idx) :
    ((dot_S17x16_S17x32768_S16x32768_0_0_1_1_n_n.lhsIdx j q) (1 : Fin 2)).val = (j 0).val := by
  simp [DotDims.lhsIdx, dot_S17x16_S17x32768_S16x32768_0_0_1_1_n_n]; rfl
theorem rhs_means_0 (j : S16x32768.Idx) (q : dot_S17x16_S17x32768_S16x32768_0_0_1_1_n_n.contr.Idx) :
    ((dot_S17x16_S17x32768_S16x32768_0_0_1_1_n_n.rhsIdx j q) (0 : Fin 2)).val = (q ⟨0, by decide⟩).val :=
  dot_S17x16_S17x32768_S16x32768_0_0_1_1_n_n.rhsIdx_val_of_single (cr := (0 : Fin 2)) rfl j q
theorem rhs_means_1 (j : S16x32768.Idx) (q : dot_S17x16_S17x32768_S16x32768_0_0_1_1_n_n.contr.Idx) :
    ((dot_S17x16_S17x32768_S16x32768_0_0_1_1_n_n.rhsIdx j q) (1 : Fin 2)).val = (j 1).val := by
  simp [DotDims.rhsIdx, dot_S17x16_S17x32768_S16x32768_0_0_1_1_n_n]; rfl

theorem lhs_sums_0 (j : S17x1.Idx) (q : dot_S17x32768_S1x32768_S17x1_1_1_0_0_n_n.contr.Idx) :
    ((dot_S17x32768_S1x32768_S17x1_1_1_0_0_n_n.lhsIdx j q) (0 : Fin 2)).val = (j 0).val := by
  simp [DotDims.lhsIdx, dot_S17x32768_S1x32768_S17x1_1_1_0_0_n_n]; rfl
theorem lhs_sums_1 (j : S17x1.Idx) (q : dot_S17x32768_S1x32768_S17x1_1_1_0_0_n_n.contr.Idx) :
    ((dot_S17x32768_S1x32768_S17x1_1_1_0_0_n_n.lhsIdx j q) (1 : Fin 2)).val = (q ⟨0, by decide⟩).val :=
  dot_S17x32768_S1x32768_S17x1_1_1_0_0_n_n.lhsIdx_val_of_single (cl := (1 : Fin 2)) rfl j q
theorem rhs_sums_1 (j : S17x1.Idx) (q : dot_S17x32768_S1x32768_S17x1_1_1_0_0_n_n.contr.Idx) :
    ((dot_S17x32768_S1x32768_S17x1_1_1_0_0_n_n.rhsIdx j q) (1 : Fin 2)).val = (q ⟨0, by decide⟩).val :=
  dot_S17x32768_S1x32768_S17x1_1_1_0_0_n_n.rhsIdx_val_of_single (cr := (1 : Fin 2)) rfl j q

/-- The means' contraction at (channel, pixel), position k': the means at (k', channel), the one-hot at (k', pixel). -/
theorem means_lhsIdx (ch : Fin 16) (n : Fin 32768) (k' : Fin 17) :
    dot_S17x16_S17x32768_S16x32768_0_0_1_1_n_n.lhsIdx (ix2 ch n)
      ((contrEquiv1 dot_S17x16_S17x32768_S16x32768_0_0_1_1_n_n 17 rfl rfl).symm k') = ix2 k' ch := by
  have hk := contrEquiv1_symm_val dot_S17x16_S17x32768_S16x32768_0_0_1_1_n_n 17 rfl rfl k'
  funext ax; apply Fin.ext
  match ax with
  | ⟨0, _⟩ => exact (lhs_means_0 _ _).trans hk
  | ⟨1, _⟩ => exact lhs_means_1 _ _
theorem means_rhsIdx (ch : Fin 16) (n : Fin 32768) (k' : Fin 17) :
    dot_S17x16_S17x32768_S16x32768_0_0_1_1_n_n.rhsIdx (ix2 ch n)
      ((contrEquiv1 dot_S17x16_S17x32768_S16x32768_0_0_1_1_n_n 17 rfl rfl).symm k') = ix2 k' n := by
  have hk := contrEquiv1_symm_val dot_S17x16_S17x32768_S16x32768_0_0_1_1_n_n 17 rfl rfl k'
  funext ax; apply Fin.ext
  match ax with
  | ⟨0, _⟩ => exact (rhs_means_0 _ _).trans hk
  | ⟨1, _⟩ => exact rhs_means_1 _ _

/-- The sums' contraction at (k, 0), position n: the one-hot at (k, n), the hinge row at (0, n). -/
theorem sums_lhsIdx (k : Fin 17) (n : Fin 32768) :
    dot_S17x32768_S1x32768_S17x1_1_1_0_0_n_n.lhsIdx (ix2 k (0 : Fin 1))
      ((contrEquiv1 dot_S17x32768_S1x32768_S17x1_1_1_0_0_n_n 32768 rfl rfl).symm n) = ix2 k n := by
  have hk := contrEquiv1_symm_val dot_S17x32768_S1x32768_S17x1_1_1_0_0_n_n 32768 rfl rfl n
  funext ax; apply Fin.ext
  match ax with
  | ⟨0, _⟩ => exact lhs_sums_0 _ _
  | ⟨1, _⟩ => exact (lhs_sums_1 _ _).trans hk
theorem sums_rhsIdx (k : Fin 17) (n : Fin 32768) :
    dot_S17x32768_S1x32768_S17x1_1_1_0_0_n_n.rhsIdx (ix2 k (0 : Fin 1))
      ((contrEquiv1 dot_S17x32768_S1x32768_S17x1_1_1_0_0_n_n 32768 rfl rfl).symm n) = ix2 (0 : Fin 1) n := by
  have hk := contrEquiv1_symm_val dot_S17x32768_S1x32768_S17x1_1_1_0_0_n_n 32768 rfl rfl n
  funext ax; apply Fin.ext
  match ax with
  | ⟨0, h0⟩ =>
    have h1 : ∀ x : Fin (S1x32768.size ⟨0, h0⟩), x.val = 0 := fun x => Nat.lt_one_iff.mp x.isLt
    exact (h1 _).trans (h1 _).symm
  | ⟨1, _⟩ => exact (rhs_sums_1 _ _).trans hk

/-! ### The means a pixel's label selects, the squared distance, the hinge -/

/-- The batch's means as a matrix [17, 16]. -/
abbrev meansMat (x2 : Vec Ideal S1x17x16 .f32) : FVec Ideal S17x16 .f32 := shapeCast S17x16 x2 shapeCasts_S1x17x16_S17x16

/-- Each pixel's selected mean row [16, 32768]: the means contracted with the one-hot over the 17 labels. -/
abbrev meanVec (x1 : Vec Ideal S1x1x32768 .i32) (x2 : Vec Ideal S1x17x16 .f32) : FVec Ideal S16x32768 .f32 :=
  matmul dot_S17x16_S17x32768_S16x32768_0_0_1_1_n_n none (meansMat x2) (ohVec x1) (constant S16x32768 .f32 0x00000000#32)

theorem meanVec_apply (x1 : Vec Ideal S1x1x32768 .i32) (x2 : Vec Ideal S1x17x16 .f32) (ch : Fin 16) (n : Fin 32768) :
    meanVec x1 x2 (ix2 ch n) = ∑ k' : Fin 17, x2 (ix3 0 k' ch) * oh k' (x1 (ix3 0 0 n)) := by
  refine (Ideal.matmul_constant_zero_apply dot_S17x16_S17x32768_S16x32768_0_0_1_1_n_n none (meansMat x2) (ohVec x1) (ix2 ch n)).trans ?_
  rw [← Equiv.sum_comp (contrEquiv1 dot_S17x16_S17x32768_S16x32768_0_0_1_1_n_n 17 rfl rfl).symm]
  refine Finset.sum_congr rfl fun k' _ => ?_
  rw [means_lhsIdx, means_rhsIdx, ohVec_apply]
  exact congrArg (· * _) (shapeCast_1ab_ab_apply x2 shapeCasts_S1x17x16_S17x16 k' ch)

/-- The embeddings minus the selected mean rows [16, 32768]. -/
abbrev diffVec (x0 : Vec Ideal S1x16x32768 .f32) (x1 : Vec Ideal S1x1x32768 .i32) (x2 : Vec Ideal S1x17x16 .f32) : FVec Ideal S16x32768 .f32 :=
  subf (shapeCast S16x32768 x0 shapeCasts_S1x16x32768_S16x32768) (meanVec x1 x2)

theorem diffVec_apply (x0 : Vec Ideal S1x16x32768 .f32) (x1 : Vec Ideal S1x1x32768 .i32) (x2 : Vec Ideal S1x17x16 .f32) (ch : Fin 16) (n : Fin 32768) :
    diffVec x0 x1 x2 (ix2 ch n) = x0 (ix3 0 ch n) - ∑ k' : Fin 17, x2 (ix3 0 k' ch) * oh k' (x1 (ix3 0 0 n)) := by
  show shapeCast S16x32768 x0 shapeCasts_S1x16x32768_S16x32768 (ix2 ch n) - meanVec x1 x2 (ix2 ch n) = _
  rw [meanVec_apply, shapeCast_1ab_ab_apply]

/-- The squared distances [32768]: the squares summed over the 16 channels. -/
abbrev sqdVec (x0 : Vec Ideal S1x16x32768 .f32) (x1 : Vec Ideal S1x1x32768 .i32) (x2 : Vec Ideal S1x17x16 .f32) : FVec Ideal S32768 .f32 :=
  multiReduction .add [0] S32768 (mulf (diffVec x0 x1 x2) (diffVec x0 x1 x2)) 0x00000000#32 reduces_S16x32768_S32768 (.inl rfl) rfl

theorem lift_ch (n : Fin 32768) (ch : Fin 16) : reduces_S16x32768_S32768.lift (ix1 n) ch = ix2 ch n := by
  funext ax; apply Fin.ext
  match ax with
  | ⟨0, _⟩ => rfl
  | ⟨1, _⟩ => rfl

theorem sqdVec_apply (x0 : Vec Ideal S1x16x32768 .f32) (x1 : Vec Ideal S1x1x32768 .i32) (x2 : Vec Ideal S1x17x16 .f32) (n : Fin 32768) :
    sqdVec x0 x1 x2 (ix1 n) = ∑ ch : Fin 16, (x0 (ix3 0 ch n) - ∑ k' : Fin 17, x2 (ix3 0 k' ch) * oh k' (x1 (ix3 0 0 n)))
      * (x0 (ix3 0 ch n) - ∑ k' : Fin 17, x2 (ix3 0 k' ch) * oh k' (x1 (ix3 0 0 n))) := by
  refine (Ideal.multiReduction_add_single (mulf (diffVec x0 x1 x2) (diffVec x0 x1 x2)) 0x00000000#32 reduces_S16x32768_S32768 (.inl rfl) rfl (ix1 n)).trans ?_
  show ∑ ch : Fin 16, mulf (diffVec x0 x1 x2) (diffVec x0 x1 x2) (reduces_S16x32768_S32768.lift (ix1 n) ch) = _
  refine Finset.sum_congr rfl fun ch _ => ?_
  rw [lift_ch]
  show diffVec x0 x1 x2 (ix2 ch n) * diffVec x0 x1 x2 (ix2 ch n) = _
  rw [diffVec_apply]

/-- Is the label not the background's, per pixel [1, 32768]. -/
abbrev fgVec (x1 : Vec Ideal S1x1x32768 .i32) : IVec S1x32768 1 := cmpi .ne (labRow x1) (broadcast S1x32768 0#32)

/-- The hinge row [1, 32768]. -/
abbrev hingeVec (x0 : Vec Ideal S1x16x32768 .f32) (x1 : Vec Ideal S1x1x32768 .i32) (x2 : Vec Ideal S1x17x16 .f32) : FVec Ideal S1x32768 .f32 :=
  mulf (mulf
      (maximumf (subf (sqrt (select (fgVec x1) (shapeCast S1x32768 (sqdVec x0 x1 x2) shapeCasts_S32768_S1x32768) (broadcast S1x32768 (Scalar.ofBits .f32 0x3F800000#32))))
          (broadcast S1x32768 (Scalar.ofBits .f32 0x3F000000#32))) (broadcast S1x32768 (Scalar.ofBits .f32 0x00000000#32)))
      (maximumf (subf (sqrt (select (fgVec x1) (shapeCast S1x32768 (sqdVec x0 x1 x2) shapeCasts_S32768_S1x32768) (broadcast S1x32768 (Scalar.ofBits .f32 0x3F800000#32))))
          (broadcast S1x32768 (Scalar.ofBits .f32 0x3F000000#32))) (broadcast S1x32768 (Scalar.ofBits .f32 0x00000000#32))))
    (sitofp .f32 (extui 32 (fgVec x1) natLt_1_32))

/-- The tile's product is the one-hot contracted with the hinge row over the pixels. -/
theorem pay3_eq (x0 : Vec Ideal S1x16x32768 .f32) (x1 : Vec Ideal S1x1x32768 .i32) (x2 : Vec Ideal S1x17x16 .f32) :
    k1_pay3 (F := Ideal) x0 x1 x2
      = matmul dot_S17x32768_S1x32768_S17x1_1_1_0_0_n_n none (ohVec x1) (hingeVec x0 x1 x2) (constant S17x1 .f32 0x00000000#32) := rfl

/-- The foreground bit widened and read as a number is 1 on the bit 1, else 0. -/
theorem sitofp_fg (w : BitVec 1) : (FloatOps.sitofp .f32 (w.setWidth 32) : Ideal .f32) = if w = 1#1 then 1 else 0 := by
  rcases BitVec.eq_zero_or_eq_one w with h | h
  · subst h
    show (((BitVec.setWidth 32 0#1).toInt : ℝ) : EReal) = _
    simp
  · subst h
    show (((BitVec.setWidth 32 1#1).toInt : ℝ) : EReal) = _
    simp

theorem hingeVec_apply (x0 : Vec Ideal S1x16x32768 .f32) (x1 : Vec Ideal S1x1x32768 .i32) (x2 : Vec Ideal S1x17x16 .f32) (n : Fin 32768) :
    hingeVec x0 x1 x2 (ix2 (0 : Fin 1) n)
      = max (Ideal.sqrt (Scalar.select (fgBit (x1 (ix3 0 0 n))) (sqdVec x0 x1 x2 (ix1 n)) (Ideal.ofBits .f32 0x3F800000#32)) - Ideal.ofBits .f32 0x3F000000#32) (Ideal.ofBits .f32 0x00000000#32)
        * max (Ideal.sqrt (Scalar.select (fgBit (x1 (ix3 0 0 n))) (sqdVec x0 x1 x2 (ix1 n)) (Ideal.ofBits .f32 0x3F800000#32)) - Ideal.ofBits .f32 0x3F000000#32) (Ideal.ofBits .f32 0x00000000#32)
        * (if fgBit (x1 (ix3 0 0 n)) = 1#1 then 1 else 0) := by
  show max (Ideal.sqrt (Scalar.select (IntOp.cmpi .ne (labRow x1 (ix2 (0 : Fin 1) n)) 0#32)
          (shapeCast S1x32768 (sqdVec x0 x1 x2) shapeCasts_S32768_S1x32768 (ix2 (0 : Fin 1) n)) (Ideal.ofBits .f32 0x3F800000#32)) - Ideal.ofBits .f32 0x3F000000#32) (Ideal.ofBits .f32 0x00000000#32)
      * max (Ideal.sqrt (Scalar.select (IntOp.cmpi .ne (labRow x1 (ix2 (0 : Fin 1) n)) 0#32)
          (shapeCast S1x32768 (sqdVec x0 x1 x2) shapeCasts_S32768_S1x32768 (ix2 (0 : Fin 1) n)) (Ideal.ofBits .f32 0x3F800000#32)) - Ideal.ofBits .f32 0x3F000000#32) (Ideal.ofBits .f32 0x00000000#32)
      * (FloatOps.sitofp .f32 ((IntOp.cmpi .ne (labRow x1 (ix2 (0 : Fin 1) n)) 0#32).setWidth 32) : Ideal .f32) = _
  rw [labRow_apply, shapeCast_a_1a_apply, sitofp_fg]
  rfl

/-- Pixel n of tile `tile` of a batch's 262144 pixels. -/
def pix (tile : Fin 8) (n : Fin 32768) : Fin 262144 := ⟨32768 * tile.val + n.val, by have := tile.isLt; have := n.isLt; omega⟩

/-- THE TILE'S PRODUCT at label k: over the tile's pixels, the one-hot of the label at k times the hinge, for blocks
    that hold the tile's embeddings and labels and the batch's means. -/
theorem pay3_apply (E : Fin 8 → Fin 16 → Fin 262144 → EReal) (L : Fin 8 → Fin 262144 → BitVec 32) (M : Fin 8 → Fin 17 → Fin 16 → EReal)
    (b tile : Fin 8) (x0 : Vec Ideal S1x16x32768 .f32) (x1 : Vec Ideal S1x1x32768 .i32) (x2 : Vec Ideal S1x17x16 .f32)
    (h0 : ∀ ch n, x0 (ix3 0 ch n) = E b ch (pix tile n)) (h1 : ∀ n, x1 (ix3 0 0 n) = L b (pix tile n))
    (h2 : ∀ k' ch, x2 (ix3 0 k' ch) = M b k' ch) (k : Fin 17) :
    k1_pay3 (F := Ideal) x0 x1 x2 (ix2 k (0 : Fin 1)) = ∑ n : Fin 32768, oh k (L b (pix tile n)) * hingeAt E L M b (pix tile n) := by
  rw [pay3_eq]
  refine (Ideal.matmul_constant_zero_apply dot_S17x32768_S1x32768_S17x1_1_1_0_0_n_n none (ohVec x1) (hingeVec x0 x1 x2) (ix2 k (0 : Fin 1))).trans ?_
  rw [← Equiv.sum_comp (contrEquiv1 dot_S17x32768_S1x32768_S17x1_1_1_0_0_n_n 32768 rfl rfl).symm]
  refine Finset.sum_congr rfl fun n _ => ?_
  rw [sums_lhsIdx, sums_rhsIdx, ohVec_apply, hingeVec_apply, sqdVec_apply]
  simp only [h0, h1, h2]
  rfl

/-- A batch's pixels are its eight tiles' pixels. -/
def pixEquiv : Fin 8 × Fin 32768 ≃ Fin 262144 where
  toFun p := pix p.1 p.2
  invFun q := (⟨q.val / 32768, by have := q.isLt; omega⟩, ⟨q.val % 32768, Nat.mod_lt _ (by decide)⟩)
  left_inv p := by
    obtain ⟨a, n⟩ := p
    have ha := a.isLt; have hn := n.isLt
    refine Prod.ext (Fin.ext ?_) (Fin.ext ?_)
    · show (32768 * a.val + n.val) / 32768 = a.val; omega
    · show (32768 * a.val + n.val) % 32768 = n.val; omega
  right_inv q := by
    refine Fin.ext ?_
    show 32768 * (q.val / 32768) + q.val % 32768 = q.val
    omega

theorem sum_pix (f : Fin 262144 → EReal) : ∑ p : Fin 262144, f p = ∑ tile : Fin 8, ∑ n : Fin 32768, f (pix tile n) := by
  rw [← Equiv.sum_comp pixEquiv f, Fintype.sum_prod_type]
  rfl

/-! ### The small payloads at an index -/

theorem pay1_apply (v33 v35 : FVec Ideal S17x1 .f32) (k : Fin 17) :
    k1_pay1 (F := Ideal) v33 v35 (ix3 (0 : Fin 1) k (0 : Fin 1)) = v35 (ix2 k (0 : Fin 1)) + v33 (ix2 k (0 : Fin 1)) := by
  unfold k1_pay1
  exact shapeCast_ab_1ab_apply (addf v35 v33) shapeCasts_S17x1_S1x17x1 (0 : Fin 1) k (0 : Fin 1)

theorem pay4_apply (xo : Vec Ideal S1x17x1 .f32) (k : Fin 17) :
    k1_pay4 (F := Ideal) xo (ix2 k (0 : Fin 1)) = xo (ix3 (0 : Fin 1) k (0 : Fin 1)) := by
  unfold k1_pay4
  exact shapeCast_1ab_ab_apply xo shapeCasts_S1x17x1_S17x1 k (0 : Fin 1)

theorem pay2_apply (k : Fin 17) : (k1_pay2 (F := Ideal)) (ix3 (0 : Fin 1) k (0 : Fin 1)) = 0 := by
  unfold k1_pay2
  refine (shapeCast_ab_1ab_apply (broadcast S17x1 (Scalar.ofBits (F := Ideal) .f32 0x00000000#32)) shapeCasts_S17x1_S1x17x1 (0 : Fin 1) k (0 : Fin 1)).trans ?_
  exact Ideal.ofBits_zero_f32

/-! ## The blocks the body is called with, read off the entry arrays -/

/-- Where each window's block sits at point t: batch t / 8; the two tiled inputs at tile t % 8, the means and the output
    at 0 — decided over the 64 points. -/
theorem index1_facts : ∀ t : Fin cfg1.N,
    (win1_0.index t 0 = t.val / 8 ∧ win1_0.index t 1 = 0 ∧ win1_0.index t 2 = t.val % 8)
    ∧ (win1_1.index t 0 = t.val / 8 ∧ win1_1.index t 1 = 0 ∧ win1_1.index t 2 = t.val % 8)
    ∧ (win1_2.index t 0 = t.val / 8 ∧ win1_2.index t 1 = 0 ∧ win1_2.index t 2 = 0)
    ∧ (win1_3.index t 0 = t.val / 8 ∧ win1_3.index t 1 = 0 ∧ win1_3.index t 2 = 0) :=
  (by decide +kernel : ∀ t : Fin grid1.N,
    (win1_0.index t 0 = t.val / 8 ∧ win1_0.index t 1 = 0 ∧ win1_0.index t 2 = t.val % 8)
    ∧ (win1_1.index t 0 = t.val / 8 ∧ win1_1.index t 1 = 0 ∧ win1_1.index t 2 = t.val % 8)
    ∧ (win1_2.index t 0 = t.val / 8 ∧ win1_2.index t 1 = 0 ∧ win1_2.index t 2 = 0)
    ∧ (win1_3.index t 0 = t.val / 8 ∧ win1_3.index t 1 = 0 ∧ win1_3.index t 2 = 0))

/-- The tile's embeddings block, its labels block and the batch's means block at point t. -/
abbrev embBlk (c : Dev nD) (t : Fin cfg1.N) : Vec Ideal S1x16x32768 .f32 := iblk1 V c 0 t
abbrev labBlk (c : Dev nD) (t : Fin cfg1.N) : Vec Ideal S1x1x32768 .i32 := iblk1 V c 1 t
abbrev meanBlk (c : Dev nD) (t : Fin cfg1.N) : Vec Ideal S1x17x16 .f32 := iblk1 V c 2 t

theorem embBlk_apply (c : Dev nD) (b tile : Fin 8) (t : Fin cfg1.N) (ht : t.val = 8 * b.val + tile.val) (ch : Fin 16) (n : Fin 32768) :
    embBlk V c t (ix3 (0 : Fin 1) ch n) = Ek V c b ch (pix tile n) := by
  have hi := (index1_facts t).1
  have hb := b.isLt; have htl := tile.isLt
  unfold embBlk iblk1 Ek
  rw [View.read_apply]
  show V c main_v0 _ = V c main_v0 _
  congr 1
  funext a
  apply Fin.ext
  match a with
  | ⟨0, _⟩ => show win1_0.index t 0 * 1 + 1 * 0 = b.val; rw [hi.1]; omega
  | ⟨1, _⟩ => show win1_0.index t 1 * 16 + 1 * ch.val = ch.val; rw [hi.2.1]; omega
  | ⟨2, _⟩ => show win1_0.index t 2 * 32768 + 1 * n.val = 32768 * tile.val + n.val; rw [hi.2.2]; omega

theorem labBlk_apply (c : Dev nD) (b tile : Fin 8) (t : Fin cfg1.N) (ht : t.val = 8 * b.val + tile.val) (n : Fin 32768) :
    labBlk V c t (ix3 (0 : Fin 1) (0 : Fin 1) n) = Lk V c b (pix tile n) := by
  have hi := (index1_facts t).2.1
  have hb := b.isLt; have htl := tile.isLt
  unfold labBlk iblk1 Lk
  rw [View.read_apply]
  show V c main_v1 _ = V c main_v1 _
  congr 1
  funext a
  apply Fin.ext
  match a with
  | ⟨0, _⟩ => show win1_1.index t 0 * 1 + 1 * 0 = b.val; rw [hi.1]; omega
  | ⟨1, _⟩ => show win1_1.index t 1 * 1 + 1 * 0 = 0; rw [hi.2.1]
  | ⟨2, _⟩ => show win1_1.index t 2 * 32768 + 1 * n.val = 32768 * tile.val + n.val; rw [hi.2.2]; omega

theorem meanBlk_apply (c : Dev nD) (b tile : Fin 8) (t : Fin cfg1.N) (ht : t.val = 8 * b.val + tile.val) (k' : Fin 17) (ch : Fin 16) :
    meanBlk V c t (ix3 (0 : Fin 1) k' ch) = Mk V c b k' ch := by
  have hi := (index1_facts t).2.2.1
  have hb := b.isLt; have htl := tile.isLt
  unfold meanBlk iblk1 Mk
  rw [View.read_apply]
  show V c main_v16 _ = V c main_v16 _
  congr 1
  funext a
  apply Fin.ext
  match a with
  | ⟨0, _⟩ => show win1_2.index t 0 * 1 + 1 * 0 = b.val; rw [hi.1]; omega
  | ⟨1, _⟩ => show win1_2.index t 1 * 17 + 1 * k'.val = k'.val; rw [hi.2.1]; omega
  | ⟨2, _⟩ => show win1_2.index t 2 * 16 + 1 * ch.val = ch.val; rw [hi.2.2]; omega

/-! ## What each case of the body leaves in the output's staging buffer -/

section Pieces
variable {F : FTy → Type} [FloatOps F]

theorem zeros3 : (![0, 0, 0] : Fin 3 → Nat) = fun _ => 0 := funext fun a => by fin_cases a <;> rfl

/-- At a later tile the body leaves the running block plus the tile's product. -/
theorem out1_B_eq (c : Dev nD) (i : grid1.Coords) (a2 : Memref sig .tc .vmem S1x16x32768 .f32) (h2 : a2.IsWhole) (a3 : Memref sig .tc .vmem S1x1x32768 .i32) (h3 : a3.IsWhole)
    (a4 : Memref sig .tc .vmem S1x17x16 .f32) (h4 : a4.IsWhole) (a5 : Memref sig .tc .vmem S1x17x1 .f32) (h5 : a5.IsWhole) (hc : ¬cond1 i)
    (x0 : Vec F S1x16x32768 .f32) (x1 : Vec F S1x1x32768 .i32) (x2 : Vec F S1x17x16 .f32) (xo : Vec F S1x17x1 .f32) :
    out1_B c i a2 h2 a3 h3 a4 h4 a5 h5 hc x0 x1 x2 xo = k1_pay1 (k1_pay3 x0 x1 x2) (k1_pay4 xo) := by
  unfold out1_B
  rw [View.read_writes_eq_canon _ _ _ (cover1_B c i a2 h2 a3 h3 a4 h4 a5 h5 hc x0 x1 x2 xo)]
  unfold kernelRun1_B
  dsimp only
  sl_unfold_words
  rw [View.canon_unit_zero (S := S1x17x1) zeros3]
  simp only [View.readAt_eq_ld, h2.read_unread, h3.read_unread, h4.read_unread, h5.read_unread,
    View.ld_unit_zero (S := S1x16x32768) zeros3, View.ld_unit_zero (S := S1x1x32768) zeros3,
    View.ld_unit_zero (S := S1x17x16) zeros3, View.ld_unit_zero (S := S1x17x1) zeros3]

/-- At a batch's first tile the body leaves the zero block plus the tile's product. -/
theorem out1_A_eq (c : Dev nD) (i : grid1.Coords) (a2 : Memref sig .tc .vmem S1x16x32768 .f32) (h2 : a2.IsWhole) (a3 : Memref sig .tc .vmem S1x1x32768 .i32) (h3 : a3.IsWhole)
    (a4 : Memref sig .tc .vmem S1x17x16 .f32) (h4 : a4.IsWhole) (a5 : Memref sig .tc .vmem S1x17x1 .f32) (h5 : a5.IsWhole) (hc : cond1 i)
    (x0 : Vec F S1x16x32768 .f32) (x1 : Vec F S1x1x32768 .i32) (x2 : Vec F S1x17x16 .f32) :
    out1_A c i a2 h2 a3 h3 a4 h4 a5 h5 hc x0 x1 x2 = k1_pay1 (k1_pay3 x0 x1 x2) (k1_pay4 (k1_pay2 (F := F))) := by
  unfold out1_A
  rw [View.read_writes_eq_canon _ _ _ (cover1_A c i a2 h2 a3 h3 a4 h4 a5 h5 hc x0 x1 x2)]
  unfold kernelRun1_A
  dsimp only
  sl_unfold_words
  rw [View.canon_cons_unit_zero (S := S1x17x1) zeros3]
  simp only [View.readAt_eq_ld, h2.read_unread, h3.read_unread, h4.read_unread,
    View.ld_unit_zero (S := S1x16x32768) zeros3, View.ld_unit_zero (S := S1x1x32768) zeros3,
    View.ld_unit_zero (S := S1x17x16) zeros3, View.readCov_unit_zero (S := S1x17x1) _ zeros3]
end Pieces

/-! ## The accumulation over a batch's tiles -/

/-- Tile `tile` of batch b's share of entry k: over the tile's pixels, the one-hot of the label at k times the hinge. -/
def tileSum (c : Dev nD) (b tile : Fin 8) (k : Fin 17) : EReal :=
  ∑ n : Fin 32768, oh k (Lk V c b (pix tile n)) * hingeAt (Ek V c) (Lk V c) (Mk V c) b (pix tile n)

/-- The same by the tile's number (nothing past the eighth). -/
def tileSumN (c : Dev nD) (b : Fin 8) (k : Fin 17) (s : ℕ) : EReal := if h : s < 8 then tileSum V c b ⟨s, h⟩ k else 0

/-- The tile's product at point 8·b + tile is the tile's share. -/
theorem pay3_at (c : Dev nD) (b tile : Fin 8) (t : Fin cfg1.N) (ht : t.val = 8 * b.val + tile.val) (k : Fin 17) :
    k1_pay3 (F := Ideal) (embBlk V c t) (labBlk V c t) (meanBlk V c t) (ix2 k (0 : Fin 1)) = tileSum V c b tile k :=
  pay3_apply (Ek V c) (Lk V c) (Mk V c) b tile (embBlk V c t) (labBlk V c t) (meanBlk V c t)
    (embBlk_apply V c b tile t ht) (labBlk_apply V c b tile t ht) (meanBlk_apply V c b tile t ht) k

theorem outsAt1_congr (c : Dev nD) (n n' : ℕ) (hn : n < cfg1.N) (hn' : n' < cfg1.N) (e : n = n') :
    outsAt1 (F := Ideal) V c n hn = outsAt1 V c n' hn' := by subst e; rfl

/-- After tile j of batch b the output's staging buffer holds, at entry k, the shares of tiles 0 to j. -/
theorem outsAt1_apply (c : Dev nD) (b : Fin 8) (k : Fin 17) : ∀ (j : ℕ) (hj : j < 8) (h : 8 * b.val + j < cfg1.N),
    outsAt1 (F := Ideal) V c (8 * b.val + j) h (ix3 (0 : Fin 1) k (0 : Fin 1)) = ∑ s ∈ Finset.range (j + 1), tileSumN V c b k s
  | 0, hj, h => by
    have h0 : (⟨8 * b.val + 0, h⟩ : Fin cfg1.N).val % 8 = 0 := by dsimp only; omega
    rw [outsAt1_A V c ⟨8 * b.val + 0, h⟩ h0]
    refine (congrFun (out1_A_eq (F := Ideal) c (grid1.coords ⟨8 * b.val + 0, h⟩) (ms1_0 ⟨8 * b.val + 0, h⟩) (hs1_0 ⟨8 * b.val + 0, h⟩)
      (ms1_1 ⟨8 * b.val + 0, h⟩) (hs1_1 ⟨8 * b.val + 0, h⟩) (ms1_2 ⟨8 * b.val + 0, h⟩) (hs1_2 ⟨8 * b.val + 0, h⟩)
      (ms1_3 ⟨8 * b.val + 0, h⟩) (hs1_3 ⟨8 * b.val + 0, h⟩) ((hcond1 ⟨8 * b.val + 0, h⟩).mpr h0)
      (embBlk V c ⟨8 * b.val + 0, h⟩) (labBlk V c ⟨8 * b.val + 0, h⟩) (meanBlk V c ⟨8 * b.val + 0, h⟩)) (ix3 (0 : Fin 1) k (0 : Fin 1))).trans ?_
    rw [pay1_apply, pay4_apply, pay2_apply, zero_add, pay3_at V c b ⟨0, hj⟩ ⟨8 * b.val + 0, h⟩ rfl k, Finset.sum_range_one]
    unfold tileSumN
    rw [dif_pos hj]
  | j + 1, hj, h => by
    have hB : ¬(⟨8 * b.val + (j + 1), h⟩ : Fin cfg1.N).val % 8 = 0 := by dsimp only; omega
    rw [outsAt1_B V c ⟨8 * b.val + (j + 1), h⟩ hB]
    refine (congrFun (out1_B_eq (F := Ideal) c (grid1.coords ⟨8 * b.val + (j + 1), h⟩) (ms1_0 ⟨8 * b.val + (j + 1), h⟩) (hs1_0 ⟨8 * b.val + (j + 1), h⟩)
      (ms1_1 ⟨8 * b.val + (j + 1), h⟩) (hs1_1 ⟨8 * b.val + (j + 1), h⟩) (ms1_2 ⟨8 * b.val + (j + 1), h⟩) (hs1_2 ⟨8 * b.val + (j + 1), h⟩)
      (ms1_3 ⟨8 * b.val + (j + 1), h⟩) (hs1_3 ⟨8 * b.val + (j + 1), h⟩) (fun hc => hB ((hcond1 ⟨8 * b.val + (j + 1), h⟩).mp hc))
      (embBlk V c ⟨8 * b.val + (j + 1), h⟩) (labBlk V c ⟨8 * b.val + (j + 1), h⟩) (meanBlk V c ⟨8 * b.val + (j + 1), h⟩)
      (outsAt1 V c ((⟨8 * b.val + (j + 1), h⟩ : Fin cfg1.N).val - 1) (Nat.lt_of_le_of_lt (Nat.sub_le _ _) (⟨8 * b.val + (j + 1), h⟩ : Fin cfg1.N).isLt)))
      (ix3 (0 : Fin 1) k (0 : Fin 1))).trans ?_
    rw [pay1_apply, pay4_apply, pay3_at V c b ⟨j + 1, hj⟩ ⟨8 * b.val + (j + 1), h⟩ rfl k,
      outsAt1_congr V c _ (8 * b.val + j) _ (Nat.lt_of_succ_lt h) (by dsimp only; omega),
      outsAt1_apply c b k j (Nat.lt_of_succ_lt hj) (Nat.lt_of_succ_lt h), Finset.sum_range_succ _ (j + 1),
      show tileSumN V c b k (j + 1) = tileSum V c b ⟨j + 1, hj⟩ k from dif_pos hj]

/-- The eight tiles' shares are the batch's sum. -/
theorem sum_tiles (c : Dev nD) (b : Fin 8) (k : Fin 17) :
    ∑ s ∈ Finset.range 8, tileSumN V c b k s = pisAt (Ek V c) (Lk V c) (Mk V c) b k := by
  unfold pisAt
  rw [sum_pix, Finset.sum_range]
  refine Finset.sum_congr rfl fun s _ => ?_
  unfold tileSumN
  rw [dif_pos s.isLt]
  rfl

/-! ## The result array -/

/-- What the region leaves in its result array: entry (b, k, 0) is batch b's sum at label k. -/
def sums1 (c : Dev nD) : Vec Ideal S8x17x1 .f32 := fun i => pisAt (Ek V c) (Lk V c) (Mk V c) (i 0) (i 1)

/-- At a batch's last tile the block written back is the batch's row of sums. -/
theorem flushed1_eq (c : Dev nD) (t : Fin cfg1.N) (hf : (cfg1.win 3).flush t = true) :
    (dat1 (F := Ideal) V c).flushed 3 t = ((cfg1.win 3).blk t).view.read (Elt Ideal) (sums1 V c) := by
  have h7 : t.val % 8 = 7 := (flush1_3 t).mp hf
  have hN : t.val < 64 := lt_of_lt_of_eq t.isLt (show cfg1.N = 64 from N_1)
  have hi := (index1_facts t).2.2.2
  show (cfg1.win 3).cut (grid1.coords t) ((dat1 (F := Ideal) V c).after 3 t) = _
  rw [after1_3]
  show (outsAt1 (F := Ideal) V c t.val t.isLt : Vec Ideal S1x17x1 .f32) = (((cfg1.win 3).blk t).view.read (Elt Ideal) (sums1 V c) : Vec Ideal S1x17x1 .f32)
  funext y
  obtain ⟨u, k, z, rfl⟩ : ∃ (u : Fin 1) (k : Fin 17) (z : Fin 1), y = ix3 u k z := ⟨y 0, y 1, y 2, eq_ix3 y⟩
  obtain rfl : u = 0 := Subsingleton.elim _ _
  obtain rfl : z = 0 := Subsingleton.elim _ _
  have hb : t.val / 8 < 8 := by omega
  rw [outsAt1_congr V c t.val (8 * (⟨t.val / 8, hb⟩ : Fin 8).val + 7) t.isLt
      (lt_of_lt_of_eq (show 8 * (t.val / 8) + 7 < 64 by omega) (show (64 : ℕ) = cfg1.N from N_1.symm)) (show t.val = 8 * (t.val / 8) + 7 by omega),
    outsAt1_apply V c ⟨t.val / 8, hb⟩ k 7 (by omega), sum_tiles, View.read_apply]
  refine Eq.trans ?_ (cast_eq _ _).symm
  unfold sums1
  refine congrArg₂ (pisAt (Ek V c) (Lk V c) (Mk V c)) (Fin.ext ?_) (Fin.ext ?_)
  · show t.val / 8 = win1_3.index t 0 * 1 + 1 * 0
    rw [hi.1]; omega
  · show k.val = win1_3.index t 1 * 17 + 1 * k.val
    rw [hi.2.1]; omega

/-- Every entry of the result array is in the block some batch's last tile writes back. -/
theorem cover1 (c : Dev nD) (i : S8x17x1.Idx) :
    ∃ t : Fin cfg1.N, (cfg1.win 3).flush t = true ∧ i ∈ ((cfg1.win 3).blk t).view.set := by
  have h0 : (i 0 : Nat) < 8 := (i 0).isLt
  have h1 : (i 1 : Nat) < 17 := (i 1).isLt
  have h2 : (i 2 : Nat) < 1 := (i 2).isLt
  have hlt : 8 * (i 0 : Nat) + 7 < cfg1.N := by rw [show cfg1.N = 64 from N_1]; omega
  refine ⟨⟨8 * (i 0 : Nat) + 7, hlt⟩, (flush1_3 _).mpr (by dsimp only; omega), ?_⟩
  have hi := (index1_facts ⟨8 * (i 0 : Nat) + 7, hlt⟩).2.2.2
  show i ∈ ((View.whole main_v21).slice (win1_3.rect ⟨8 * (i 0 : Nat) + 7, hlt⟩)).set
  rw [View.set_slice_whole, Rect.mem_set_unit]
  intro a
  match a with
  | ⟨0, _⟩ =>
    show win1_3.index ⟨8 * (i 0 : Nat) + 7, hlt⟩ 0 * 1 ≤ (i 0 : Nat) ∧ (i 0 : Nat) < win1_3.index ⟨8 * (i 0 : Nat) + 7, hlt⟩ 0 * 1 + 1
    rw [hi.1]; dsimp only; omega
  | ⟨1, _⟩ =>
    show win1_3.index ⟨8 * (i 0 : Nat) + 7, hlt⟩ 1 * 17 ≤ (i 1 : Nat) ∧ (i 1 : Nat) < win1_3.index ⟨8 * (i 0 : Nat) + 7, hlt⟩ 1 * 17 + 17
    rw [hi.2.1]; omega
  | ⟨2, _⟩ =>
    show win1_3.index ⟨8 * (i 0 : Nat) + 7, hlt⟩ 2 * 1 ≤ (i 2 : Nat) ∧ (i 2 : Nat) < win1_3.index ⟨8 * (i 0 : Nat) + 7, hlt⟩ 2 * 1 + 1
    rw [hi.2.2]; omega

end Val1

open Val1 in
/-- The second region's result array after the region, entry by entry. -/
theorem final1 (c : Dev nD) (b : Fin 8) (k : Fin 17) :
    ((dat1 (F := Ideal) V c).arrAt 3 cfg1.N : Vec Ideal S8x17x1 .f32) (ix3 b k 0) = pisAt (Ek V c) (Lk V c) (Mk V c) b k := by
  rw [(dat1 (F := Ideal) V c).arrAt_eq_of_cover 3 (sums1 V c) (flushed1_eq V c) (cover1 c)]
  rfl

end Cert.KernelIdeal.Hand

end
-- ==== Proof.KI_Regions.lean ====
/- @main's two kernel regions as segments of its run, and the run itself. Between @main's items every unscoped buffer of a
   core is held at a valuation: the launch memory, then each host stretch applied, then what a region leaves in its result
   array. Region 0 leaves in its result the fold of its write-backs, and region 1 likewise, entered from the contents the
   host stretch after region 0 computes. Each region's record splits its windows' arrays out of the unscoped buffers at
   entry and puts them back at exit; the generator register and the core's (empty) debts ride along. -/
import proofs.«401362_j69569880261306_3_alg».proof.Proof.KI_R0Frame
import proofs.«401362_j69569880261306_3_alg».proof.Proof.KI_R1Frame
import proofs.«401362_j69569880261306_3_alg».proof.Proof.Gen.KernelIdeal.Regions
import Idealize.ShloMosaic.Lib.Pipeline.RegionsLoop
import Idealize.ShloMosaic.Lib.Pipeline.FrameSuffix

-- membership in a rectangle of the blocks' extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-- A family of valuations read at the TensorCore's references: what a region's proof data take. -/
abbrev atTc (W : Dev nD → Valuation τ sig (Elt F)) : (c : Dev nD) → (b : Ref sig .tc) → Buf (Elt F) ((c : Thread nD τ).loc b) :=
  fun c b => W c b

/-! ## What the regions leave -/

/-- Region 0's result array after the region: its write-backs folded. -/
def res0 (c : Dev nD) : Buf (Elt F) ((c : Thread nD τ).loc main_v2) := (dat0 (atTc (V1 m)) c).arrAt 2 cfg0.N
/-- The buffers after region 0, -/
def U2 (c : Dev nD) : Valuation τ sig (Elt F) := Function.update (V1 m c) (Proc.devRef .tc main_v2) (res0 m c)
/-- and after the host stretch that follows: region 1's entry contents. -/
def U3 (c : Dev nD) : Valuation τ sig (Elt F) := StableHlo.after hostOps1 (U2 m c)
/-- Region 1's result array after the region. -/
def res1 (c : Dev nD) : Buf (Elt F) ((c : Thread nD τ).loc main_v21) := (dat1 (atTc (U3 m)) c).arrAt 3 cfg1.N
/-- The buffers after region 1. -/
def U4 (c : Dev nD) : Valuation τ sig (Elt F) := Function.update (U3 m c) (Proc.devRef .tc main_v21) (res1 m c)

/-- The contents the regions leave, in the form the generated boundary valuations read them. -/
def outs : Outs (F := F) := fun J r c => if J ≤ 2 then U2 m c r else U4 m c r

theorem outs_2 (c : Dev nD) : outs m 2 main_v2 c = res0 m c := by
  unfold outs; rw [if_pos (by decide)]; unfold U2; exact Function.update_self _ _ _
theorem outs_4 (c : Dev nD) : outs m 4 main_v21 c = res1 m c := by
  unfold outs; rw [if_neg (by decide)]; unfold U4; exact Function.update_self _ _ _
theorem V2_eq (c : Dev nD) : V2 m (outs m) c = U2 m c := by
  show Function.update (V1 m c) _ (outs m 2 main_v2 c) = _; rw [outs_2]; rfl
theorem V3_eq (c : Dev nD) : V3 m (outs m) c = U3 m c := by
  show StableHlo.after hostOps1 (V2 m (outs m) c) = _; rw [V2_eq]; rfl
theorem V4_eq (c : Dev nD) : V4 m (outs m) c = U4 m c := by
  show Function.update (V3 m (outs m) c) _ (outs m 4 main_v21 c) = _; rw [outs_4, V3_eq]; rfl

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (atTc (V1 m)) c
  | ⟨1, _⟩ => fun c => dat1 (atTc (U3 m)) c

abbrev 𝒱₀ : Variants := Variants.none
/-- No core owes another anything: no level is assigned. -/
abbrev Lv : GSem nD τ sig → Finset Unit := fun _ => ∅
abbrev lv : GSem nD τ sig → Unit → ℕ := fun _ _ => 0
/-- What rides beside the buffers through every segment: the core's generator register at some state and its debts, none. -/
abbrev R (c : Dev nD) : sProp 𝕄 := iprop((∃ r, prngReg c r) ∗ ∃ W, owes (c : Thread nD τ) (0 : CellTallies nD τ sig Unit) W)

/-- At region 0's exit each of its arrays holds what the pipeline leaves: an input its entry contents, the result the fold. -/
theorem hF0 (c : Dev nD) : ∀ w : Fin cfg0.W, (dat0 (atTc (V1 m)) c).arrAt w cfg0.N = atTc (V2 m (outs m)) c (Pipeline.arrRef spec0 w)
  | ⟨0, _⟩ => ((dat0 (atTc (V1 m)) c).arrAt_in 0 rfl _).trans ((A_eq0 (atTc (V1 m)) c 0).trans (V2_of m (outs m) c main_v0 (by decide)).symm)
  | ⟨1, _⟩ => ((dat0 (atTc (V1 m)) c).arrAt_in 1 rfl _).trans ((A_eq0 (atTc (V1 m)) c 1).trans (V2_of m (outs m) c main_v1 (by decide)).symm)
  | ⟨2, _⟩ => ((congrFun (V2_eq m c) (Proc.devRef .tc main_v2)).trans (Function.update_self _ _ _)).symm
/-- and every other buffer what it held at entry. -/
theorem hrest0 (c : Dev nD) : ∀ b, b ∉ Finset.univ.image (Pipeline.arrRef spec0) → atTc (V2 m (outs m)) c b = atTc (V1 m) c b :=
  fun b hb => V2_of m (outs m) c b fun hmem => hb (Finset.mem_image.mpr ⟨2, Finset.mem_univ _, (List.mem_singleton.mp hmem).symm⟩)

/-- The same at region 1's exit. -/
theorem hF1 (c : Dev nD) : ∀ w : Fin cfg1.W, (dat1 (atTc (U3 m)) c).arrAt w cfg1.N = atTc (V4 m (outs m)) c (Pipeline.arrRef spec1 w)
  | ⟨0, _⟩ => ((dat1 (atTc (U3 m)) c).arrAt_in 0 rfl _).trans ((A_eq1 (atTc (U3 m)) c 0).trans ((V4_of m (outs m) c main_v0 (by decide)).trans (congrFun (V3_eq m c) _)).symm)
  | ⟨1, _⟩ => ((dat1 (atTc (U3 m)) c).arrAt_in 1 rfl _).trans ((A_eq1 (atTc (U3 m)) c 1).trans ((V4_of m (outs m) c main_v1 (by decide)).trans (congrFun (V3_eq m c) _)).symm)
  | ⟨2, _⟩ => ((dat1 (atTc (U3 m)) c).arrAt_in 2 rfl _).trans ((A_eq1 (atTc (U3 m)) c 2).trans ((V4_of m (outs m) c main_v16 (by decide)).trans (congrFun (V3_eq m c) _)).symm)
  | ⟨3, _⟩ => ((congrFun (V4_eq m c) (Proc.devRef .tc main_v21)).trans (Function.update_self _ _ _)).symm
theorem hrest1 (c : Dev nD) : ∀ b, b ∉ Finset.univ.image (Pipeline.arrRef spec1) → atTc (V4 m (outs m)) c b = atTc (U3 m) c b :=
  fun b hb => (V4_of m (outs m) c b fun hmem => hb (Finset.mem_image.mpr ⟨3, Finset.mem_univ _, (List.mem_singleton.mp hmem).symm⟩)).trans (congrFun (V3_eq m c) _)

/-! ## The regions as segments -/

set_option backward.isDefEq.respectTransparency.types false in
/-- REGION 0 over the thread state: entered from every unscoped buffer at the contents after the first host stretch, left
    at those contents with the result array at its fold. -/
def reg0 : RegionSeg (pcfgs (F := F)) adm (pdats m) () defs₀ 𝒱₀ Lv lv 0 where
  win := launch0.win.to₀
  block_pos := launch0.block_pos
  stage_whole := launch0.stage_whole
  K := PEmpty
  osem k := k.elim
  ho := Pipeline.OwnSemFacts.none _
  hbody c := (body_obligation0 (atTc (V1 m)) c).loose
  hwaits := Pipeline.hwaits_of_owed_zero _ _ _ _ Lv lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (atTc (V1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (V1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (V1 m) c) (atTc (V2 m (outs m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at the contents after the second host stretch, left
    at those contents with the result array at its fold. -/
def reg1 : RegionSeg (pcfgs (F := F)) adm (pdats m) () defs₀ 𝒱₀ Lv lv 1 where
  win := launch1.win.to₀
  block_pos := launch1.block_pos
  stage_whole := launch1.stage_whole
  K := PEmpty
  osem k := k.elim
  ho := Pipeline.OwnSemFacts.none _
  hbody c := (body_obligation1 (atTc (U3 m)) c).loose
  hwaits := Pipeline.hwaits_of_owed_zero _ _ _ _ Lv lv 1 fun _ _ => rfl
  pre c := iprop(StableHlo.held (c : Thread nD τ) (Pipeline.ucRefs τ sig) (U3 m c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (atTc (U3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (U3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (U3 m) c) (atTc (V4 m (outs m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch's side: the algebra's first element, the rest states -/

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts Lv lv)
    ⊢ (|={Set.univ}=> bigSep Finset.univ (fun c : Dev nD => R (F := F) c) : sProp 𝕄) :=
  Pipeline.initEach Lv lv fun c => by
    iintro ⟨⟨-, HO, -, Hp, -⟩, -⟩
    imodintro
    isplitl [Hp]; · iexists _; iexact Hp
    iexists ∅; iexact HO

/-! ## The frame, and the run with the result named -/

/-- Every weakly fair execution of @main terminates, faults nowhere and leaves the two argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_cond m emb₁ () 𝒱₀ Lv lv (fun _ _ => rfl) ρ (outs m) (pdats m) 0 (fun _ => iprop(emp))
    (initOf (Pipeline.cells cfgs cellOf_inj) (Pipeline.launchToks cfgs cellOf_inj)) hu₀
    (fun _ c => R c) (hE0 ρ) (fun c => by iintro ⟨-, H⟩; iexact H)
    (reg0 m) (fun c => .rfl) (fun c => .rfl)
    (reg1 m) (fun c => by rw [V3_eq]; exact .rfl) (fun c => .rfl)

-- the launch theorem's implicit arguments are found by unifying its conclusion with this one, which takes unfolding plain
-- definitions in a metavariable's type
set_option backward.isDefEq.respectTransparency.types false in
/-- The same run with the result named: every weakly fair execution of @main terminates, faults nowhere, and ends with the
    result buffer at the last boundary valuation's contents and the two argument arrays as launched. -/
theorem run_val : θ_run defs (onTc (τ := τ) (main (F := F))) ⟨m, fun _ => 0, ρ⟩ (fun r => ∀ c : Dev nD,
      r.2.mem ((c.tc : Thread nD τ).loc main_v98) = V13 m (outs m) c main_v98
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  exact Pipeline.θ_run_regions_kit_dev (pcfgs (F := F)) adm (pdats m) () cellOf_inj emb₁ defs₀ 𝒱₀ Lv lv m ρ main
    (segs m (outs m) 𝒱₀ Lv lv (fun _ c => R c) () (pdats m) (reg0 m) (reg1 m))
    (fun c Q => by
      rewrite [main_chain c, Seg.run_eq_chain,
        show (segs m (outs m) 𝒱₀ Lv lv (fun _ c => R c) () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8 ] from rfl]
      exact .rfl)
    (fun c => by simp only [segs, Seg.pipes_host, Seg.pipes_region, Seg.pipes_nil]; decide) (0 : Dev nD → CellTallies nD τ sig Unit) (fun _ _ => rfl) (fun _ => iprop(emp))
    (initOf (Pipeline.cells cfgs cellOf_inj) (Pipeline.launchToks cfgs cellOf_inj)) hu₀
    (T₀ := fun c => iprop(StableHlo.held (c : Thread nD τ) (Pipeline.ucRefs τ sig) (V0 m c) ∗ R c))
    (Tₙ := fun c => StableHlo.held (c : Thread nD τ) (Pipeline.ucRefs τ sig) (V13 m (outs m) c))
    (hch := fun c => ⟨.rfl, .rfl, .rfl, (show iprop(StableHlo.held (c : Thread nD τ) (Pipeline.ucRefs τ sig) (V3 m (outs m) c) ∗ R c) ⊢ iprop(StableHlo.held (c : Thread nD τ) (Pipeline.ucRefs τ sig) (U3 m c) ∗ R c) from by rw [V3_eq]), .rfl, .rfl, .rfl, .rfl, .rfl, .rfl, .rfl, .rfl, .rfl, sep_mono .rfl (by iintro ⟨-, H⟩; iexact H)⟩)
    (hinit := by
      refine Pipeline.initEach Lv lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V13 m (outs m) c b)
    (hfin := fun c s' => by
      iintro ⟨Hh, HSI⟩
      unfold StableHlo.held
      imodintro
      iapply (pointsTo_read_all (Pipeline.ucRefs τ sig) (fun b => (((c : Thread nD τ)).1, b)) (V13 m (outs m) c) s')
      isplitl [Hh] <;> iassumption)
    (hQ := fun s h c =>
      ⟨h c (Proc.devRef .tc main_v98) (Finset.mem_filter.mpr ⟨StableHlo.devRef_mem_tcRefs main_v98, by decide⟩),
        (h c (Proc.devRef .tc main_arg0) (Finset.mem_filter.mpr ⟨StableHlo.devRef_mem_tcRefs main_arg0, by decide⟩)).trans (V13_main_arg0 m (outs m) c),
        (h c (Proc.devRef .tc main_arg1) (Finset.mem_filter.mpr ⟨StableHlo.devRef_mem_tcRefs main_arg1, by decide⟩)).trans (V13_main_arg1 m (outs m) c)⟩)

end Cert.KernelIdeal.Hand

end
-- ==== Proof.RefTail.lean ====
import proofs.«401362_j69569880261306_3_alg».proof.Proof.Gen.ReferenceIdeal

set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

def mR_cst_5 : (⟨S_, .f32⟩ : BufTy).Contents (Elt F) :=
  constant S_ .f32 0x3F800000#32
def mR_v26 : (⟨S8x17, .f32⟩ : BufTy).Contents (Elt F) :=
  broadcastInDim S8x17 ![] bcast_S_S8x17 (mR_cst_5 (F := F))
def mR_v27 (counts : (⟨S8x17, .f32⟩ : BufTy).Contents (Elt F)) : (⟨S8x17, .f32⟩ : BufTy).Contents (Elt F) :=
  maximumf counts (mR_v26 (F := F))
def mR_v28 (counts : (⟨S8x17, .f32⟩ : BufTy).Contents (Elt F)) : (⟨S8x17x1, .f32⟩ : BufTy).Contents (Elt F) :=
  broadcastInDim S8x17x1 ![0, 1] bcast_S8x17_S8x17x1_0_1 (mR_v27 (F := F) counts)
def mR_v29 (counts : (⟨S8x17, .f32⟩ : BufTy).Contents (Elt F)) : (⟨S8x17x16, .f32⟩ : BufTy).Contents (Elt F) :=
  broadcastInDim S8x17x16 ![0, 1, 2] bcast_S8x17x1_S8x17x16_0_1_2 (mR_v28 (F := F) counts)
def mR_v30 (sums : (⟨S8x17x16, .f32⟩ : BufTy).Contents (Elt F)) (counts : (⟨S8x17, .f32⟩ : BufTy).Contents (Elt F)) : (⟨S8x17x16, .f32⟩ : BufTy).Contents (Elt F) :=
  Host.divf sums (mR_v29 (F := F) counts)
/-- The per-instance means: each segment sum divided by its count, the count raised to at least one. -/
def meansR (sums : (⟨S8x17x16, .f32⟩ : BufTy).Contents (Elt F)) (counts : (⟨S8x17, .f32⟩ : BufTy).Contents (Elt F)) : (⟨S8x17x16, .f32⟩ : BufTy).Contents (Elt F) :=
  mR_v30 (F := F) sums counts

def tR_cst_2 : (⟨S_, .f32⟩ : BufTy).Contents (Elt F) :=
  constant S_ .f32 0x00000000#32
def tR_v20 : (⟨S8x17, .f32⟩ : BufTy).Contents (Elt F) :=
  broadcastInDim S8x17 ![] bcast_S_S8x17 (tR_cst_2 (F := F))
def tR_v21 (counts : (⟨S8x17, .f32⟩ : BufTy).Contents (Elt F)) : (⟨S8x17, .i1⟩ : BufTy).Contents (Elt F) :=
  cmpf (F := F) .ogt counts (tR_v20 (F := F))
def tR_c_3 : (⟨S_, .i32⟩ : BufTy).Contents (Elt F) :=
  constantI S_ 32 0#32
def tR_v22 : (⟨S1, .i32⟩ : BufTy).Contents (Elt F) :=
  broadcastInDim S1 ![] bcast_S_S1 (tR_c_3 (F := F))
def tR_c_4 : (⟨S_, .i1⟩ : BufTy).Contents (Elt F) :=
  constantI S_ 1 0#1
def tR_v23 : (⟨S8, .i1⟩ : BufTy).Contents (Elt F) :=
  broadcastInDim S8 ![] bcast_S_S8 (tR_c_4 (F := F))
def tR_v24 (counts : (⟨S8x17, .f32⟩ : BufTy).Contents (Elt F)) : (⟨S8x17, .i1⟩ : BufTy).Contents (Elt F) :=
  Host.scatter scatter_S8x17_S1_S8_0_1_1_0 (fun _ b => b) (tR_v21 (F := F) counts) (tR_v22 (F := F)) (tR_v23 (F := F))
def tR_v25 (counts : (⟨S8x17, .f32⟩ : BufTy).Contents (Elt F)) : (⟨S8x17, .f32⟩ : BufTy).Contents (Elt F) :=
  uitofp (F := F) .f32 (tR_v24 (F := F) counts)
def tR_cst_5 : (⟨S_, .f32⟩ : BufTy).Contents (Elt F) :=
  constant S_ .f32 0x3F800000#32
def tR_v26 : (⟨S8x17, .f32⟩ : BufTy).Contents (Elt F) :=
  broadcastInDim S8x17 ![] bcast_S_S8x17 (tR_cst_5 (F := F))
def tR_v27 (counts : (⟨S8x17, .f32⟩ : BufTy).Contents (Elt F)) : (⟨S8x17, .f32⟩ : BufTy).Contents (Elt F) :=
  maximumf counts (tR_v26 (F := F))
def tR_v28 (counts : (⟨S8x17, .f32⟩ : BufTy).Contents (Elt F)) : (⟨S8x17x1, .f32⟩ : BufTy).Contents (Elt F) :=
  broadcastInDim S8x17x1 ![0, 1] bcast_S8x17_S8x17x1_0_1 (tR_v27 (F := F) counts)
def tR_v29 (counts : (⟨S8x17, .f32⟩ : BufTy).Contents (Elt F)) : (⟨S8x17x16, .f32⟩ : BufTy).Contents (Elt F) :=
  broadcastInDim S8x17x16 ![0, 1, 2] bcast_S8x17x1_S8x17x16_0_1_2 (tR_v28 (F := F) counts)
def tR_v30 (sums : (⟨S8x17x16, .f32⟩ : BufTy).Contents (Elt F)) (counts : (⟨S8x17, .f32⟩ : BufTy).Contents (Elt F)) : (⟨S8x17x16, .f32⟩ : BufTy).Contents (Elt F) :=
  Host.divf sums (tR_v29 (F := F) counts)
def tR_cst_6 : (⟨S_, .f32⟩ : BufTy).Contents (Elt F) :=
  constant S_ .f32 0x00000000#32
def tR_v31 (counts : (⟨S8x17, .f32⟩ : BufTy).Contents (Elt F)) : (⟨S8, .f32⟩ : BufTy).Contents (Elt F) :=
  Host.reduceAdd (tR_v25 (F := F) counts) (tR_cst_6 (F := F)) reducesTo_S8x17_S8_d1 h_S_
def tR_cst_7 : (⟨S_, .f32⟩ : BufTy).Contents (Elt F) :=
  constant S_ .f32 0x00000000#32
def tR_v32 : (⟨S8, .f32⟩ : BufTy).Contents (Elt F) :=
  broadcastInDim S8 ![] bcast_S_S8 (tR_cst_7 (F := F))
def tR_v33 (counts : (⟨S8x17, .f32⟩ : BufTy).Contents (Elt F)) : (⟨S8, .i1⟩ : BufTy).Contents (Elt F) :=
  cmpf (F := F) .ogt (tR_v31 (F := F) counts) (tR_v32 (F := F))
def tR_v34 (counts : (⟨S8x17, .f32⟩ : BufTy).Contents (Elt F)) : (⟨S8, .f32⟩ : BufTy).Contents (Elt F) :=
  uitofp (F := F) .f32 (tR_v33 (F := F) counts)
def tR_cst_18 : (⟨S_, .f32⟩ : BufTy).Contents (Elt F) :=
  constant S_ .f32 0x3F800000#32
def tR_v71 : (⟨S8x17, .f32⟩ : BufTy).Contents (Elt F) :=
  broadcastInDim S8x17 ![] bcast_S_S8x17 (tR_cst_18 (F := F))
def tR_v72 (counts : (⟨S8x17, .f32⟩ : BufTy).Contents (Elt F)) : (⟨S8x17, .f32⟩ : BufTy).Contents (Elt F) :=
  maximumf counts (tR_v71 (F := F))
def tR_v73 (counts : (⟨S8x17, .f32⟩ : BufTy).Contents (Elt F)) (pis : (⟨S8x17, .f32⟩ : BufTy).Contents (Elt F)) : (⟨S8x17, .f32⟩ : BufTy).Contents (Elt F) :=
  Host.divf pis (tR_v72 (F := F) counts)
def tR_v74 (counts : (⟨S8x17, .f32⟩ : BufTy).Contents (Elt F)) (pis : (⟨S8x17, .f32⟩ : BufTy).Contents (Elt F)) : (⟨S8x17, .f32⟩ : BufTy).Contents (Elt F) :=
  mulf (tR_v73 (F := F) counts pis) (tR_v25 (F := F) counts)
def tR_cst_19 : (⟨S_, .f32⟩ : BufTy).Contents (Elt F) :=
  constant S_ .f32 0x00000000#32
def tR_v75 (counts : (⟨S8x17, .f32⟩ : BufTy).Contents (Elt F)) (pis : (⟨S8x17, .f32⟩ : BufTy).Contents (Elt F)) : (⟨S8, .f32⟩ : BufTy).Contents (Elt F) :=
  Host.reduceAdd (tR_v74 (F := F) counts pis) (tR_cst_19 (F := F)) reducesTo_S8x17_S8_d1 h_S_
def tR_cst_20 : (⟨S_, .f32⟩ : BufTy).Contents (Elt F) :=
  constant S_ .f32 0x3F800000#32
def tR_v76 : (⟨S8, .f32⟩ : BufTy).Contents (Elt F) :=
  broadcastInDim S8 ![] bcast_S_S8 (tR_cst_20 (F := F))
def tR_v77 (counts : (⟨S8x17, .f32⟩ : BufTy).Contents (Elt F)) : (⟨S8, .f32⟩ : BufTy).Contents (Elt F) :=
  maximumf (tR_v31 (F := F) counts) (tR_v76 (F := F))
def tR_v78 (counts : (⟨S8x17, .f32⟩ : BufTy).Contents (Elt F)) (pis : (⟨S8x17, .f32⟩ : BufTy).Contents (Elt F)) : (⟨S8, .f32⟩ : BufTy).Contents (Elt F) :=
  Host.divf (tR_v75 (F := F) counts pis) (tR_v77 (F := F) counts)
def tR_v79 (sums : (⟨S8x17x16, .f32⟩ : BufTy).Contents (Elt F)) (counts : (⟨S8x17, .f32⟩ : BufTy).Contents (Elt F)) : (⟨S8x17x1x16, .f32⟩ : BufTy).Contents (Elt F) :=
  broadcastInDim S8x17x1x16 ![0, 1, 3] bcast_S8x17x16_S8x17x1x16_0_1_3 (tR_v30 (F := F) sums counts)
def tR_v80 (sums : (⟨S8x17x16, .f32⟩ : BufTy).Contents (Elt F)) (counts : (⟨S8x17, .f32⟩ : BufTy).Contents (Elt F)) : (⟨S8x1x17x16, .f32⟩ : BufTy).Contents (Elt F) :=
  broadcastInDim S8x1x17x16 ![0, 2, 3] bcast_S8x17x16_S8x1x17x16_0_2_3 (tR_v30 (F := F) sums counts)
def tR_v81 (sums : (⟨S8x17x16, .f32⟩ : BufTy).Contents (Elt F)) (counts : (⟨S8x17, .f32⟩ : BufTy).Contents (Elt F)) : (⟨S8x17x17x16, .f32⟩ : BufTy).Contents (Elt F) :=
  broadcastInDim S8x17x17x16 ![0, 1, 2, 3] bcast_S8x17x1x16_S8x17x17x16_0_1_2_3 (tR_v79 (F := F) sums counts)
def tR_v82 (sums : (⟨S8x17x16, .f32⟩ : BufTy).Contents (Elt F)) (counts : (⟨S8x17, .f32⟩ : BufTy).Contents (Elt F)) : (⟨S8x17x17x16, .f32⟩ : BufTy).Contents (Elt F) :=
  broadcastInDim S8x17x17x16 ![0, 1, 2, 3] bcast_S8x1x17x16_S8x17x17x16_0_1_2_3 (tR_v80 (F := F) sums counts)
def tR_v83 (sums : (⟨S8x17x16, .f32⟩ : BufTy).Contents (Elt F)) (counts : (⟨S8x17, .f32⟩ : BufTy).Contents (Elt F)) : (⟨S8x17x17x16, .f32⟩ : BufTy).Contents (Elt F) :=
  subf (tR_v81 (F := F) sums counts) (tR_v82 (F := F) sums counts)
def tR_v84 (sums : (⟨S8x17x16, .f32⟩ : BufTy).Contents (Elt F)) (counts : (⟨S8x17, .f32⟩ : BufTy).Contents (Elt F)) : (⟨S8x17x17x16, .f32⟩ : BufTy).Contents (Elt F) :=
  mulf (tR_v83 (F := F) sums counts) (tR_v83 (F := F) sums counts)
def tR_cst_21 : (⟨S_, .f32⟩ : BufTy).Contents (Elt F) :=
  constant S_ .f32 0x00000000#32
def tR_v85 (sums : (⟨S8x17x16, .f32⟩ : BufTy).Contents (Elt F)) (counts : (⟨S8x17, .f32⟩ : BufTy).Contents (Elt F)) : (⟨S8x17x17, .f32⟩ : BufTy).Contents (Elt F) :=
  Host.reduceAdd (tR_v84 (F := F) sums counts) (tR_cst_21 (F := F)) reducesTo_S8x17x17x16_S8x17x17_d3 h_S_
def tR_c_22 : (⟨S_, .i1⟩ : BufTy).Contents (Elt F) :=
  constantI S_ 1 1#1
def tR_v86 : (⟨S17x17, .i1⟩ : BufTy).Contents (Elt F) :=
  broadcastInDim S17x17 ![] bcast_S_S17x17 (tR_c_22 (F := F))
def tR_call1_v0 : (⟨S17x17, .i32⟩ : BufTy).Contents (Elt F) :=
  iotaInDim S17x17 32 0
def tR_call1_c : (⟨S_, .i32⟩ : BufTy).Contents (Elt F) :=
  constantI S_ 32 0#32
def tR_call1_v1 : (⟨S17x17, .i32⟩ : BufTy).Contents (Elt F) :=
  broadcastInDim S17x17 ![] bcast_S_S17x17 (tR_call1_c (F := F))
def tR_call1_v2 : (⟨S17x17, .i32⟩ : BufTy).Contents (Elt F) :=
  addi (tR_call1_v0 (F := F)) (tR_call1_v1 (F := F))
def tR_call1_v3 : (⟨S17x17, .i32⟩ : BufTy).Contents (Elt F) :=
  iotaInDim S17x17 32 1
def tR_call1_v4 : (⟨S17x17, .i1⟩ : BufTy).Contents (Elt F) :=
  cmpi .sge (tR_call1_v2 (F := F)) (tR_call1_v3 (F := F))
def tR_call1_c_0 : (⟨S_, .i1⟩ : BufTy).Contents (Elt F) :=
  constantI S_ 1 0#1
def tR_call1_v5 : (⟨S17x17, .i1⟩ : BufTy).Contents (Elt F) :=
  broadcastInDim S17x17 ![] bcast_S_S17x17 (tR_call1_c_0 (F := F))
def tR_v87 : (⟨S17x17, .i1⟩ : BufTy).Contents (Elt F) :=
  select (tR_call1_v4 (F := F)) (tR_call1_v5 (F := F)) (tR_v86 (F := F))
def tR_v88 (counts : (⟨S8x17, .f32⟩ : BufTy).Contents (Elt F)) : (⟨S8x17x1, .i1⟩ : BufTy).Contents (Elt F) :=
  broadcastInDim S8x17x1 ![0, 1] bcast_S8x17_S8x17x1_0_1 (tR_v24 (F := F) counts)
def tR_v89 (counts : (⟨S8x17, .f32⟩ : BufTy).Contents (Elt F)) : (⟨S8x1x17, .i1⟩ : BufTy).Contents (Elt F) :=
  broadcastInDim S8x1x17 ![0, 2] bcast_S8x17_S8x1x17_0_2 (tR_v24 (F := F) counts)
def tR_v90 (counts : (⟨S8x17, .f32⟩ : BufTy).Contents (Elt F)) : (⟨S8x17x17, .i1⟩ : BufTy).Contents (Elt F) :=
  broadcastInDim S8x17x17 ![0, 1, 2] bcast_S8x17x1_S8x17x17_0_1_2 (tR_v88 (F := F) counts)
def tR_v91 (counts : (⟨S8x17, .f32⟩ : BufTy).Contents (Elt F)) : (⟨S8x17x17, .i1⟩ : BufTy).Contents (Elt F) :=
  broadcastInDim S8x17x17 ![0, 1, 2] bcast_S8x1x17_S8x17x17_0_1_2 (tR_v89 (F := F) counts)
def tR_v92 (counts : (⟨S8x17, .f32⟩ : BufTy).Contents (Elt F)) : (⟨S8x17x17, .i1⟩ : BufTy).Contents (Elt F) :=
  andi (tR_v90 (F := F) counts) (tR_v91 (F := F) counts)
def tR_v93 : (⟨S1x17x17, .i1⟩ : BufTy).Contents (Elt F) :=
  broadcastInDim S1x17x17 ![1, 2] bcast_S17x17_S1x17x17_1_2 (tR_v87 (F := F))
def tR_v94 : (⟨S8x17x17, .i1⟩ : BufTy).Contents (Elt F) :=
  broadcastInDim S8x17x17 ![0, 1, 2] bcast_S1x17x17_S8x17x17_0_1_2 (tR_v93 (F := F))
def tR_v95 (counts : (⟨S8x17, .f32⟩ : BufTy).Contents (Elt F)) : (⟨S8x17x17, .i1⟩ : BufTy).Contents (Elt F) :=
  andi (tR_v92 (F := F) counts) (tR_v94 (F := F))
def tR_cst_23 : (⟨S_, .f32⟩ : BufTy).Contents (Elt F) :=
  constant S_ .f32 0x3F800000#32
def tR_call2_v0 : (⟨S_, .f32⟩ : BufTy).Contents (Elt F) :=
  id (tR_cst_23 (F := F))
def tR_call2_v1 : (⟨S8x17x17, .f32⟩ : BufTy).Contents (Elt F) :=
  broadcastInDim S8x17x17 ![] bcast_S_S8x17x17 (tR_call2_v0 (F := F))
def tR_v96 (sums : (⟨S8x17x16, .f32⟩ : BufTy).Contents (Elt F)) (counts : (⟨S8x17, .f32⟩ : BufTy).Contents (Elt F)) : (⟨S8x17x17, .f32⟩ : BufTy).Contents (Elt F) :=
  select (tR_v95 (F := F) counts) (tR_v85 (F := F) sums counts) (tR_call2_v1 (F := F))
def tR_v97 (sums : (⟨S8x17x16, .f32⟩ : BufTy).Contents (Elt F)) (counts : (⟨S8x17, .f32⟩ : BufTy).Contents (Elt F)) : (⟨S8x17x17, .f32⟩ : BufTy).Contents (Elt F) :=
  Host.sqrt (tR_v96 (F := F) sums counts)
def tR_cst_24 : (⟨S_, .f32⟩ : BufTy).Contents (Elt F) :=
  constant S_ .f32 0x40400000#32
def tR_v98 : (⟨S8x17x17, .f32⟩ : BufTy).Contents (Elt F) :=
  broadcastInDim S8x17x17 ![] bcast_S_S8x17x17 (tR_cst_24 (F := F))
def tR_v99 (sums : (⟨S8x17x16, .f32⟩ : BufTy).Contents (Elt F)) (counts : (⟨S8x17, .f32⟩ : BufTy).Contents (Elt F)) : (⟨S8x17x17, .f32⟩ : BufTy).Contents (Elt F) :=
  subf (tR_v98 (F := F)) (tR_v97 (F := F) sums counts)
def tR_cst_25 : (⟨S_, .f32⟩ : BufTy).Contents (Elt F) :=
  constant S_ .f32 0x00000000#32
def tR_v100 : (⟨S8x17x17, .f32⟩ : BufTy).Contents (Elt F) :=
  broadcastInDim S8x17x17 ![] bcast_S_S8x17x17 (tR_cst_25 (F := F))
def tR_v101 (sums : (⟨S8x17x16, .f32⟩ : BufTy).Contents (Elt F)) (counts : (⟨S8x17, .f32⟩ : BufTy).Contents (Elt F)) : (⟨S8x17x17, .f32⟩ : BufTy).Contents (Elt F) :=
  maximumf (tR_v99 (F := F) sums counts) (tR_v100 (F := F))
def tR_v102 (sums : (⟨S8x17x16, .f32⟩ : BufTy).Contents (Elt F)) (counts : (⟨S8x17, .f32⟩ : BufTy).Contents (Elt F)) : (⟨S8x17x17, .f32⟩ : BufTy).Contents (Elt F) :=
  mulf (tR_v101 (F := F) sums counts) (tR_v101 (F := F) sums counts)
def tR_v103 (counts : (⟨S8x17, .f32⟩ : BufTy).Contents (Elt F)) : (⟨S8x17x17, .f32⟩ : BufTy).Contents (Elt F) :=
  uitofp (F := F) .f32 (tR_v95 (F := F) counts)
def tR_v104 (sums : (⟨S8x17x16, .f32⟩ : BufTy).Contents (Elt F)) (counts : (⟨S8x17, .f32⟩ : BufTy).Contents (Elt F)) : (⟨S8x17x17, .f32⟩ : BufTy).Contents (Elt F) :=
  mulf (tR_v102 (F := F) sums counts) (tR_v103 (F := F) counts)
def tR_cst_26 : (⟨S_, .f32⟩ : BufTy).Contents (Elt F) :=
  constant S_ .f32 0x3F800000#32
def tR_v105 : (⟨S8, .f32⟩ : BufTy).Contents (Elt F) :=
  broadcastInDim S8 ![] bcast_S_S8 (tR_cst_26 (F := F))
def tR_v106 (counts : (⟨S8x17, .f32⟩ : BufTy).Contents (Elt F)) : (⟨S8, .f32⟩ : BufTy).Contents (Elt F) :=
  subf (tR_v31 (F := F) counts) (tR_v105 (F := F))
def tR_v107 (counts : (⟨S8x17, .f32⟩ : BufTy).Contents (Elt F)) : (⟨S8, .f32⟩ : BufTy).Contents (Elt F) :=
  mulf (tR_v31 (F := F) counts) (tR_v106 (F := F) counts)
def tR_cst_27 : (⟨S_, .f32⟩ : BufTy).Contents (Elt F) :=
  constant S_ .f32 0x3F000000#32
def tR_v108 : (⟨S8, .f32⟩ : BufTy).Contents (Elt F) :=
  broadcastInDim S8 ![] bcast_S_S8 (tR_cst_27 (F := F))
def tR_v109 (counts : (⟨S8x17, .f32⟩ : BufTy).Contents (Elt F)) : (⟨S8, .f32⟩ : BufTy).Contents (Elt F) :=
  mulf (tR_v107 (F := F) counts) (tR_v108 (F := F))
def tR_cst_28 : (⟨S_, .f32⟩ : BufTy).Contents (Elt F) :=
  constant S_ .f32 0x3F800000#32
def tR_v110 : (⟨S8, .f32⟩ : BufTy).Contents (Elt F) :=
  broadcastInDim S8 ![] bcast_S_S8 (tR_cst_28 (F := F))
def tR_v111 (counts : (⟨S8x17, .f32⟩ : BufTy).Contents (Elt F)) : (⟨S8, .i1⟩ : BufTy).Contents (Elt F) :=
  cmpf (F := F) .ogt (tR_v31 (F := F) counts) (tR_v110 (F := F))
def tR_cst_29 : (⟨S_, .f32⟩ : BufTy).Contents (Elt F) :=
  constant S_ .f32 0x00000000#32
def tR_v112 (sums : (⟨S8x17x16, .f32⟩ : BufTy).Contents (Elt F)) (counts : (⟨S8x17, .f32⟩ : BufTy).Contents (Elt F)) : (⟨S8, .f32⟩ : BufTy).Contents (Elt F) :=
  Host.reduceAdd (tR_v104 (F := F) sums counts) (tR_cst_29 (F := F)) reducesTo_S8x17x17_S8_d1_2 h_S_
def tR_cst_30 : (⟨S_, .f32⟩ : BufTy).Contents (Elt F) :=
  constant S_ .f32 0x3F800000#32
def tR_v113 : (⟨S8, .f32⟩ : BufTy).Contents (Elt F) :=
  broadcastInDim S8 ![] bcast_S_S8 (tR_cst_30 (F := F))
def tR_v114 (counts : (⟨S8x17, .f32⟩ : BufTy).Contents (Elt F)) : (⟨S8, .f32⟩ : BufTy).Contents (Elt F) :=
  maximumf (tR_v109 (F := F) counts) (tR_v113 (F := F))
def tR_v115 (sums : (⟨S8x17x16, .f32⟩ : BufTy).Contents (Elt F)) (counts : (⟨S8x17, .f32⟩ : BufTy).Contents (Elt F)) : (⟨S8, .f32⟩ : BufTy).Contents (Elt F) :=
  Host.divf (tR_v112 (F := F) sums counts) (tR_v114 (F := F) counts)
def tR_cst_31 : (⟨S_, .f32⟩ : BufTy).Contents (Elt F) :=
  constant S_ .f32 0x00000000#32
def tR_call3_v0 : (⟨S_, .f32⟩ : BufTy).Contents (Elt F) :=
  id (tR_cst_31 (F := F))
def tR_call3_v1 : (⟨S8, .f32⟩ : BufTy).Contents (Elt F) :=
  broadcastInDim S8 ![] bcast_S_S8 (tR_call3_v0 (F := F))
def tR_v116 (sums : (⟨S8x17x16, .f32⟩ : BufTy).Contents (Elt F)) (counts : (⟨S8x17, .f32⟩ : BufTy).Contents (Elt F)) : (⟨S8, .f32⟩ : BufTy).Contents (Elt F) :=
  select (tR_v111 (F := F) counts) (tR_v115 (F := F) sums counts) (tR_call3_v1 (F := F))
def tR_v117 (sums : (⟨S8x17x16, .f32⟩ : BufTy).Contents (Elt F)) (counts : (⟨S8x17, .f32⟩ : BufTy).Contents (Elt F)) : (⟨S8x17x16, .f32⟩ : BufTy).Contents (Elt F) :=
  mulf (tR_v30 (F := F) sums counts) (tR_v30 (F := F) sums counts)
def tR_cst_32 : (⟨S_, .f32⟩ : BufTy).Contents (Elt F) :=
  constant S_ .f32 0x00000000#32
def tR_v118 (sums : (⟨S8x17x16, .f32⟩ : BufTy).Contents (Elt F)) (counts : (⟨S8x17, .f32⟩ : BufTy).Contents (Elt F)) : (⟨S8x17, .f32⟩ : BufTy).Contents (Elt F) :=
  Host.reduceAdd (tR_v117 (F := F) sums counts) (tR_cst_32 (F := F)) reducesTo_S8x17x16_S8x17_d2 h_S_
def tR_cst_33 : (⟨S_, .f32⟩ : BufTy).Contents (Elt F) :=
  constant S_ .f32 0x3F800000#32
def tR_call4_v0 : (⟨S_, .f32⟩ : BufTy).Contents (Elt F) :=
  id (tR_cst_33 (F := F))
def tR_call4_v1 : (⟨S8x17, .f32⟩ : BufTy).Contents (Elt F) :=
  broadcastInDim S8x17 ![] bcast_S_S8x17 (tR_call4_v0 (F := F))
def tR_v119 (sums : (⟨S8x17x16, .f32⟩ : BufTy).Contents (Elt F)) (counts : (⟨S8x17, .f32⟩ : BufTy).Contents (Elt F)) : (⟨S8x17, .f32⟩ : BufTy).Contents (Elt F) :=
  select (tR_v24 (F := F) counts) (tR_v118 (F := F) sums counts) (tR_call4_v1 (F := F))
def tR_v120 (sums : (⟨S8x17x16, .f32⟩ : BufTy).Contents (Elt F)) (counts : (⟨S8x17, .f32⟩ : BufTy).Contents (Elt F)) : (⟨S8x17, .f32⟩ : BufTy).Contents (Elt F) :=
  Host.sqrt (tR_v119 (F := F) sums counts)
def tR_v121 (sums : (⟨S8x17x16, .f32⟩ : BufTy).Contents (Elt F)) (counts : (⟨S8x17, .f32⟩ : BufTy).Contents (Elt F)) : (⟨S8x17, .f32⟩ : BufTy).Contents (Elt F) :=
  mulf (tR_v120 (F := F) sums counts) (tR_v25 (F := F) counts)
def tR_cst_34 : (⟨S_, .f32⟩ : BufTy).Contents (Elt F) :=
  constant S_ .f32 0x00000000#32
def tR_v122 (sums : (⟨S8x17x16, .f32⟩ : BufTy).Contents (Elt F)) (counts : (⟨S8x17, .f32⟩ : BufTy).Contents (Elt F)) : (⟨S8, .f32⟩ : BufTy).Contents (Elt F) :=
  Host.reduceAdd (tR_v121 (F := F) sums counts) (tR_cst_34 (F := F)) reducesTo_S8x17_S8_d1 h_S_
def tR_cst_35 : (⟨S_, .f32⟩ : BufTy).Contents (Elt F) :=
  constant S_ .f32 0x3F800000#32
def tR_v123 : (⟨S8, .f32⟩ : BufTy).Contents (Elt F) :=
  broadcastInDim S8 ![] bcast_S_S8 (tR_cst_35 (F := F))
def tR_v124 (counts : (⟨S8x17, .f32⟩ : BufTy).Contents (Elt F)) : (⟨S8, .f32⟩ : BufTy).Contents (Elt F) :=
  maximumf (tR_v31 (F := F) counts) (tR_v123 (F := F))
def tR_v125 (sums : (⟨S8x17x16, .f32⟩ : BufTy).Contents (Elt F)) (counts : (⟨S8x17, .f32⟩ : BufTy).Contents (Elt F)) : (⟨S8, .f32⟩ : BufTy).Contents (Elt F) :=
  Host.divf (tR_v122 (F := F) sums counts) (tR_v124 (F := F) counts)
def tR_cst_36 : (⟨S_, .f32⟩ : BufTy).Contents (Elt F) :=
  constant S_ .f32 0x00000000#32
def tR_v126 (counts : (⟨S8x17, .f32⟩ : BufTy).Contents (Elt F)) : (⟨S_, .f32⟩ : BufTy).Contents (Elt F) :=
  Host.reduceAdd (tR_v34 (F := F) counts) (tR_cst_36 (F := F)) reducesTo_S8_S_d0 h_S_
def tR_cst_37 : (⟨S_, .f32⟩ : BufTy).Contents (Elt F) :=
  constant S_ .f32 0x3F800000#32
def tR_v127 (counts : (⟨S8x17, .f32⟩ : BufTy).Contents (Elt F)) : (⟨S_, .f32⟩ : BufTy).Contents (Elt F) :=
  maximumf (tR_v126 (F := F) counts) (tR_cst_37 (F := F))
def tR_v128 (counts : (⟨S8x17, .f32⟩ : BufTy).Contents (Elt F)) (pis : (⟨S8x17, .f32⟩ : BufTy).Contents (Elt F)) : (⟨S8, .f32⟩ : BufTy).Contents (Elt F) :=
  mulf (tR_v78 (F := F) counts pis) (tR_v34 (F := F) counts)
def tR_cst_38 : (⟨S_, .f32⟩ : BufTy).Contents (Elt F) :=
  constant S_ .f32 0x00000000#32
def tR_v129 (counts : (⟨S8x17, .f32⟩ : BufTy).Contents (Elt F)) (pis : (⟨S8x17, .f32⟩ : BufTy).Contents (Elt F)) : (⟨S_, .f32⟩ : BufTy).Contents (Elt F) :=
  Host.reduceAdd (tR_v128 (F := F) counts pis) (tR_cst_38 (F := F)) reducesTo_S8_S_d0 h_S_
def tR_v130 (counts : (⟨S8x17, .f32⟩ : BufTy).Contents (Elt F)) (pis : (⟨S8x17, .f32⟩ : BufTy).Contents (Elt F)) : (⟨S_, .f32⟩ : BufTy).Contents (Elt F) :=
  Host.divf (tR_v129 (F := F) counts pis) (tR_v127 (F := F) counts)
def tR_v131 (sums : (⟨S8x17x16, .f32⟩ : BufTy).Contents (Elt F)) (counts : (⟨S8x17, .f32⟩ : BufTy).Contents (Elt F)) : (⟨S8, .f32⟩ : BufTy).Contents (Elt F) :=
  mulf (tR_v116 (F := F) sums counts) (tR_v34 (F := F) counts)
def tR_cst_39 : (⟨S_, .f32⟩ : BufTy).Contents (Elt F) :=
  constant S_ .f32 0x00000000#32
def tR_v132 (sums : (⟨S8x17x16, .f32⟩ : BufTy).Contents (Elt F)) (counts : (⟨S8x17, .f32⟩ : BufTy).Contents (Elt F)) : (⟨S_, .f32⟩ : BufTy).Contents (Elt F) :=
  Host.reduceAdd (tR_v131 (F := F) sums counts) (tR_cst_39 (F := F)) reducesTo_S8_S_d0 h_S_
def tR_v133 (sums : (⟨S8x17x16, .f32⟩ : BufTy).Contents (Elt F)) (counts : (⟨S8x17, .f32⟩ : BufTy).Contents (Elt F)) : (⟨S_, .f32⟩ : BufTy).Contents (Elt F) :=
  Host.divf (tR_v132 (F := F) sums counts) (tR_v127 (F := F) counts)
def tR_v134 (sums : (⟨S8x17x16, .f32⟩ : BufTy).Contents (Elt F)) (counts : (⟨S8x17, .f32⟩ : BufTy).Contents (Elt F)) : (⟨S8, .f32⟩ : BufTy).Contents (Elt F) :=
  mulf (tR_v125 (F := F) sums counts) (tR_v34 (F := F) counts)
def tR_cst_40 : (⟨S_, .f32⟩ : BufTy).Contents (Elt F) :=
  constant S_ .f32 0x00000000#32
def tR_v135 (sums : (⟨S8x17x16, .f32⟩ : BufTy).Contents (Elt F)) (counts : (⟨S8x17, .f32⟩ : BufTy).Contents (Elt F)) : (⟨S_, .f32⟩ : BufTy).Contents (Elt F) :=
  Host.reduceAdd (tR_v134 (F := F) sums counts) (tR_cst_40 (F := F)) reducesTo_S8_S_d0 h_S_
def tR_v136 (sums : (⟨S8x17x16, .f32⟩ : BufTy).Contents (Elt F)) (counts : (⟨S8x17, .f32⟩ : BufTy).Contents (Elt F)) : (⟨S_, .f32⟩ : BufTy).Contents (Elt F) :=
  Host.divf (tR_v135 (F := F) sums counts) (tR_v127 (F := F) counts)
def tR_cst_41 : (⟨S_, .f32⟩ : BufTy).Contents (Elt F) :=
  constant S_ .f32 0x3F800000#32
def tR_v137 (counts : (⟨S8x17, .f32⟩ : BufTy).Contents (Elt F)) (pis : (⟨S8x17, .f32⟩ : BufTy).Contents (Elt F)) : (⟨S_, .f32⟩ : BufTy).Contents (Elt F) :=
  mulf (tR_cst_41 (F := F)) (tR_v130 (F := F) counts pis)
def tR_cst_42 : (⟨S_, .f32⟩ : BufTy).Contents (Elt F) :=
  constant S_ .f32 0x3F800000#32
def tR_v138 (sums : (⟨S8x17x16, .f32⟩ : BufTy).Contents (Elt F)) (counts : (⟨S8x17, .f32⟩ : BufTy).Contents (Elt F)) : (⟨S_, .f32⟩ : BufTy).Contents (Elt F) :=
  mulf (tR_cst_42 (F := F)) (tR_v133 (F := F) sums counts)
def tR_v139 (sums : (⟨S8x17x16, .f32⟩ : BufTy).Contents (Elt F)) (counts : (⟨S8x17, .f32⟩ : BufTy).Contents (Elt F)) (pis : (⟨S8x17, .f32⟩ : BufTy).Contents (Elt F)) : (⟨S_, .f32⟩ : BufTy).Contents (Elt F) :=
  addf (tR_v137 (F := F) counts pis) (tR_v138 (F := F) sums counts)
def tR_cst_43 : (⟨S_, .f32⟩ : BufTy).Contents (Elt F) :=
  constant S_ .f32 0x3A83126F#32
def tR_v140 (sums : (⟨S8x17x16, .f32⟩ : BufTy).Contents (Elt F)) (counts : (⟨S8x17, .f32⟩ : BufTy).Contents (Elt F)) : (⟨S_, .f32⟩ : BufTy).Contents (Elt F) :=
  mulf (tR_cst_43 (F := F)) (tR_v136 (F := F) sums counts)
def tR_v141 (sums : (⟨S8x17x16, .f32⟩ : BufTy).Contents (Elt F)) (counts : (⟨S8x17, .f32⟩ : BufTy).Contents (Elt F)) (pis : (⟨S8x17, .f32⟩ : BufTy).Contents (Elt F)) : (⟨S_, .f32⟩ : BufTy).Contents (Elt F) :=
  addf (tR_v139 (F := F) sums counts pis) (tR_v140 (F := F) sums counts)
def tR_v142 (sums : (⟨S8x17x16, .f32⟩ : BufTy).Contents (Elt F)) (counts : (⟨S8x17, .f32⟩ : BufTy).Contents (Elt F)) (pis : (⟨S8x17, .f32⟩ : BufTy).Contents (Elt F)) : (⟨S1, .f32⟩ : BufTy).Contents (Elt F) :=
  broadcastInDim S1 ![] bcast_S_S1 (tR_v141 (F := F) sums counts pis)
def tR_v143 (counts : (⟨S8x17, .f32⟩ : BufTy).Contents (Elt F)) (pis : (⟨S8x17, .f32⟩ : BufTy).Contents (Elt F)) : (⟨S1, .f32⟩ : BufTy).Contents (Elt F) :=
  broadcastInDim S1 ![] bcast_S_S1 (tR_v130 (F := F) counts pis)
def tR_v144 (sums : (⟨S8x17x16, .f32⟩ : BufTy).Contents (Elt F)) (counts : (⟨S8x17, .f32⟩ : BufTy).Contents (Elt F)) : (⟨S1, .f32⟩ : BufTy).Contents (Elt F) :=
  broadcastInDim S1 ![] bcast_S_S1 (tR_v133 (F := F) sums counts)
def tR_v145 (sums : (⟨S8x17x16, .f32⟩ : BufTy).Contents (Elt F)) (counts : (⟨S8x17, .f32⟩ : BufTy).Contents (Elt F)) : (⟨S1, .f32⟩ : BufTy).Contents (Elt F) :=
  broadcastInDim S1 ![] bcast_S_S1 (tR_v136 (F := F) sums counts)
def tR_v146 (sums : (⟨S8x17x16, .f32⟩ : BufTy).Contents (Elt F)) (counts : (⟨S8x17, .f32⟩ : BufTy).Contents (Elt F)) (pis : (⟨S8x17, .f32⟩ : BufTy).Contents (Elt F)) : (⟨S4, .f32⟩ : BufTy).Contents (Elt F) :=
  concatenate S4 0 [⟨S1, (tR_v142 (F := F) sums counts pis)⟩, ⟨S1, (tR_v143 (F := F) counts pis)⟩, ⟨S1, (tR_v144 (F := F) sums counts)⟩, ⟨S1, (tR_v145 (F := F) sums counts)⟩] concatenates_S1_S1_S1_S1_S4_d0
/-- The four results from the three segment-sum arrays: the variance, distance and regularisation terms and their weighted total. -/
def tailR (sums : (⟨S8x17x16, .f32⟩ : BufTy).Contents (Elt F)) (counts : (⟨S8x17, .f32⟩ : BufTy).Contents (Elt F)) (pis : (⟨S8x17, .f32⟩ : BufTy).Contents (Elt F)) : (⟨S4, .f32⟩ : BufTy).Contents (Elt F) :=
  tR_v146 (F := F) sums counts pis

end Cert.ReferenceIdeal.Hand

end
-- ==== Proof.KI_Host.lean ====
/- @main's host stretches around the two kernel regions, read back. Before the first region the two arguments are reshaped.
   Between the regions the first region's table is cut into the segment sums and the counts, and the means and the
   presence masks are computed from them. After the second region everything that remains is the closing arithmetic on the
   segment sums, the counts and the second region's per-instance hinge sums: the same function the reference applies. -/
import proofs.«401362_j69569880261306_3_alg».proof.Proof.KI_Regions
import proofs.«401362_j69569880261306_3_alg».proof.Proof.RefTail
import Idealize.ShloMosaic.Lib.StableHlo.Run

-- membership in a rectangle of the blocks' extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The segment sums: the first sixteen columns of the first region's table. -/
def sumsK (sc : (⟨S8x17x17, .f32⟩ : BufTy).Contents (Elt F)) : (⟨S8x17x16, .f32⟩ : BufTy).Contents (Elt F) :=
  extractStridedSlice S8x17x16 ![0, 0, 0] sc slices_S8x17x17_S8x17x16_0_0_0
/-- The counts: its last column. -/
def countsK (sc : (⟨S8x17x17, .f32⟩ : BufTy).Contents (Elt F)) : (⟨S8x17, .f32⟩ : BufTy).Contents (Elt F) :=
  shapeCast S8x17 (extractStridedSlice S8x17x1 ![0, 0, 16] sc slices_S8x17x17_S8x17x1_0_0_16) shapeCasts_S8x17x1_S8x17
/-- The per-instance hinge sums: the second region's column as a matrix. -/
def pisK (p : (⟨S8x17x1, .f32⟩ : BufTy).Contents (Elt F)) : (⟨S8x17, .f32⟩ : BufTy).Contents (Elt F) :=
  shapeCast S8x17 p shapeCasts_S8x17x1_S8x17

/-! ## The host stretches over any contents

Each stretch is read back over an arbitrary valuation `W` of the buffers it starts from: its results are the operations'
functions composed, applied to what `W` holds at the references the stretch does not write. -/

section Stretches

variable (W : Valuation τ sig (Elt F))

/-- The first stretch reshapes the first argument -/
theorem h0_v0 : StableHlo.after hostOps0 W main_v0 = shapeCast S8x16x262144 (W main_arg0) shapeCasts_S8x16x512x512_S8x16x262144 := by
  after_results; rfl
/-- and the second. -/
theorem h0_v1 : StableHlo.after hostOps0 W main_v1 = shapeCast S8x1x262144 (W main_arg1) shapeCasts_S8x512x512_S8x1x262144 := by
  after_results; rfl

/-- The stretch between the regions leaves the means of the table it finds at the first region's result. -/
theorem h1_v16 : StableHlo.after hostOps1 W main_v16
    = Cert.ReferenceIdeal.Hand.meansR (F := F) (sumsK (W main_v2)) (countsK (W main_v2)) := by
  after_results
  rfl

/-- An updated valuation read at another reference, -/
theorem upd_ne (V : Valuation τ sig (Elt F)) {r y : Ref sig .tc} (p : (Proc.devRef .tc y : DevRef τ sig).ty.Contents (Elt F)) (h : r ≠ y) :
    Function.update V (Proc.devRef .tc y) p (no_index (Proc.devRef .tc r)) = V (Proc.devRef .tc r) :=
  Function.update_of_ne (StableHlo.devRef_ne_of_ne h) _ _
/-- and at the updated one. -/
theorem upd_same (V : Valuation τ sig (Elt F)) {y : Ref sig .tc} (p : (Proc.devRef .tc y : DevRef τ sig).ty.Contents (Elt F)) :
    Function.update V (Proc.devRef .tc y) p (no_index (Proc.devRef .tc y)) = p :=
  Function.update_self _ _ _

-- one pass over the hundred and forty operations of the two stretches
set_option maxHeartbeats 4000000 in
/-- The stretch between the regions, the second region's column `p` put at its result, then the nine closing stretches:
    the last result is the closing arithmetic of the table's segment sums and counts and of `p` as a matrix. Every
    operation's result is rewritten to its function's value at the operands' contents, down to `W` at the first region's
    result and `p`; the two composed terms then agree operation by operation. -/
theorem tail_v98 (p : (⟨S8x17x1, .f32⟩ : BufTy).Contents (Elt F)) :
    StableHlo.after hostOps2_8 (StableHlo.after hostOps2_7 (StableHlo.after hostOps2_6 (StableHlo.after hostOps2_5
      (StableHlo.after hostOps2_4 (StableHlo.after hostOps2_3 (StableHlo.after hostOps2_2 (StableHlo.after hostOps2_1
        (StableHlo.after hostOps2 (Function.update (StableHlo.after hostOps1 W) (Proc.devRef .tc main_v21) p))))))))) main_v98
    = Cert.ReferenceIdeal.Hand.tailR (F := F) (sumsK (W main_v2)) (countsK (W main_v2)) (pisK p) := by
  simp (disch := decide) only [StableHlo.after_cons, StableHlo.after_nil,
      StableHlo.nullary_result', StableHlo.unary_result', StableHlo.binary_result', StableHlo.ternary_result',
      StableHlo.quaternary_result', StableHlo.reshape_result', StableHlo.nary4_result', StableHlo.nary_result',
      StableHlo.nullary_result_ne', StableHlo.unary_result_ne', StableHlo.binary_result_ne', StableHlo.ternary_result_ne',
      StableHlo.quaternary_result_ne', StableHlo.reshape_result_ne', StableHlo.nary_result_ne', upd_ne, upd_same]
  rfl

end Stretches

/-! ## At @main's boundary valuations -/

/-- After the first region its result array holds the region's table. -/
theorem U2_v2 (c : Dev nD) : U2 m c main_v2 = res0 m c := by
  unfold U2; exact Function.update_self _ _ _

/-- The first region is entered with the embeddings reshaped to [8, 16, 262144] -/
theorem host_v0 (c : Dev nD) : V1 m c main_v0 = shapeCast S8x16x262144 (m ((c : Thread nD τ).loc main_arg0)) shapeCasts_S8x16x512x512_S8x16x262144 :=
  h0_v0 (V0 m c)
/-- and the labels reshaped to [8, 1, 262144]. -/
theorem host_v1 (c : Dev nD) : V1 m c main_v1 = shapeCast S8x1x262144 (m ((c : Thread nD τ).loc main_arg1)) shapeCasts_S8x512x512_S8x1x262144 :=
  h0_v1 (V0 m c)

/-- The second region is entered with the same two arrays: the stretch between the regions writes neither, and the first
    region's result is another array -/
theorem U3_v0 (c : Dev nD) : U3 m c main_v0 = V1 m c main_v0 := by
  unfold U3 U2
  exact (StableHlo.after_of_writes_sub hostOps1 _ hostOps1_writes (by decide)).trans
    (Function.update_of_ne (StableHlo.devRef_ne_of_ne (by decide)) _ _)
theorem U3_v1 (c : Dev nD) : U3 m c main_v1 = V1 m c main_v1 := by
  unfold U3 U2
  exact (StableHlo.after_of_writes_sub hostOps1 _ hostOps1_writes (by decide)).trans
    (Function.update_of_ne (StableHlo.devRef_ne_of_ne (by decide)) _ _)
/-- and with the means of the first region's table. -/
theorem U3_v16 (c : Dev nD) : U3 m c main_v16 = Cert.ReferenceIdeal.Hand.meansR (F := F) (sumsK (res0 m c)) (countsK (res0 m c)) := by
  unfold U3
  refine (h1_v16 (U2 m c)).trans ?_
  rw [U2_v2]

/-- @main's result is the closing arithmetic of the segment sums, the counts and the per-instance hinge sums. -/
theorem V13_v98 (c : Dev nD) : V13 m (outs m) c main_v98
    = Cert.ReferenceIdeal.Hand.tailR (F := F) (sumsK (res0 m c)) (countsK (res0 m c)) (pisK (res1 m c)) := by
  show StableHlo.after hostOps2_8 (StableHlo.after hostOps2_7 (StableHlo.after hostOps2_6 (StableHlo.after hostOps2_5
      (StableHlo.after hostOps2_4 (StableHlo.after hostOps2_3 (StableHlo.after hostOps2_2 (StableHlo.after hostOps2_1
        (StableHlo.after hostOps2 (V4 m (outs m) c))))))))) (Proc.devRef .tc main_v98) = _
  rw [V4_eq]
  unfold U4 U3
  refine (tail_v98 (U2 m c) (res1 m c)).trans ?_
  rw [U2_v2]

end Cert.KernelIdeal.Hand

end
-- ==== Proof.RefScatter.lean ====
/- The reference's three segment sums read at an index. A segment id is 17·batch + label; with every label below 17 the
   updates landing on segment 17·b + k are exactly batch b's pixels labelled k, so each accumulating scatter from zero is
   the sum over batch b's pixels of the one-hot of the label times the update. -/
import proofs.«401362_j69569880261306_3_alg».proof.Proof.RefBase
import Idealize.ShloMosaic.Lib.ValueIdxRank1
import Idealize.ShloMosaic.Lib.IdealHost

noncomputable section

namespace Cert.ReferenceIdeal.Hand

open Cert.ReferenceIdeal Cert.ReferenceIdeal.Gen Cert.ReferenceIdeal.ReadP Cert.Spec
open Idealize.ShloMosaic Idealize.ShloMosaic.ValueIdx

/-- The dimension numbers of the two scalar-update scatters: operand [136], index column [2097152, 1], updates [2097152]. -/
abbrev D1 : ScatterDims S136 S2097152x1 S2097152 := scatter_S136_S2097152x1_S2097152_n_0_0_1
/-- The dimension numbers of the channel-row scatter: operand [136, 16], index column [2097152, 1], updates [2097152, 16]. -/
abbrev D2 : ScatterDims S136x16 S2097152x1 S2097152x16 := scatter_S136x16_S2097152x1_S2097152x16_1_0_0_1

/-- An update lands on the operand index whose every coordinate is the start plus the window coordinate. -/
theorem resultIdx_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro h a
    split at h
    · rename_i H
      have h1 := congrFun (Option.some.inj h) a
      have h2 : (d.start j idx a + (d.window j a : Int)).toNat = (i a).val := congrArg Fin.val h1
      have h3 := (H a).1
      omega
    · exact absurd h (by simp)
  · intro h
    have H : ∀ a, 0 ≤ d.start j idx a + (d.window j a : Int) ∧ d.start j idx a + (d.window j a : Int) < (s.size a : Int) := by
      intro a
      have := (i a).isLt
      rw [h a]; omega
    rw [dif_pos H]
    congr 1
    funext a
    apply Fin.ext
    show (d.start j idx a + (d.window j a : Int)).toNat = (i a).val
    rw [h a]; omega

theorem D1_siIdx (r : Fin 2097152) (c : Fin D1.scatterDimsToOperandDims.length) :
    D1.siIdx (ix1 r) c = ix2 r (0 : Fin 1) := by
  funext b
  match b with
  | ⟨0, _⟩ => rfl
  | ⟨1, _⟩ =>
    apply Fin.ext
    show c.val = 0
    have h : c.val < 1 := c.isLt
    omega

theorem D1_start (r : Fin 2097152) (idx : IVec S2097152x1 32) :
    D1.start (ix1 r) idx (0 : Fin 1) = (idx (ix2 r (0 : Fin 1))).toInt := by
  unfold ScatterDims.start
  rw [dif_pos (by show (0 : Fin 1) ∈ [(0 : Fin 1)]; simp), D1_siIdx]

theorem D1_window (r : Fin 2097152) : D1.window (ix1 r) (0 : Fin 1) = 0 := by
  unfold ScatterDims.window
  rw [dif_neg (by show (0 : Fin 1) ∉ S136.kept [(0 : Fin 1)]; decide)]

theorem D1_result (r : Fin 2097152) (idx : IVec S2097152x1 32) (i : Fin 136) :
    D1.resultIdx? (ix1 r) idx = some (ix1 i) ↔ (idx (ix2 r (0 : Fin 1))).toInt = (i.val : Int) := by
  rw [resultIdx_iff]
  constructor
  · intro h
    have h0 := h (0 : Fin 1)
    rw [D1_start, D1_window] at h0
    have h1 : (idx (ix2 r (0 : Fin 1))).toInt + ((0 : Nat) : Int) = (i.val : Int) := h0
    omega
  · intro h a
    have ha0 : a = (0 : Fin 1) := Fin.ext (by have h : a.val < 1 := a.isLt; show a.val = 0; omega)
    subst ha0
    rw [D1_start, D1_window]
    show (idx (ix2 r (0 : Fin 1))).toInt + ((0 : Nat) : Int) = (i.val : Int)
    omega

theorem D2_siIdx (r : Fin 2097152) (c : Fin 16) (cc : Fin D2.scatterDimsToOperandDims.length) :
    D2.siIdx (ix2 r c) cc = ix2 r (0 : Fin 1) := by
  funext b
  match b with
  | ⟨0, _⟩ => rfl
  | ⟨1, _⟩ =>
    apply Fin.ext
    show cc.val = 0
    have h : cc.val < 1 := cc.isLt
    omega

theorem D2_start0 (r : Fin 2097152) (c : Fin 16) (idx : IVec S2097152x1 32) :
    D2.start (ix2 r c) idx (0 : Fin 2) = (idx (ix2 r (0 : Fin 1))).toInt := by
  unfold ScatterDims.start
  rw [dif_pos (by show (0 : Fin 2) ∈ [(0 : Fin 2)]; simp), D2_siIdx]

theorem D2_start1 (r : Fin 2097152) (c : Fin 16) (idx : IVec S2097152x1 32) :
    D2.start (ix2 r c) idx (1 : Fin 2) = 0 := by
  unfold ScatterDims.start
  rw [dif_neg (by show (1 : Fin 2) ∉ [(0 : Fin 2)]; decide)]

theorem D2_window0 (r : Fin 2097152) (c : Fin 16) : D2.window (ix2 r c) (0 : Fin 2) = 0 := by
  unfold ScatterDims.window
  rw [dif_neg (by show (0 : Fin 2) ∉ S136x16.kept [(0 : Fin 2)]; decide)]

theorem D2_window1 (r : Fin 2097152) (c : Fin 16) : D2.window (ix2 r c) (1 : Fin 2) = c.val := by
  unfold ScatterDims.window
  rw [dif_pos (by show (1 : Fin 2) ∈ S136x16.kept [(0 : Fin 2)]; decide)]
  rfl

theorem D2_result (r : Fin 2097152) (c : Fin 16) (idx : IVec S2097152x1 32) (i : Fin 136) (c' : Fin 16) :
    D2.resultIdx? (ix2 r c) idx = some (ix2 i c') ↔ ((idx (ix2 r (0 : Fin 1))).toInt = (i.val : Int) ∧ c = c') := by
  rw [resultIdx_iff]
  constructor
  · intro h
    have h0 := h (0 : Fin 2)
    have h1 := h (1 : Fin 2)
    rw [D2_start0, D2_window0] at h0
    rw [D2_start1, D2_window1] at h1
    have h0' : (idx (ix2 r (0 : Fin 1))).toInt + ((0 : Nat) : Int) = (i.val : Int) := h0
    have h1' : (0 : Int) + (c.val : Int) = (c'.val : Int) := h1
    exact ⟨by omega, Fin.ext (by omega)⟩
  · rintro ⟨h, rfl⟩ a
    match a with
    | ⟨0, _⟩ =>
      show D2.start (ix2 r c) idx (0 : Fin 2) + ((D2.window (ix2 r c) (0 : Fin 2) : Nat) : Int) = (i.val : Int)
      rw [D2_start0, D2_window0]; omega
    | ⟨1, _⟩ =>
      show D2.start (ix2 r c) idx (1 : Fin 2) + ((D2.window (ix2 r c) (1 : Fin 2) : Nat) : Int) = (c.val : Int)
      rw [D2_start1, D2_window1]; omega

/-- The accumulating scatter at an index: the operand's entry plus every update, each counted where it lands there. -/
theorem hostScatterAdd_apply {s si su : Shape} (d : ScatterDims s si su) {w : Nat} (x : s.Idx → EReal) (idx : IVec si w)
    (upd : su.Idx → EReal) (i : s.Idx) :
    Ideal.hostScatterAdd d x idx upd i = x i + ∑ j, if d.resultIdx? j idx = some i then upd j else 0 := by
  unfold Ideal.hostScatterAdd
  rw [Finset.sum_filter]

/-- The rank-1 accumulating scatter read at a segment: the operand's entry plus the updates whose index word is the segment. -/
theorem scatter1_apply (x : S136.Idx → EReal) (idx : IVec S2097152x1 32) (upd : S2097152.Idx → EReal) (i : Fin 136) :
    Ideal.hostScatterAdd D1 x idx upd (ix1 i) =
      x (ix1 i) + ∑ r : Fin 2097152, if (idx (ix2 r (0 : Fin 1))).toInt = (i.val : Int) then upd (ix1 r) else 0 := by
  refine (hostScatterAdd_apply D1 x idx upd (ix1 i)).trans (congrArg (x (ix1 i) + ·) ?_)
  refine (Equiv.sum_comp (idxEquiv1 (n := 2097152)).symm _).symm.trans ?_
  refine Finset.sum_congr rfl fun r _ => ?_
  exact if_congr (D1_result r idx i) rfl rfl

/-- The rank-2 accumulating scatter (one window axis of 16 channels) read at a segment and channel. -/
theorem scatter2_apply (x : S136x16.Idx → EReal) (idx : IVec S2097152x1 32) (upd : S2097152x16.Idx → EReal) (i : Fin 136) (c' : Fin 16) :
    Ideal.hostScatterAdd D2 x idx upd (ix2 i c') =
      x (ix2 i c') + ∑ r : Fin 2097152, if (idx (ix2 r (0 : Fin 1))).toInt = (i.val : Int) then upd (ix2 r c') else 0 := by
  refine (hostScatterAdd_apply D2 x idx upd (ix2 i c')).trans (congrArg (x (ix2 i c') + ·) ?_)
  refine (sum_idx2 _).trans ?_
  refine Finset.sum_congr rfl fun r _ => ?_
  rw [Finset.sum_eq_single c']
  · exact if_congr ((D2_result r c' idx i c').trans (and_iff_left rfl)) rfl rfl
  · intro c _ hc
    rw [if_neg]
    rw [D2_result]
    exact fun h => hc h.2
  · intro h; exact absurd (Finset.mem_univ _) h

/-- The flat position of pixel n of batch b. -/
def flat (b : Fin 8) (n : Fin 262144) : Fin 2097152 :=
  ⟨b.val * 262144 + n.val, by have := b.isLt; have := n.isLt; omega⟩

def flatEquiv : Fin 8 × Fin 262144 ≃ Fin 2097152 where
  toFun p := flat p.1 p.2
  invFun r := (⟨r.val / 262144, by have := r.isLt; omega⟩, ⟨r.val % 262144, by omega⟩)
  left_inv p := by
    obtain ⟨b, n⟩ := p
    have := b.isLt; have := n.isLt
    apply Prod.ext
    · apply Fin.ext; show (b.val * 262144 + n.val) / 262144 = b.val; omega
    · apply Fin.ext; show (b.val * 262144 + n.val) % 262144 = n.val; omega
  right_inv r := by
    apply Fin.ext; show r.val / 262144 * 262144 + r.val % 262144 = r.val; omega

theorem sum_flat {M : Type} [AddCommMonoid M] (f : Fin 2097152 → M) :
    ∑ r, f r = ∑ b : Fin 8, ∑ n : Fin 262144, f (flat b n) := by
  rw [← Equiv.sum_comp flatEquiv f, Fintype.sum_prod_type]
  rfl

/-- A segment word 17·b' + w with w below 17 is the segment 17·b + k exactly when b' = b and w = k. -/
theorem seg_cond (b b' : Fin 8) (k : Fin 17) (w : BitVec 32) (hw : w.toNat < 17) :
    (IntOp.addi (IntOp.muli (BitVec.ofNat 32 b'.val) 17#32) w).toInt = ((b.val * 17 + k.val : Nat) : Int)
      ↔ (b' = b ∧ w = BitVec.ofNat 32 k.val) := by
  have hb := b.isLt; have hb' := b'.isLt; have hk := k.isLt
  have hn : (IntOp.addi (IntOp.muli (BitVec.ofNat 32 b'.val) 17#32) w).toNat = b'.val * 17 + w.toNat := by
    show ((BitVec.ofNat 32 b'.val) * 17#32 + w).toNat = _
    rw [BitVec.toNat_add, BitVec.toNat_mul, BitVec.toNat_ofNat, BitVec.toNat_ofNat]
    omega
  rw [BitVec.toInt_eq_toNat_of_lt (by rw [hn]; omega), hn]
  constructor
  · intro h
    have h' : b'.val * 17 + w.toNat = b.val * 17 + k.val := by exact_mod_cast h
    exact ⟨Fin.ext (by omega), BitVec.eq_of_toNat_eq (by rw [BitVec.toNat_ofNat]; omega)⟩
  · rintro ⟨rfl, rfl⟩
    rw [BitVec.toNat_ofNat]
    have : k.val % 2 ^ 32 = k.val := by omega
    rw [this]
/-- The segment word of pixel n of batch b: 17·b plus the label word. -/
theorem seg_read (x1 : X1) (b : Fin 8) (n : Fin 262144) :
    val_main_v9 (F := Ideal) x1 (ix1 (flat b n)) = IntOp.addi (IntOp.muli (BitVec.ofNat 32 b.val) 17#32) (Lr x1 b n) := by
  have hb := b.isLt; have hn := n.isLt
  rw [val_main_v9_apply]
  have hi : idx_main_v9 (ix1 (flat b n)) = ix2 b n := by
    funext a
    match a with
    | ⟨0, _⟩ => apply Fin.ext; show (b.val * 262144 + n.val) / 262144 = b.val; omega
    | ⟨1, _⟩ => apply Fin.ext; show (b.val * 262144 + n.val) % 262144 = n.val; omega
  rw [hi, val_main_v8_apply, val_main_v7_apply, val_main_v6_apply, val_main_v4_apply, val_main_v3_apply, val_main_v5_apply,
    val_main_c_apply]
  rfl
/-- With an index column carrying the segment words, the updates landing on segment 17·b + k sum to the sum over batch
    b's pixels of the one-hot of the label times the pixel's update. -/
theorem seg_sum (x1 : X1) (hL : ∀ b n, (Lr x1 b n).toNat < 17) (col : IVec S2097152x1 32)
    (hcol : ∀ r : Fin 2097152, col (ix2 r (0 : Fin 1)) = val_main_v9 (F := Ideal) x1 (ix1 r))
    (U : Fin 2097152 → EReal) (b : Fin 8) (k : Fin 17) (i : Fin 136) (hi : i.val = b.val * 17 + k.val) :
    (∑ r : Fin 2097152, if (col (ix2 r (0 : Fin 1))).toInt = (i.val : Int) then U r else 0)
      = ∑ n : Fin 262144, oh k (Lr x1 b n) * U (flat b n) := by
  rw [hi, sum_flat, Finset.sum_eq_single b]
  · refine Finset.sum_congr rfl fun n _ => ?_
    rw [hcol, seg_read, if_congr (seg_cond b b k _ (hL b n)) rfl rfl]
    unfold oh
    by_cases h : Lr x1 b n = BitVec.ofNat 32 k.val
    · rw [if_pos ⟨rfl, h⟩, if_pos h, one_mul]
    · rw [if_neg (fun hh => h hh.2), if_neg h, zero_mul]
  · intro b' _ hb'
    refine Finset.sum_eq_zero fun n _ => ?_
    rw [hcol, seg_read, if_neg]
    rw [seg_cond b b' k _ (hL b' n)]
    exact fun hh => hb' hh.1
  · intro h; exact absurd (Finset.mem_univ _) h

/-- The three accumulating scatters at the extended reals, by their operands. -/
theorem v13_eq (x0 : X0) (x1 : X1) : val_main_v13 (F := Ideal) x0 x1 =
    Ideal.hostScatterAdd D2 (val_main_v11 (F := Ideal)) (val_main_v12 (F := Ideal) x1) (val_main_v10 (F := Ideal) x0) := rfl
theorem v18_eq (x1 : X1) : val_main_v18 (F := Ideal) x1 =
    Ideal.hostScatterAdd D1 (val_main_v16 (F := Ideal)) (val_main_v17 (F := Ideal) x1) (val_main_v15 (F := Ideal)) := rfl
theorem v69_eq (x0 : X0) (x1 : X1) : val_main_v69 (F := Ideal) x0 x1 =
    Ideal.hostScatterAdd D1 (val_main_v67 (F := Ideal)) (val_main_v68 (F := Ideal) x1) (val_main_v66 (F := Ideal) x0 x1) := rfl
/-- Segment sums of the embeddings: entry (b, k, c). -/
theorem ref_sums (x0 : X0) (x1 : X1) (hL : ∀ b n, (Lr x1 b n).toNat < 17) (b : Fin 8) (k : Fin 17) (c : Fin 16) :
    val_main_v14 (F := Ideal) x0 x1 (ix3 b k c) = ∑ n : Fin 262144, oh k (Lr x1 b n) * Er x0 b c n := by
  have hb := b.isLt; have hk := k.isLt; have hc := c.isLt
  rw [val_main_v14_apply]
  have hi : idx_main_v14 (ix3 b k c) = ix2 (⟨b.val * 17 + k.val, by omega⟩ : Fin 136) c := by
    funext a
    match a with
    | ⟨0, _⟩ => apply Fin.ext; show ((b.val * 17 + k.val) * 16 + c.val) / 16 = b.val * 17 + k.val; omega
    | ⟨1, _⟩ => apply Fin.ext; show ((b.val * 17 + k.val) * 16 + c.val) % 16 = c.val; omega
  rw [hi]
  rw [v13_eq, scatter2_apply, val_main_v11_apply, val_main_cst_apply, Ideal.ofBits_def, Ideal.ofBits_zero_f32, zero_add]
  rw [seg_sum x1 hL (val_main_v12 (F := Ideal) x1) ?_ (fun r => val_main_v10 (F := Ideal) x0 (ix2 r c)) b k _ rfl]
  · refine Finset.sum_congr rfl fun n _ => ?_
    have hn := n.isLt
    refine congrArg (oh k (Lr x1 b n) * ·) ?_
    show val_main_v10 (F := Ideal) x0 (ix2 (flat b n) c) = Er x0 b c n
    rw [val_main_v10_apply, val_main_v1_apply]
    unfold Er
    refine congrArg (val_main_v0 (F := Ideal) x0) ?_
    funext a
    match a with
    | ⟨0, _⟩ => apply Fin.ext; show ((b.val * 262144 + n.val) * 16 + c.val) / 4194304 = b.val; omega
    | ⟨1, _⟩ => apply Fin.ext; show ((b.val * 262144 + n.val) * 16 + c.val) % 16 = c.val; omega
    | ⟨2, _⟩ => apply Fin.ext; show ((b.val * 262144 + n.val) * 16 + c.val) / 16 % 262144 = n.val; omega
  · intro r
    rw [val_main_v12_apply]
    refine congrArg (val_main_v9 (F := Ideal) x1) ?_
    funext a
    match a with
    | ⟨0, _⟩ => rfl
/-- Segment sums of the all-ones vector (the counts): entry (b, k). -/
theorem ref_counts (x1 : X1) (hL : ∀ b n, (Lr x1 b n).toNat < 17) (b : Fin 8) (k : Fin 17) :
    val_main_v19 (F := Ideal) x1 (ix2 b k) = ∑ n : Fin 262144, oh k (Lr x1 b n) * 1 := by
  have hb := b.isLt; have hk := k.isLt
  rw [val_main_v19_apply]
  have hi : idx_main_v19 (ix2 b k) = ix1 (⟨b.val * 17 + k.val, by omega⟩ : Fin 136) := by
    funext a
    match a with
    | ⟨0, _⟩ => rfl
  rw [hi]
  rw [v18_eq, scatter1_apply, val_main_v16_apply, val_main_cst_1_apply, Ideal.ofBits_def, Ideal.ofBits_zero_f32, zero_add]
  rw [seg_sum x1 hL (val_main_v17 (F := Ideal) x1) ?_ (fun r => val_main_v15 (F := Ideal) (ix1 r)) b k _ rfl]
  · refine Finset.sum_congr rfl fun n _ => ?_
    refine congrArg (oh k (Lr x1 b n) * ·) ?_
    show val_main_v15 (F := Ideal) (ix1 (flat b n)) = 1
    rw [val_main_v15_apply, val_main_cst_0_apply, Ideal.ofBits_def, Ideal.ofBits_one_f32]
  · intro r
    rw [val_main_v17_apply]
    refine congrArg (val_main_v9 (F := Ideal) x1) ?_
    funext a
    match a with
    | ⟨0, _⟩ => rfl
/-- Segment sums of the pixels' hinge, whatever function `H` of (batch, pixel) the hinge array is: entry (b, k). -/
theorem ref_pis (x0 : X0) (x1 : X1) (hL : ∀ b n, (Lr x1 b n).toNat < 17) (H : Fin 8 → Fin 262144 → EReal)
    (hH : ∀ b n, val_main_v65 (F := Ideal) x0 x1 (ix2 b n) = H b n) (b : Fin 8) (k : Fin 17) :
    val_main_v70 (F := Ideal) x0 x1 (ix2 b k) = ∑ n : Fin 262144, oh k (Lr x1 b n) * H b n := by
  have hb := b.isLt; have hk := k.isLt
  rw [val_main_v70_apply]
  have hi : idx_main_v70 (ix2 b k) = ix1 (⟨b.val * 17 + k.val, by omega⟩ : Fin 136) := by
    funext a
    match a with
    | ⟨0, _⟩ => rfl
  rw [hi]
  rw [v69_eq, scatter1_apply, val_main_v67_apply, val_main_cst_17_apply, Ideal.ofBits_def, Ideal.ofBits_zero_f32, zero_add]
  rw [seg_sum x1 hL (val_main_v68 (F := Ideal) x1) ?_ (fun r => val_main_v66 (F := Ideal) x0 x1 (ix1 r)) b k _ rfl]
  · refine Finset.sum_congr rfl fun n _ => ?_
    have hn := n.isLt
    refine congrArg (oh k (Lr x1 b n) * ·) ?_
    show val_main_v66 (F := Ideal) x0 x1 (ix1 (flat b n)) = H b n
    rw [val_main_v66_apply, ← hH]
    refine congrArg (val_main_v65 (F := Ideal) x0 x1) ?_
    funext a
    match a with
    | ⟨0, _⟩ => apply Fin.ext; show (b.val * 262144 + n.val) / 262144 = b.val; omega
    | ⟨1, _⟩ => apply Fin.ext; show (b.val * 262144 + n.val) % 262144 = n.val; omega
  · intro r
    rw [val_main_v68_apply]
    refine congrArg (val_main_v9 (F := Ideal) x1) ?_
    funext a
    match a with
    | ⟨0, _⟩ => rfl

end Cert.ReferenceIdeal.Hand

end
-- ==== Proof.RefHinge.lean ====
/- The reference's hinge at a pixel. It gathers the means' row at (batch, label) — the label below 17, so the clamped
   start is the label itself —, which is the one-hot weighting of the means' column; the squared distance, its root, the
   margin, the square and the foreground factor follow operation by operation. -/
import proofs.«401362_j69569880261306_3_alg».proof.Proof.RefBase

noncomputable section

namespace Cert.ReferenceIdeal.Hand

open Cert.ReferenceIdeal Cert.ReferenceIdeal.Gen Cert.ReferenceIdeal.ReadP Cert.Spec
open Idealize.ShloMosaic Idealize.ShloMosaic.ValueIdx

/-! ## Words: a small word is not negative -/

/-- A word below 2^31 as a natural reads, signed, as that natural. -/
theorem toInt_small (w : BitVec 32) (h : w.toNat < 2147483648) : w.toInt = (w.toNat : Int) := by
  rw [BitVec.toInt_eq_toNat_cond, if_pos (by omega)]

/-- A word below 2^31 as a natural is not below zero as a signed integer. -/
theorem slt_zero_small (w : BitVec 32) (h : w.toNat < 2147483648) : IntOp.cmpi .slt w 0#32 = 0#1 := by
  have e : w.slt 0#32 = false := by
    unfold BitVec.slt
    rw [toInt_small w h]
    simp
  show BitVec.ofBool (w.slt 0#32) = 0#1
  rw [e]; rfl

/-- The signed reading of a small word, as a natural, is the word's natural. -/
theorem toInt_toNat_small (w : BitVec 32) (h : w.toNat < 2147483648) : w.toInt.toNat = w.toNat := by
  rw [toInt_small w h]; exact Int.toNat_natCast _

/-! ## The two start-index components: the batch number and the label -/

/-- The batch iota with its wrap of negatives (never taken) is the batch number. -/
theorem v41_read (b : Fin 8) : val_main_v41 (F := Ideal) (ix2 b (0 : Fin 1)) = BitVec.ofNat 32 b.val := by
  rw [val_main_v41_apply, val_main_v38_apply, val_main_v36_apply, val_main_v35_apply, val_main_v37_apply,
    val_main_c_8_apply]
  show Scalar.select (IntOp.cmpi .slt (BitVec.ofNat 32 b.val) 0#32) _ (BitVec.ofNat 32 b.val) = _
  have hb : (BitVec.ofNat 32 b.val).toNat < 2147483648 := by
    rw [BitVec.toNat_ofNat]; have := b.isLt; omega
  rw [slt_zero_small _ hb, select_zero]

/-- The first start-index component at (batch, pixel) is the batch number. -/
theorem v48_read (b : Fin 8) (n : Fin 262144) :
    val_main_v48 (F := Ideal) (ix3 b n (0 : Fin 1)) = BitVec.ofNat 32 b.val := by
  have e1 : idx_main_v48 (ix3 b n (0 : Fin 1)) = ix2 b n := by
    funext a; match a with | ⟨0, _⟩ => rfl | ⟨1, _⟩ => rfl
  have e2 : idx_main_v47 (ix2 b n) = ix2 b (0 : Fin 1) := by
    funext a; match a with | ⟨0, _⟩ => rfl | ⟨1, _⟩ => rfl
  rw [val_main_v48_apply, e1, val_main_v47_apply, e2, v41_read]

/-- The label with its wrap of negatives (never taken: the label word is below 17) is the label. -/
theorem v46_read (x1 : X1) (b : Fin 8) (n : Fin 262144) (h : (Lr x1 b n).toNat < 17) :
    val_main_v46 (F := Ideal) x1 (ix2 b n) = Lr x1 b n := by
  rw [val_main_v46_apply, val_main_v43_apply, val_main_v42_apply, val_main_c_10_apply]
  show Scalar.select (IntOp.cmpi .slt (Lr x1 b n) 0#32) _ (Lr x1 b n) = _
  rw [slt_zero_small (Lr x1 b n) (by omega), select_zero]

/-- The second start-index component at (batch, pixel) is the label. -/
theorem v49_read (x1 : X1) (b : Fin 8) (n : Fin 262144) (h : (Lr x1 b n).toNat < 17) :
    val_main_v49 (F := Ideal) x1 (ix3 b n (0 : Fin 1)) = Lr x1 b n := by
  have e1 : idx_main_v49 (ix3 b n (0 : Fin 1)) = ix2 b n := by
    funext a; match a with | ⟨0, _⟩ => rfl | ⟨1, _⟩ => rfl
  rw [val_main_v49_apply, e1, v46_read x1 b n h]

/-- Two [8, 262144, 1] pieces joined along the last axis, at last coordinate 0: the first piece. -/
theorem concat_read0 {α : Type} (p q : S8x262144x1.Idx → α) (b : Fin 8) (n : Fin 262144) :
    concatenate S8x262144x2 2 [⟨S8x262144x1, p⟩, ⟨S8x262144x1, q⟩]
      concatenates_S8x262144x1_S8x262144x1_S8x262144x2_d2 (ix3 b n (0 : Fin 2)) = p (ix3 b n (0 : Fin 1)) := by
  rw [concatenate_pair_apply_left (2 : Fin 3) p q _ (ix3 b n (0 : Fin 2)) rfl (ix3 b n (0 : Fin 1))
    (fun r => by match r with | ⟨0, _⟩ => rfl | ⟨1, _⟩ => rfl | ⟨2, _⟩ => rfl)]

/-- The same at last coordinate 1: the second piece. -/
theorem concat_read1 {α : Type} (p q : S8x262144x1.Idx → α) (b : Fin 8) (n : Fin 262144) :
    concatenate S8x262144x2 2 [⟨S8x262144x1, p⟩, ⟨S8x262144x1, q⟩]
      concatenates_S8x262144x1_S8x262144x1_S8x262144x2_d2 (ix3 b n (1 : Fin 2)) = q (ix3 b n (0 : Fin 1)) := by
  rw [concatenate_pair_apply_right (2 : Fin 3) p q _ (ix3 b n (1 : Fin 2)) rfl rfl (ix3 b n (0 : Fin 1))
    (fun r hr => by
      match r with
      | ⟨0, _⟩ => rfl
      | ⟨1, _⟩ => rfl
      | ⟨2, _⟩ => exact absurd rfl hr)
    rfl]

/-- The joined start index, component 0: the batch number. -/
theorem v50_read0 (x1 : X1) (b : Fin 8) (n : Fin 262144) :
    val_main_v50 (F := Ideal) x1 (ix3 b n (0 : Fin 2)) = BitVec.ofNat 32 b.val := by
  unfold val_main_v50
  rw [concat_read0]
  exact v48_read b n

/-- The joined start index, component 1: the label. -/
theorem v50_read1 (x1 : X1) (b : Fin 8) (n : Fin 262144) (h : (Lr x1 b n).toNat < 17) :
    val_main_v50 (F := Ideal) x1 (ix3 b n (1 : Fin 2)) = Lr x1 b n := by
  unfold val_main_v50
  rw [concat_read1]
  exact v49_read x1 b n h

/-! ## The gather: the means' row at (batch, label) -/

/-- A gather of rows of an [8, 17, 16] table at start indices (batch number, a word below 17): both clamps are
    identities (the batch number is at most 7, the word at most 16), so result element (b, n, c) is the table at
    (b, that word, c). -/
theorem gather_read {α : Type} (x : S8x17x16.Idx → α) (idx : IVec S8x262144x2 32) (b : Fin 8) (n : Fin 262144) (c : Fin 16)
    (l : BitVec 32) (h : l.toNat < 17)
    (h0 : idx (ix3 b n (0 : Fin 2)) = BitVec.ofNat 32 b.val) (h1 : idx (ix3 b n (1 : Fin 2)) = l) :
    Host.gather gather_S8x17x16_S8x262144x2_S8x262144x16_2_01_n_n_01_2_1116 x idx (ix3 b n c)
      = x (ix3 b ⟨l.toNat, h⟩ c) := by
  unfold Host.gather
  congr 1
  funext a
  refine Fin.ext ?_
  have hm0 : (0 : Fin 3) ∈ gather_S8x17x16_S8x262144x2_S8x262144x16_2_01_n_n_01_2_1116.startIndexMap := by decide
  have hm1 : (1 : Fin 3) ∈ gather_S8x17x16_S8x262144x2_S8x262144x16_2_01_n_n_01_2_1116.startIndexMap := by decide
  have hm2 : (2 : Fin 3) ∉ gather_S8x17x16_S8x262144x2_S8x262144x16_2_01_n_n_01_2_1116.startIndexMap := by decide
  have hsi0 : gather_S8x17x16_S8x262144x2_S8x262144x16_2_01_n_n_01_2_1116.siIdx (ix3 b n c)
      ⟨List.idxOf (0 : Fin 3) gather_S8x17x16_S8x262144x2_S8x262144x16_2_01_n_n_01_2_1116.startIndexMap,
        List.idxOf_lt_length_iff.2 hm0⟩ = ix3 b n (0 : Fin 2) := by
    funext q; refine Fin.ext ?_
    match q with
    | ⟨0, _⟩ => rfl
    | ⟨1, _⟩ => rfl
    | ⟨2, _⟩ => rfl
  have hsi1 : gather_S8x17x16_S8x262144x2_S8x262144x16_2_01_n_n_01_2_1116.siIdx (ix3 b n c)
      ⟨List.idxOf (1 : Fin 3) gather_S8x17x16_S8x262144x2_S8x262144x16_2_01_n_n_01_2_1116.startIndexMap,
        List.idxOf_lt_length_iff.2 hm1⟩ = ix3 b n (1 : Fin 2) := by
    funext q; refine Fin.ext ?_
    match q with
    | ⟨0, _⟩ => rfl
    | ⟨1, _⟩ => rfl
    | ⟨2, _⟩ => rfl
  match a with
  | ⟨0, _⟩ =>
    show gather_S8x17x16_S8x262144x2_S8x262144x16_2_01_n_n_01_2_1116.start (ix3 b n c) idx 0
      + gather_S8x17x16_S8x262144x2_S8x262144x16_2_01_n_n_01_2_1116.batchCoord (ix3 b n c) 0
      + gather_S8x17x16_S8x262144x2_S8x262144x16_2_01_n_n_01_2_1116.offCoord (ix3 b n c) 0 = b.val
    rw [GatherDims.batchCoord_eq_zero _ _ _ List.not_mem_nil,
      GatherDims.offCoord_eq_zero _ _ _ (fun hk => ((GatherDims.mem_sKept _ _).mp hk).1 (by decide))]
    simp only [Nat.add_zero]
    unfold GatherDims.start
    rw [dif_pos hm0, hsi0, h0]
    have hb : (BitVec.ofNat 32 b.val).toNat = b.val := by
      rw [BitVec.toNat_ofNat]; have := b.isLt; omega
    rw [toInt_toNat_small _ (by rw [hb]; have := b.isLt; omega), hb]
    show min b.val (8 - 1) = b.val
    have := b.isLt; omega
  | ⟨1, _⟩ =>
    show gather_S8x17x16_S8x262144x2_S8x262144x16_2_01_n_n_01_2_1116.start (ix3 b n c) idx 1
      + gather_S8x17x16_S8x262144x2_S8x262144x16_2_01_n_n_01_2_1116.batchCoord (ix3 b n c) 1
      + gather_S8x17x16_S8x262144x2_S8x262144x16_2_01_n_n_01_2_1116.offCoord (ix3 b n c) 1 = l.toNat
    rw [GatherDims.batchCoord_eq_zero _ _ _ List.not_mem_nil,
      GatherDims.offCoord_eq_zero _ _ _ (fun hk => ((GatherDims.mem_sKept _ _).mp hk).1 (by decide))]
    simp only [Nat.add_zero]
    unfold GatherDims.start
    rw [dif_pos hm1, hsi1, h1, toInt_toNat_small _ (by omega)]
    show min l.toNat (17 - 1) = l.toNat
    omega
  | ⟨2, _⟩ =>
    show gather_S8x17x16_S8x262144x2_S8x262144x16_2_01_n_n_01_2_1116.start (ix3 b n c) idx 2
      + gather_S8x17x16_S8x262144x2_S8x262144x16_2_01_n_n_01_2_1116.batchCoord (ix3 b n c) 2
      + gather_S8x17x16_S8x262144x2_S8x262144x16_2_01_n_n_01_2_1116.offCoord (ix3 b n c) 2 = c.val
    rw [GatherDims.batchCoord_eq_zero _ _ _ List.not_mem_nil]
    unfold GatherDims.start
    rw [dif_neg hm2]
    simp only [Nat.add_zero, Nat.zero_add]
    rfl

/-- The gathered row at (batch, pixel), channel c: the means at (batch, label, c). -/
theorem v51_read (x0 : X0) (x1 : X1) (b : Fin 8) (n : Fin 262144) (c : Fin 16) (h : (Lr x1 b n).toNat < 17) :
    val_main_v51 (F := Ideal) x0 x1 (ix3 b n c) = Mr x0 x1 b ⟨(Lr x1 b n).toNat, h⟩ c := by
  unfold val_main_v51 Mr
  exact gather_read _ _ b n c (Lr x1 b n) h (v50_read0 x1 b n) (v50_read1 x1 b n h)

/-! ## The squared distance and the hinge -/

/-- The channel sum at (batch, pixel) is the specification's squared distance. -/
theorem ref_sqd (x0 : X0) (x1 : X1) (hL : ∀ b n, (Lr x1 b n).toNat < 17) (b : Fin 8) (n : Fin 262144) :
    val_main_v54 (F := Ideal) x0 x1 (ix2 b n) = sqdAt (Er x0) (Lr x1) (Mr x0 x1) b n := by
  rw [val_main_v54_apply, val_main_cst_12_apply]
  show Ideal.ofBits .f32 0x00000000#32 + _ = _
  rw [Ideal.ofBits_zero_f32, zero_add]
  unfold sqdAt
  refine Finset.sum_congr rfl fun c _ => ?_
  have e1 : idx_main_v54 (ix2 b n) c = ix3 b n c := by
    funext a; match a with | ⟨0, _⟩ => rfl | ⟨1, _⟩ => rfl | ⟨2, _⟩ => rfl
  have e2 : idx_main_v1 (ix3 b n c) = ix3 b c n := by
    funext a; match a with | ⟨0, _⟩ => rfl | ⟨1, _⟩ => rfl | ⟨2, _⟩ => rfl
  rw [e1, val_main_v53_apply, val_main_v52_apply, val_main_v1_apply, e2, v51_read x0 x1 b n c (hL b n),
    meanPx_eq (Lr x1) (Mr x0 x1) b c n (hL b n)]
  rfl

/-- The unsigned reading of a bit, as an extended real: 1 at the bit 1, 0 at the bit 0. -/
theorem uitofp_bit (bit : BitVec 1) :
    (FloatOps.uitofp (F := Ideal) .f32 bit : EReal) = if bit = 1#1 then 1 else 0 := by
  show ((bit.toNat : ℝ) : EReal) = _
  rcases BitVec.eq_zero_or_eq_one bit with h | h
  · subst h; simp
  · subst h; simp

/-- The hinge array at (batch, pixel) is the specification's hinge of the reference's embeddings, labels and means. -/
theorem ref_hinge (x0 : X0) (x1 : X1) (hL : ∀ b n, (Lr x1 b n).toNat < 17) (b : Fin 8) (n : Fin 262144) :
    val_main_v65 (F := Ideal) x0 x1 (ix2 b n) = hingeAt (Er x0) (Lr x1) (Mr x0 x1) b n := by
  rw [val_main_v65_apply, val_main_v63_apply, val_main_v62_apply, val_main_v60_apply, val_main_v58_apply,
    val_main_v57_apply, val_main_v64_apply, val_main_v56_apply, val_main_v55_apply, val_main_c_13_apply,
    val_main_v61_apply, val_main_cst_16_apply, val_main_v59_apply, val_main_cst_15_apply,
    val_main_call0_v1_apply, val_main_call0_v0_apply, val_main_cst_14_apply, ref_sqd x0 x1 hL b n, uitofp_bit]
  rfl

end Cert.ReferenceIdeal.Hand

end
-- ==== Proof.RefTailEq.lean ====
/- The reference's result is its closing arithmetic applied to its three segment sums: the stage that writes the result,
   unfolded operation by operation down to the segment sums of the embeddings, of the ones and of the hinge, is that
   function of them; likewise its means. Both hold by unfolding definitions, at any float family. -/
import proofs.«401362_j69569880261306_3_alg».proof.Proof.RefReadP
import proofs.«401362_j69569880261306_3_alg».proof.Proof.RefTail

set_option maxRecDepth 8192

noncomputable section

namespace Cert.ReferenceIdeal.Hand

open Cert.ReferenceIdeal Cert.ReferenceIdeal.Gen Cert.ReferenceIdeal.ReadP
open Idealize.ShloMosaic

variable {F : FTy → Type} [FloatOps F]

/-- The means the reference gathers from are the means of its segment sums and counts. -/
theorem ref_means_eq (x0 : (⟨S8x16x512x512, .f32⟩ : BufTy).Contents (Elt F)) (x1 : (⟨S8x512x512, .i32⟩ : BufTy).Contents (Elt F)) :
    val_main_v30 (F := F) x0 x1 = meansR (F := F) (val_main_v14 (F := F) x0 x1) (val_main_v19 (F := F) x1) := rfl

/-- The reference's result is the closing arithmetic of its three segment sums. -/
theorem ref_tail_eq (x0 : (⟨S8x16x512x512, .f32⟩ : BufTy).Contents (Elt F)) (x1 : (⟨S8x512x512, .i32⟩ : BufTy).Contents (Elt F)) :
    val_main_v146 (F := F) x0 x1
      = tailR (F := F) (val_main_v14 (F := F) x0 x1) (val_main_v19 (F := F) x1) (val_main_v70 (F := F) x0 x1) := rfl

end Cert.ReferenceIdeal.Hand

end
-- ==== Proof.Bridge.lean ====
/- The two results are equal. The kernel's @main ends at the closing arithmetic of (its first region's table cut into segment
   sums and counts, its second region's hinge sums); the reference's ends at the same closing arithmetic of its three
   accumulating scatters. Entry by entry the three arrays agree: both sides are the sum over a batch's pixels of the one-hot
   of the label times the embedding's channel, times one, and times the pixel's hinge — the kernel's through its tiles'
   matrix products, the reference's through its scatters, under the precondition that every label is below 17; and the
   means both hinge computations read are the same function of the first two arrays. -/
import proofs.«401362_j69569880261306_3_alg».proof.Proof.BridgeBase
import proofs.«401362_j69569880261306_3_alg».proof.Proof.KI_Val0
import proofs.«401362_j69569880261306_3_alg».proof.Proof.KI_Val1
import proofs.«401362_j69569880261306_3_alg».proof.Proof.KI_Host
import proofs.«401362_j69569880261306_3_alg».proof.Proof.RefScatter
import proofs.«401362_j69569880261306_3_alg».proof.Proof.RefHinge
import proofs.«401362_j69569880261306_3_alg».proof.Proof.RefTailEq

noncomputable section

namespace Cert.Proof.Bridge

open Idealize.ShloMosaic Idealize.ShloMosaic.TcCoe Idealize.ShloMosaic.ValueIdx Idealize.SL.Sem
open Cert.Spec Cert.KernelIdeal Cert.KernelIdeal.Gen Cert.KernelIdeal.Hand Cert.ReferenceIdeal.Hand Cert.ReferenceIdeal.ReadP

variable (m : (ℓ : Loc nD τ sig) → Buf (Elt Ideal) ℓ)

/-- The two arguments on core `c`, as the reference's stages take them. -/
abbrev a0 (c : Dev nD) : X0 := m ((c.tc : Thread nD τ).loc main_arg0)
abbrev a1 (c : Dev nD) : X1 := m ((c.tc : Thread nD τ).loc main_arg1)

/-! ## The regions' entry arrays are the reference's -/

theorem E1 (c : Dev nD) : Ek (atTc (V1 m)) c = Er (a0 m c) := Ek_eq _ c _ (host_v0 m c)
theorem L1 (c : Dev nD) : Lk (atTc (V1 m)) c = Lr (a1 m c) := Lk_eq _ c _ (host_v1 m c)
theorem E3 (c : Dev nD) : Ek (atTc (U3 m)) c = Er (a0 m c) := Ek_eq _ c _ ((U3_v0 m c).trans (host_v0 m c))
theorem L3 (c : Dev nD) : Lk (atTc (U3 m)) c = Lr (a1 m c) := Lk_eq _ c _ ((U3_v1 m c).trans (host_v1 m c))

/-- The kernel's table at an entry, over the reference's views of the arguments. -/
theorem table_at (c : Dev nD) (b : Fin 8) (k j : Fin 17) :
    (res0 m c : Vec Ideal S8x17x17 .f32) (ix3 b k j) = scAt (Er (a0 m c)) (Lr (a1 m c)) b k j := by
  have h := final0 (atTc (V1 m)) c b k j
  rw [E1, L1] at h
  exact h

/-- A column below sixteen of the table: the one-hot times the embedding's channel. -/
theorem scAt_lt (E : Fin 8 → Fin 16 → Fin 262144 → EReal) (L : Fin 8 → Fin 262144 → BitVec 32) (b : Fin 8) (k : Fin 17) (ch : Fin 16)
    (hch : ch.val < 17) : scAt E L b k ⟨ch.val, hch⟩ = ∑ n : Fin 262144, oh k (L b n) * E b ch n := by
  unfold scAt
  refine Finset.sum_congr rfl fun n _ => ?_
  unfold aug
  rw [dif_pos ch.isLt]

/-- The last column of the table: the one-hot times one. -/
theorem scAt_16 (E : Fin 8 → Fin 16 → Fin 262144 → EReal) (L : Fin 8 → Fin 262144 → BitVec 32) (b : Fin 8) (k : Fin 17) :
    scAt E L b k (16 : Fin 17) = ∑ n : Fin 262144, oh k (L b n) * 1 := by
  unfold scAt
  refine Finset.sum_congr rfl fun n _ => ?_
  unfold aug
  rw [dif_neg (by decide)]

variable (hL : ∀ (c : Dev nD) b n, (Lr (a1 m c) b n).toNat < 17)
include hL

/-! ## The three arrays -/

/-- The segment sums: the first sixteen columns of the kernel's table are the reference's first scatter. -/
theorem sums_eq (c : Dev nD) : sumsK (res0 m c) = val_main_v14 (F := Ideal) (a0 m c) (a1 m c) := by
  funext i
  obtain ⟨b, k, ch, rfl⟩ : ∃ (b : Fin 8) (k : Fin 17) (ch : Fin 16), i = ix3 b k ch := ⟨i 0, i 1, i 2, eq_ix3 i⟩
  have hch : ch.val < 17 := lt_trans ch.isLt (by decide)
  have h1 : sumsK (res0 m c) (ix3 b k ch) = (res0 m c : Vec Ideal S8x17x17 .f32) (ix3 b k ⟨ch.val, hch⟩) :=
    extractStridedSlice_apply _ _ _ (ix3 b k ch) (ix3 b k ⟨ch.val, hch⟩) fun a => by
      match a with
      | ⟨0, _⟩ => show b.val = 0 + b.val; omega
      | ⟨1, _⟩ => show k.val = 0 + k.val; omega
      | ⟨2, _⟩ => show ch.val = 0 + ch.val; omega
  exact (h1.trans ((table_at m c b k ⟨ch.val, hch⟩).trans (scAt_lt _ _ b k ch hch))).trans (ref_sums _ _ (hL c) b k ch).symm

/-- The counts: the last column of the kernel's table is the reference's second scatter. -/
theorem counts_eq (c : Dev nD) : countsK (res0 m c) = val_main_v19 (F := Ideal) (a1 m c) := by
  funext i
  obtain ⟨b, k, rfl⟩ : ∃ (b : Fin 8) (k : Fin 17), i = ix2 b k := ⟨i 0, i 1, eq_ix2 i⟩
  have h0 : countsK (res0 m c) (ix2 b k)
      = extractStridedSlice S8x17x1 ![0, 0, 16] (res0 m c) slices_S8x17x17_S8x17x1_0_0_16 (ix3 b k (0 : Fin 1)) := by
    unfold countsK
    exact shapeCast_apply _ _ (ix2 b k) (ix3 b k (0 : Fin 1)) (by
      rewrite [Shape.rowMajor_val_three, Shape.rowMajor_val_two]
      show (b.val * 17 + k.val) * 1 + 0 = b.val * 17 + k.val; omega)
  have h1 : extractStridedSlice S8x17x1 ![0, 0, 16] (res0 m c) slices_S8x17x17_S8x17x1_0_0_16 (ix3 b k (0 : Fin 1))
      = (res0 m c : Vec Ideal S8x17x17 .f32) (ix3 b k (16 : Fin 17)) :=
    extractStridedSlice_apply _ _ _ (ix3 b k (0 : Fin 1)) (ix3 b k (16 : Fin 17)) fun a => by
      match a with
      | ⟨0, _⟩ => show b.val = 0 + b.val; omega
      | ⟨1, _⟩ => show k.val = 0 + k.val; omega
      | ⟨2, _⟩ => show 16 = 16 + 0; omega
  exact (h0.trans (h1.trans ((table_at m c b k (16 : Fin 17)).trans (scAt_16 _ _ b k)))).trans (ref_counts _ (hL c) b k).symm

/-- The means the second region is entered with are the reference's means. -/
theorem means_eq (c : Dev nD) : Mk (atTc (U3 m)) c = Mr (a0 m c) (a1 m c) := by
  funext b k ch
  unfold Mk Mr
  refine (congrFun (U3_v16 (F := Ideal) m c) (ix3 b k ch)).trans ?_
  rw [sums_eq m hL c, counts_eq m hL c, ← ref_means_eq]

/-- The hinge sums: the kernel's second region's column is the reference's third scatter. -/
theorem pis_eq (c : Dev nD) : pisK (res1 m c) = val_main_v70 (F := Ideal) (a0 m c) (a1 m c) := by
  funext i
  obtain ⟨b, k, rfl⟩ : ∃ (b : Fin 8) (k : Fin 17), i = ix2 b k := ⟨i 0, i 1, eq_ix2 i⟩
  have h0 : pisK (res1 m c) (ix2 b k) = (res1 m c : Vec Ideal S8x17x1 .f32) (ix3 b k (0 : Fin 1)) := by
    unfold pisK
    exact shapeCast_apply _ _ (ix2 b k) (ix3 b k (0 : Fin 1)) (by
      rewrite [Shape.rowMajor_val_three, Shape.rowMajor_val_two]
      show (b.val * 17 + k.val) * 1 + 0 = b.val * 17 + k.val; omega)
  have h1 : (res1 m c : Vec Ideal S8x17x1 .f32) (ix3 b k (0 : Fin 1)) = pisAt (Er (a0 m c)) (Lr (a1 m c)) (Mr (a0 m c) (a1 m c)) b k := by
    have h := final1 (atTc (U3 m)) c b k
    rw [E3, L3, means_eq m hL c] at h
    exact h
  have h2 : val_main_v70 (F := Ideal) (a0 m c) (a1 m c) (ix2 b k) = pisAt (Er (a0 m c)) (Lr (a1 m c)) (Mr (a0 m c) (a1 m c)) b k :=
    ref_pis _ _ (hL c) (hingeAt (Er (a0 m c)) (Lr (a1 m c)) (Mr (a0 m c) (a1 m c))) (fun b n => ref_hinge _ _ (hL c) b n) b k
  exact (h0.trans h1).trans h2.symm

/-! ## The results -/

/-- The kernel's result is the reference's result stage of the same arguments. -/
theorem result_eq (c : Dev nD) :
    V13 m (outs m) c main_v98 = val_main_v146 (F := Ideal) (a0 m c) (a1 m c) := by
  rw [V13_v98, ref_tail_eq, sums_eq m hL, counts_eq m hL, pis_eq m hL]

end Cert.Proof.Bridge

end
-- ==== Proof.lean ====
/- The certificate of a discriminative (pull / push / regularisation) loss over 8 images of 512 × 512 pixels with 16-channel
   embeddings and instance labels 0 … 16.

   The kernel's program runs two pipelined kernels over a grid of 8 batches × 8 tiles. The first multiplies, tile by tile, the
   one-hot of the labels with the embeddings joined by an all-ones row, accumulating per batch a [17, 17] table: per label
   the sums of the sixteen channels and the pixel count. The host divides the sums by the counts (raised to at least one):
   the per-instance means. The second kernel selects each pixel's mean by another one-hot product, takes the root of the
   squared distance (1 at a background pixel), the margin max (d - 1/2) 0 squared times the foreground factor, and
   accumulates per batch the one-hot product with that hinge: per label the hinge sums. The host's closing arithmetic
   (presence masks, variance, pairwise distance and regularisation terms, their weighted total) is the reference's own.
   The reference computes the three arrays by accumulating scatters over segment ids 17·batch + label and reads the means by
   a gather at (batch, label).

   Over the extended reals the two agree once every label lies in 0 … 16 (added to the precondition: outside that range the
   reference's segment ids leave the batch and its gather leaves the table): a scatter's sum over the updates landing on
   segment (b, k) is the sum over batch b's pixels of the one-hot of the label at k times the update, which is what the
   kernels' products accumulate over a batch's eight tiles; 0 · x = 0 and 1 · x = x hold for every extended real, so no
   finiteness is used. The three frames: each kernel region's body is run once per case (a batch's first tile resets the
   output block, the others carry it over), the host stretches between the regions leave the arguments alone; the
   reference is a straight line of host operations. The ideal pass rewrote nothing, so `preserves` is `True`. -/
import proofs.«401362_j69569880261306_3_alg».proof.Defs
import proofs.«401362_j69569880261306_3_alg».proof.Proof.Gen.Kernel
import proofs.«401362_j69569880261306_3_alg».proof.Proof.Gen.KernelIdeal
import proofs.«401362_j69569880261306_3_alg».proof.Proof.Gen.ReferenceIdeal
import proofs.«401362_j69569880261306_3_alg».proof.Proof.Gen.Pre_finite_inputs
import proofs.«401362_j69569880261306_3_alg».proof.Proof.K_Regions
import proofs.«401362_j69569880261306_3_alg».proof.Proof.RefFrame
import proofs.«401362_j69569880261306_3_alg».proof.Proof.RefReadEqP
import proofs.«401362_j69569880261306_3_alg».proof.Proof.Bridge
import Idealize.ShloMosaic.Adequacy
import Idealize.ShloMosaic.Init

noncomputable section

namespace Cert.Proof

open Idealize.ShloMosaic Idealize.ShloMosaic.TcCoe Idealize.SL.Sem

/-- At the exact instance the kernel's program and the reference, run from memories agreeing on the arguments, end with the
    same four numbers: the kernel's run ends with its result at the last boundary's contents, the reference's at its last
    stage of the arguments, and the two are equal entry by entry under the labels' range. -/
theorem algebraic : Cert.algebraic_KernelIdeal_ReferenceIdeal := by
  intro m ρ m' ρ' hpre hagree
  have hL : ∀ (c : Dev Cert.KernelIdeal.nD) b n, (Cert.ReferenceIdeal.Hand.Lr (Cert.Proof.Bridge.a1 m c) b n).toNat < 17 :=
    fun c b n => Cert.Proof.Bridge.lab_lt_ref (Cert.Proof.Bridge.a0 m c) (Cert.Proof.Bridge.a1 m c) (hpre c) b n
  refine ⟨fun c => Cert.KernelIdeal.Gen.V13 m (Cert.KernelIdeal.Hand.outs m) c Cert.KernelIdeal.main_v98, Cert.KernelIdeal.Hand.run_val m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v146_eq, (hagree c).1, (hagree c).2]
  exact (Cert.Proof.Bridge.result_eq m hL c).symm

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  Cert.Proof.RefFrame.frame_ref,
  trivial,
  algebraic⟩

end Cert.Proof

end
